-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x2048 : Shape := ⟨2, ![2048, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn_part1 {F : FTy → Type} [FloatOps F] (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  main_v18

def fn {F : FTy → Type} [FloatOps F] (main_arg0 : FVec F S4096x2048 .f32) (main_arg1 : FVec F S2048x2048 .f32) (main_arg2 : FVec F S2048x2048 .f32) (main_arg3 : FVec F S2048x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_v13 main_v16
-- ==== Kernel.lean ====
abbrev S4096x2048 : Shape := ⟨2, ![4096, 2048]⟩
abbrev S2048x2048 : Shape := ⟨2, ![2048, 2048]⟩
abbrev S1x2048x2048 : Shape := ⟨3, ![1, 2048, 2048]⟩
abbrev S3x2048x2048 : Shape := ⟨3, ![3, 2048, 2048]⟩
abbrev S3x4096x2048 : Shape := ⟨3, ![3, 4096, 2048]⟩
abbrev S1024x1024 : Shape := ⟨2, ![1024, 1024]⟩
abbrev S1x1024x2048 : Shape := ⟨3, ![1, 1024, 2048]⟩
abbrev S1024x2048 : Shape := ⟨2, ![1024, 2048]⟩
abbrev S1x512x2048 : Shape := ⟨3, ![1, 512, 2048]⟩
abbrev S512x2048 : Shape := ⟨2, ![512, 2048]⟩
abbrev S512x1 : Shape := ⟨2, ![512, 1]⟩
abbrev S512x1024 : Shape := ⟨2, ![512, 1024]⟩
abbrev S512 : Shape := ⟨1, ![512]⟩

abbrev nBuf : Space → Nat
  | .hbm => 12
  | .vmem => 18
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S1x2048x2048, .f32⟩
  | .hbm, ⟨5, _⟩ => ⟨S1x2048x2048, .f32⟩
  | .hbm, ⟨6, _⟩ => ⟨S1x2048x2048, .f32⟩
  | .hbm, ⟨7, _⟩ => ⟨S3x2048x2048, .f32⟩
  | .hbm, ⟨8, _⟩ => ⟨S3x2048x2048, .bf16⟩
  | .hbm, ⟨9, _⟩ => ⟨S4096x2048, .bf16⟩
  | .hbm, ⟨10, _⟩ => ⟨S3x4096x2048, .bf16⟩
  | .hbm, ⟨11, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S1024x2048, .f32⟩
  | .local _ .vmem, ⟨7, _⟩ => ⟨S1x512x2048, .bf16⟩
  | .local _ .vmem, ⟨8, _⟩ => ⟨S1x512x2048, .bf16⟩
  | .local _ .vmem, ⟨9, _⟩ => ⟨S1x1024x2048, .bf16⟩
  | .local _ .vmem, ⟨10, _⟩ => ⟨S1x1024x2048, .bf16⟩
  | .local _ .vmem, ⟨11, _⟩ => ⟨S1x1024x2048, .bf16⟩
  | .local _ .vmem, ⟨12, _⟩ => ⟨S1x1024x2048, .bf16⟩
  | .local _ .vmem, ⟨13, _⟩ => ⟨S512x2048, .f32⟩
  | .local _ .vmem, ⟨14, _⟩ => ⟨S512x2048, .f32⟩
  | .local _ .vmem, ⟨15, _⟩ => ⟨S512x1, .f32⟩
  | .local _ .vmem, ⟨16, _⟩ => ⟨S512x1, .f32⟩
  | .local _ .vmem, ⟨17, _⟩ => ⟨S512x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc1_scratch1 : Ref sig .tc := ⟨.vmem, 16, rfl⟩
abbrev cc1_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨3, ![3, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v43 : BitVec 1 := Scalar.cmpi .eq arg1 c3_i32
  let v44 : BitVec 32 := Scalar.extui v43
  let c0_i32_27 : BitVec 32 := 0#32
  let v45 : BitVec 1 := Scalar.cmpi .ne v44 c0_i32_27
  v45

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1x512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x1024x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  bcast_S2048x2048_S1x2048x2048_1_2 : S2048x2048.BroadcastsInDim S1x2048x2048 (![1, 2] : Fin 2 → Fin S1x2048x2048.rank)
  concatenates_S1x2048x2048_S1x2048x2048_S1x2048x2048_S3x2048x2048_d0 : Shape.Concatenates [S1x2048x2048, S1x2048x2048, S1x2048x2048] S3x2048x2048 0
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  shapeCasts_S1024x2048_S1x1024x2048 : S1024x2048.ShapeCasts S1x1024x2048
  packedbf16_S1x1024x2048_S1x1024x2048_0_0_0 : (Rect.unit (s := S1x1024x2048) ![0, 0, 0] S1x1024x2048.size inb_S1x1024x2048_S1x1024x2048_0_0_0).PackedRows (EltTy.packing .bf16)
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  reduces_S512x1024_S512 : S512x1024.Reduces [1] S512
  shapeCasts_S512_S512x1 : S512.ShapeCasts S512x1
  broadcasts_S512x1_S512x1024 : S512x1.Broadcasts S512x1024
  broadcasts_S512x1_S512x2048 : S512x1.Broadcasts S512x2048
  dot_S1024x1024_S1024x2048_S1024x2048_1_0_0_1_n_n_wf : DotDims.WF S1024x1024 S1024x2048 S1024x2048 [1] [0] [0] [1] [] []
  dot_S512x2048_S1024x2048_S512x1024_1_1_0_0_n_n_wf : DotDims.WF S512x2048 S1024x2048 S512x1024 [1] [1] [0] [0] [] []
  dot_S512x1024_S1024x2048_S512x2048_1_0_0_1_n_n_wf : DotDims.WF S512x1024 S1024x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x2048.size a
  hwx0_0 : ∀ i : grid0.Coords, EltTy.bits .bf16 = 32 ∨ (Rect.block (s := S4096x2048) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x2048.size a ≤ S3x2048x2048.size a
  hwx0_1 : ∀ i : grid0.Coords, EltTy.bits .bf16 = 32 ∨ (Rect.block (s := S3x2048x2048) S1x1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x2048.size a ≤ S3x4096x2048.size a
  hwx0_2 : ∀ i : grid0.Coords, EltTy.bits .bf16 = 32 ∨ (Rect.block (s := S3x4096x2048) S1x1024x2048.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x2048.size a ≤ S3x4096x2048.size a
  hwx1_0 : ∀ i : grid1.Coords, EltTy.bits .bf16 = 32 ∨ (Rect.block (s := S3x4096x2048) S1x512x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x2048.size a ≤ S3x4096x2048.size a
  hwx1_1 : ∀ i : grid1.Coords, EltTy.bits .bf16 = 32 ∨ (Rect.block (s := S3x4096x2048) S1x1024x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x2048.size a ≤ S3x4096x2048.size a
  hwx1_2 : ∀ i : grid1.Coords, EltTy.bits .bf16 = 32 ∨ (Rect.block (s := S3x4096x2048) S1x1024x2048.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x2048.size a ≤ S4096x2048.size a
  hwx1_3 : ∀ i : grid1.Coords, EltTy.bits .f32 = 32 ∨ (Rect.block (s := S4096x2048) S512x2048.size (cc1_transform_3 i) (hinb1_3 i)).WholeWords (EltTy.packing .f32)

variable [Facts₀]

def dot_S1024x1024_S1024x2048_S1024x2048_1_0_0_1_n_n : DotDims S1024x1024 S1024x2048 S1024x2048 where
  lhsContracting := [1]
  rhsContracting := [0]
  lhsNonContracting := [0]
  rhsNonContracting := [1]
  lhsBatch := []
  rhsBatch := []
  wf := dot_S1024x1024_S1024x2048_S1024x2048_1_0_0_1_n_n_wf
def dot_S512x2048_S1024x2048_S512x1024_1_1_0_0_n_n : DotDims S512x2048 S1024x2048 S512x1024 where
  lhsContracting := [1]
  rhsContracting := [1]
  lhsNonContracting := [0]
  rhsNonContracting := [0]
  lhsBatch := []
  rhsBatch := []
  wf := dot_S512x2048_S1024x2048_S512x1024_1_1_0_0_n_n_wf
def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf

abbrev win0_0 : Pipeline.Window sig grid0 :=
  Pipeline.Window.ofSpec (Memref.whole main_v5) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v6) S1x512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1x1024x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x1024x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S512x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4096x2048 : Shape := ⟨2, ![4096, 2048]⟩
abbrev S2048x2048 : Shape := ⟨2, ![2048, 2048]⟩
abbrev S2048x4096 : Shape := ⟨2, ![2048, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x4096, .f32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096, .f32⟩
  | .hbm, ⟨14, _⟩ => ⟨S_, .f32⟩
  | .hbm, ⟨15, _⟩ => ⟨S4096, .f32⟩
  | .hbm, ⟨16, _⟩ => ⟨S4096, .f32⟩
  | .hbm, ⟨17, _⟩ => ⟨S4096x1, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S4096x4096, .f32⟩
  | .hbm, ⟨25, _⟩ => ⟨S4096x4096, .f32⟩
  | .hbm, ⟨26, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  transposes_S4096x2048_S2048x4096_1_0 : S4096x2048.Transposes [1, 0] S2048x4096
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  dot_S4096x2048_S2048x2048_S4096x2048_1_0_0_1_n_n_wf : DotDims.WF S4096x2048 S2048x2048 S4096x2048 [1] [0] [0] [1] [] []
  dot_S4096x2048_S2048x4096_S4096x4096_1_0_0_1_n_n_wf : DotDims.WF S4096x2048 S2048x4096 S4096x4096 [1] [0] [0] [1] [] []
  dot_S4096x4096_S4096x2048_S4096x2048_1_0_0_1_n_n_wf : DotDims.WF S4096x4096 S4096x2048 S4096x2048 [1] [0] [0] [1] [] []

variable [Facts₀]

def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf
def dot_S4096x2048_S2048x4096_S4096x4096_1_0_0_1_n_n : DotDims S4096x2048 S2048x4096 S4096x4096 where
  lhsContracting := [1]
  rhsContracting := [0]
  lhsNonContracting := [0]
  rhsNonContracting := [1]
  lhsBatch := []
  rhsBatch := []
  wf := dot_S4096x2048_S2048x4096_S4096x4096_1_0_0_1_n_n_wf
def dot_S4096x4096_S4096x2048_S4096x2048_1_0_0_1_n_n : DotDims S4096x4096 S4096x2048 S4096x2048 where
  lhsContracting := [1]
  rhsContracting := [0]
  lhsNonContracting := [0]
  rhsNonContracting := [1]
  lhsBatch := []
  rhsBatch := []
  wf := dot_S4096x4096_S4096x2048_S4096x2048_1_0_0_1_n_n_wf

class Facts : Prop extends Facts₀ where

variable [Facts]
-- ==== Proof.Bits.R0Base.lean ====
/-
  The projection kernel (the first pallas_call), shared by its two control cases: the grid is (p, i, k) with
  k ∈ {0, 1} the reduction step. At k = 0 the accumulator scratch is reset before the partial product is added;
  at k = 1 the accumulated product is rounded and stored to the output block, which the pipeline writes back there.
  Here: the two branch conditions in closed form over the 24 grid points, where the output window is idle, the
  staging memrefs the pipeline passes at a point, and the region invariant with the scratch buffer singled out.
-/
import proofs.«409648_j16458314678750_3_alg».proof.Proof.Gen.Kernel.Launch
import proofs.«409648_j16458314678750_3_alg».proof.Proof.Gen.Kernel.Skeleton
import proofs.«409648_j16458314678750_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two branch conditions over the grid -/

/-- The reduction coordinate is 0: the accumulator is reset at this point. -/
abbrev kFirst0 (i : grid0.Coords) : Prop :=
  (Scalar.cmpi .ne (Scalar.extui (Scalar.cmpi .eq (BitVec.ofNat 32 (i 2).val) 0#32)) 0#32) = 1#1
/-- Points are numbered with the reduction coordinate fastest: it is 0 exactly at the even points. -/
theorem kFirst0_iff : ∀ t : Fin cfg0.N, kFirst0 (grid0.coords t) ↔ t.val % 2 = 0 :=
  (by decide +kernel : ∀ t : Fin grid0.N, kFirst0 (grid0.coords t) ↔ t.val % 2 = 0)

/-- The reduction coordinate is 1, the last: the output block is stored at this point. -/
abbrev kLast0 (i : grid0.Coords) : Prop := k0_cond2 i = 1#1
theorem kLast0_iff : ∀ t : Fin cfg0.N, kLast0 (grid0.coords t) ↔ t.val % 2 = 1 :=
  (by decide +kernel : ∀ t : Fin grid0.N, kLast0 (grid0.coords t) ↔ t.val % 2 = 1)

/-! ## Where the windows are idle -/

theorem live0_0 : ∀ t : Fin cfg0.N, cfg0.idle 0 (grid0.coords t) = false := by decide +kernel
theorem live0_1 : ∀ t : Fin cfg0.N, cfg0.idle 1 (grid0.coords t) = false := by decide +kernel
/-- At a first reduction step nothing is stored into the output block and the pipeline does not write it back. -/
theorem idle0_2_first : ∀ t : Fin cfg0.N, kFirst0 (grid0.coords t) → ¬kLast0 (grid0.coords t) → cfg0.idle 2 (grid0.coords t) = true := by decide +kernel
theorem noFlush0_2_first : ∀ t : Fin cfg0.N, kFirst0 (grid0.coords t) → ¬kLast0 (grid0.coords t) → (cfg0.win 2).flush t = false := by decide +kernel
/-- At a last reduction step the output block is stored whole. -/
theorem live0_2_last : ∀ t : Fin cfg0.N, ¬kFirst0 (grid0.coords t) → kLast0 (grid0.coords t) → cfg0.idle 2 (grid0.coords t) = false := by decide +kernel

/-! ## The memrefs the body is called with -/

abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x2048 .bf16 := win0_2.stage (cfg0.slots t 2)
abbrev hs0_2 (t : Fin cfg0.N) : (ms0_2 t).IsWhole := hstage0_2 ((cfg0.slots t 2).cast nbuf0_2)
/-- The accumulator scratch, a whole scoped buffer of the kernel's own. -/
abbrev scM0 : Memref sig .tc .vmem S1024x2048 .f32 := Memref.whole cc0_scratch0
/-- One staging buffer of the output window, through which a block's contents are stated. -/
abbrev VO0_2 : View sig .tc .vmem S1x1024x2048 .bf16 := (Memref.whole cc0_stg2_0 : Memref sig .tc .vmem S1x1024x2048 .bf16).view
abbrev VS0 : View sig .tc .vmem S1024x2048 .f32 := scM0.view

/-! ## The region invariant with the accumulator singled out -/

/-- The scoped buffers of the core that this kernel never names (the second kernel's staging and scratch buffers),
    each whole at some contents. -/
def otherScoped0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f))

/-- The class invariant of the region (every scoped buffer that is no staging buffer at some contents, the generator
    register at some state) with the accumulator scratch as an owned memref. -/
theorem PhiA0_eq (c : Dev nD) :
    (Pipeline.ΦA spec0 c : sProp 𝕄)
      = iprop(iprop((∃ d, owns (c : Thread nD τ) scM0 fullShare d) ∗ otherScoped0 c) ∗ (∃ r, prngReg c r)) := by
  unfold Pipeline.ΦA otherScoped0; rw [scopedRest0_eq]; simp only [scM0, owns_whole]; try rfl

end Cert.Kernel.Hand

end
-- ==== Proof.Bits.R0RunFirst.lean ====
/-
  The projection kernel's body at a FIRST reduction step (k = 0): the accumulator scratch, found at anything, is
  reset and then receives the first partial product; nothing is stored into the output block. The run is made on
  any whole staging memrefs; what the scratch ends with is kept as the list of pieces the stores wrote.
-/
import proofs.«409648_j16458314678750_3_alg».proof.Proof.Bits.R0Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- At a first reduction step, from the two input blocks at `x0`, `x1`, the output block's buffer at `xi2` and the
    scratch at anything, the body runs to the inputs and the output buffer as they were and the scratch with the
    pieces `LS0` written. -/
noncomputable def run0_first (c : Dev nD) (i : grid0.Coords)
    (arg3 : Memref sig .tc .vmem S1024x1024 .bf16) (harg3 : arg3.IsWhole) (arg4 : Memref sig .tc .vmem S1x1024x2048 .bf16) (harg4 : arg4.IsWhole)
    (arg5 : Memref sig .tc .vmem S1x1024x2048 .bf16) (harg5 : arg5.IsWhole) (arg6 : Memref sig .tc .vmem S1024x2048 .f32) (harg6 : arg6.IsWhole)
    (hc0 : kFirst0 i) (hc1 : ¬kLast0 i) (x0 : Vec F S1024x1024 .bf16) (x1 : Vec F S1x1024x2048 .bf16) :
    { LS0 : List (View.Piece (Elt F) S1024x2048 .f32) //
      ∀ (xi2 : Vec F S1x1024x2048 .bf16) (E : Set ℕ) (K : PUnit → sProp 𝕄),
        iprop(owns (c : Thread nD τ) arg3 fullShare x0 ∗ owns (c : Thread nD τ) arg4 fullShare x1 ∗ owns (c : Thread nD τ) arg5 fullShare xi2
            ∗ (∃ d, owns (c : Thread nD τ) arg6 fullShare d)
            ∗ (iprop(owns (c : Thread nD τ) arg3 fullShare x0 ∗ owns (c : Thread nD τ) arg4 fullShare x1 ∗ owns (c : Thread nD τ) arg5 fullShare xi2
                ∗ (∃ f, arg6.view.loc (c : Thread nD τ) ↦[arg6.view.set]{fullShare} arg6.view.writes (Elt F) f LS0)) -∗ K ⟨⟩))
          ⊢ wp frame (wpE (defs₀ (F := F)) Variants.none c none) E (cc0__qkv_proj_kernel i arg3 harg3 arg4 harg4 arg5 harg5 arg6 harg6) K } := by
  refine ⟨?_, fun xi2 E K => ?run⟩
  case run =>
    simp only [cc0__qkv_proj_kernel_eq_skeleton]; unfold cc0__qkv_proj_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Hand

end
-- ==== Proof.Bits.R0RunLast.lean ====
/-
  The projection kernel's body at a LAST reduction step (k = 1): the scratch, found at what the step before left,
  receives the second partial product added to it; the sum is then read back, rounded to the output's format and
  stored over the whole output block, whose buffer is found at anything.
-/
import proofs.«409648_j16458314678750_3_alg».proof.Proof.Bits.R0Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- At a last reduction step, from the two input blocks at `x0`, `x1`, the output block's buffer at anything and the
    scratch at `xs0`, the body runs to the inputs as they were, the output buffer with the pieces `L2` written and the
    scratch with the pieces `LS0` written. -/
noncomputable def run0_last (c : Dev nD) (i : grid0.Coords)
    (arg3 : Memref sig .tc .vmem S1024x1024 .bf16) (harg3 : arg3.IsWhole) (arg4 : Memref sig .tc .vmem S1x1024x2048 .bf16) (harg4 : arg4.IsWhole)
    (arg5 : Memref sig .tc .vmem S1x1024x2048 .bf16) (harg5 : arg5.IsWhole) (arg6 : Memref sig .tc .vmem S1024x2048 .f32) (harg6 : arg6.IsWhole)
    (hc0 : ¬kFirst0 i) (hc1 : kLast0 i) (x0 : Vec F S1024x1024 .bf16) (x1 : Vec F S1x1024x2048 .bf16) (xs0 : Vec F S1024x2048 .f32) :
    Σ' (L2 : List (View.Piece (Elt F) S1x1024x2048 .bf16)), { LS0 : List (View.Piece (Elt F) S1024x2048 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d)
            ∗ owns (c : Thread nD τ) arg6 fullShare xs0
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)
                ∗ (∃ f, arg6.view.loc (c : Thread nD τ) ↦[arg6.view.set]{fullShare} arg6.view.writes (Elt F) f LS0)) -∗ K ⟨⟩))
          ⊢ wp frame (wpE (defs₀ (F := F)) Variants.none c none) E (cc0__qkv_proj_kernel i arg3 harg3 arg4 harg4 arg5 harg5 arg6 harg6) K } := by
  refine ⟨?_, ?_, fun E K => ?run⟩
  case run =>
    simp only [cc0__qkv_proj_kernel_eq_skeleton]; unfold cc0__qkv_proj_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.Kernel.Hand

end
-- ==== Proof.Bits.R0Dat.lean ====
/-
  The projection kernel's proof data. Parameter `V`: the core's unscoped buffers as the region finds them.
  The accumulator scratch after point n is defined by recursion on the point: at a first reduction step the partial
  product of the point's two blocks added to zero, at a last one the same added to what the step before left. The
  output block written back at a last step is that sum rounded to the output's format. The region invariant holds
  the class invariant before the first point and afterwards the scratch at the accumulator's value, the core's other
  scoped buffers at anything and the generator register at some state.
-/
import proofs.«409648_j16458314678750_3_alg».proof.Proof.Bits.R0RunFirst
import proofs.«409648_j16458314678750_3_alg».proof.Proof.Bits.R0RunLast

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' block and the weights' block at a point, at their literal vector types. -/
abbrev xblk0 (c : Dev nD) (t : Fin cfg0.N) : Vec F S1024x1024 .bf16 := iblk0 V c 0 t
abbrev wblk0 (c : Dev nD) (t : Fin cfg0.N) : Vec F S1x1024x2048 .bf16 := iblk0 V c 1 t

/-! ## The accumulator, point by point -/

/-- What the accumulator scratch holds after the body at point `n`. -/
def acc0 (c : Dev nD) : (n : ℕ) → n < cfg0.N → Vec F S1024x2048 .f32
  | 0, hn => k0_pay2 (k0_pay1 (F := F)) (xblk0 V c ⟨0, hn⟩) (wblk0 V c ⟨0, hn⟩)
  | n + 1, hn =>
    if (n + 1) % 2 = 0 then k0_pay2 (k0_pay1 (F := F)) (xblk0 V c ⟨n + 1, hn⟩) (wblk0 V c ⟨n + 1, hn⟩)
    else k0_pay2 (acc0 c n (Nat.lt_of_succ_lt hn)) (xblk0 V c ⟨n + 1, hn⟩) (wblk0 V c ⟨n + 1, hn⟩)

/-- At a first reduction step: the partial product added to zero. -/
theorem acc0_first (c : Dev nD) (t : Fin cfg0.N) (h : t.val % 2 = 0) :
    acc0 V c t.val t.isLt = k0_pay2 (k0_pay1 (F := F)) (xblk0 V c t) (wblk0 V c t) := by
  obtain ⟨n, hn⟩ := t
  cases n with
  | zero => rfl
  | succ n => exact if_pos h

/-- At a last reduction step: the partial product added to what the step before left. -/
theorem acc0_last (c : Dev nD) (t : Fin cfg0.N) (h : t.val % 2 = 1) :
    acc0 V c t.val t.isLt = k0_pay2 (acc0 V c (t.val - 1) (Nat.lt_of_le_of_lt (Nat.sub_le _ _) t.isLt)) (xblk0 V c t) (wblk0 V c t) := by
  obtain ⟨n, hn⟩ := t
  cases n with
  | zero => exfalso; dsimp only at h; omega
  | succ n => exact if_neg (by dsimp only at h; omega)

/-! ## The invariant -/

/-- The region invariant before position `n`: the class invariant before the first point; afterwards the scratch at
    the accumulator's value after the point before. -/
def PhiS0 (c : Dev nD) : (n : ℕ) → n ≤ cfg0.N → sProp 𝕄
  | 0, _ => Pipeline.ΦA spec0 c
  | n + 1, hn => iprop(iprop(owns (c : Thread nD τ) scM0 fullShare (acc0 V c n hn) ∗ otherScoped0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare (acc0 V c n hn) ∗ otherScoped0 c) ∗ (∃ r, prngReg c r)) := rfl
theorem PhiS0_pos (c : Dev nD) (n : ℕ) (h : n ≤ cfg0.N) (hz : n ≠ 0) :
    PhiS0 V c n h = iprop(iprop(owns (c : Thread nD τ) scM0 fullShare (acc0 V c (n - 1) (by omega)) ∗ otherScoped0 c) ∗ (∃ r, prngReg c r)) := by
  cases n with
  | zero => exact absurd rfl hz
  | succ n => rfl

/-! ## The proof data -/

/-- The arrays as the region finds them; after the body each input's buffer at its block and the output's at the
    rounded accumulator; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (acc0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay3 (acc0 V c t.val t.isLt) := by dsimp only [dat0]

/-- Each input's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

end Cert.Kernel.Hand

end
-- ==== Proof.Bits.R0Body.lean ====
/-
  The projection kernel's body obligation. First, what the two runs' stores leave, read back: the last store into a
  buffer covers it whole, so the buffer reads as that store's payload; a load after a covering store reads the payload
  stored. Then the obligation at a generic point: the inputs' buffers hold their blocks, the parity of the point
  says which run applies, the invariant hands over the scratch (at anything before the first point, at the
  accumulator's previous value afterwards) and takes it back at the accumulator's value at this point.
-/
import proofs.«409648_j16458314678750_3_alg».proof.Proof.Bits.R0Dat
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem zero2 : (![0, 0] : Fin 2 → ℕ) = fun _ => 0 := by funext a; fin_cases a <;> rfl
theorem zero3 : (![0, 0, 0] : Fin 3 → ℕ) = fun _ => 0 := by funext a; fin_cases a <;> rfl

/-! ## What the runs leave -/

section Pieces

variable (c : Dev nD) (i : grid0.Coords)
  (arg3 : Memref sig .tc .vmem S1024x1024 .bf16) (harg3 : arg3.IsWhole) (arg4 : Memref sig .tc .vmem S1x1024x2048 .bf16) (harg4 : arg4.IsWhole)
  (arg5 : Memref sig .tc .vmem S1x1024x2048 .bf16) (harg5 : arg5.IsWhole) (arg6 : Memref sig .tc .vmem S1024x2048 .f32) (harg6 : arg6.IsWhole)
  (x0 : Vec F S1024x1024 .bf16) (x1 : Vec F S1x1024x2048 .bf16)

theorem scover0_first (hc0 : kFirst0 i) (hc1 : ¬kLast0 i) (y : S1024x2048.Idx) :
    ∃ pc ∈ (run0_first c i arg3 harg3 arg4 harg4 arg5 harg5 arg6 harg6 hc0 hc1 x0 x1).1, y ∈ pc.1.set :=
  View.cover_of_tiledL (run0_first c i arg3 harg3 arg4 harg4 arg5 harg5 arg6 harg6 hc0 hc1 x0 x1).1 S1024x2048.size (by sl_kernel_rfl) y

/-- After a first step the scratch reads as the partial product added to the zero it was reset to. -/
theorem sread0_first (hc0 : kFirst0 i) (hc1 : ¬kLast0 i) (f : arg6.view.ty.Contents (Elt F)) :
    arg6.view.read (Elt F) (arg6.view.writes (Elt F) f (run0_first c i arg3 harg3 arg4 harg4 arg5 harg5 arg6 harg6 hc0 hc1 x0 x1).1)
      = k0_pay2 (k0_pay1 (F := F)) x0 x1 := by
  rw [View.read_writes_eq_canon _ _ _ (scover0_first c i arg3 harg3 arg4 harg4 arg5 harg5 arg6 harg6 x0 x1 hc0 hc1)]
  unfold run0_first; dsimp only; sl_unfold_words
  rw [View.canon_cons_unit_zero (S := S1024x2048) zero2]
  simp only [View.readAt_eq_ld, harg3.read_unread, harg4.read_unread, View.ld_unit_zero (S := S1024x1024) zero2,
    View.ld_unit_zero (S := S1x1024x2048) zero3, View.readCov_unit_zero (S := S1024x2048) _ zero2]

variable (xs0 : Vec F S1024x2048 .f32)

theorem scover0_last (hc0 : ¬kFirst0 i) (hc1 : kLast0 i) (y : S1024x2048.Idx) :
    ∃ pc ∈ (run0_last c i arg3 harg3 arg4 harg4 arg5 harg5 arg6 harg6 hc0 hc1 x0 x1 xs0).2.1, y ∈ pc.1.set :=
  View.cover_of_tiledL (run0_last c i arg3 harg3 arg4 harg4 arg5 harg5 arg6 harg6 hc0 hc1 x0 x1 xs0).2.1 S1024x2048.size (by sl_kernel_rfl) y
theorem ocover0_last (hc0 : ¬kFirst0 i) (hc1 : kLast0 i) (y : S1x1024x2048.Idx) :
    ∃ pc ∈ (run0_last c i arg3 harg3 arg4 harg4 arg5 harg5 arg6 harg6 hc0 hc1 x0 x1 xs0).1, y ∈ pc.1.set :=
  View.cover_of_tiledL (run0_last c i arg3 harg3 arg4 harg4 arg5 harg5 arg6 harg6 hc0 hc1 x0 x1 xs0).1 S1x1024x2048.size (by sl_kernel_rfl) y

/-- After a last step the scratch reads as the partial product added to what it held. -/
theorem sread0_last (hc0 : ¬kFirst0 i) (hc1 : kLast0 i) (f : arg6.view.ty.Contents (Elt F)) :
    arg6.view.read (Elt F) (arg6.view.writes (Elt F) f (run0_last c i arg3 harg3 arg4 harg4 arg5 harg5 arg6 harg6 hc0 hc1 x0 x1 xs0).2.1)
      = k0_pay2 xs0 x0 x1 := by
  rw [View.read_writes_eq_canon _ _ _ (scover0_last c i arg3 harg3 arg4 harg4 arg5 harg5 arg6 harg6 x0 x1 xs0 hc0 hc1)]
  unfold run0_last; dsimp only; sl_unfold_words
  rw [View.canon_unit_zero (S := S1024x2048) zero2]
  simp only [View.readAt_eq_ld, harg3.read_unread, harg4.read_unread, harg6.read_unread, View.ld_unit_zero (S := S1024x1024) zero2,
    View.ld_unit_zero (S := S1x1024x2048) zero3, View.ld_unit_zero (S := S1024x2048) zero2]

/-- and the output block reads as that sum rounded to the output's format. -/
theorem oread0_last (hc0 : ¬kFirst0 i) (hc1 : kLast0 i) (f : arg5.view.ty.Contents (Elt F)) :
    arg5.view.read (Elt F) (arg5.view.writes (Elt F) f (run0_last c i arg3 harg3 arg4 harg4 arg5 harg5 arg6 harg6 hc0 hc1 x0 x1 xs0).1)
      = k0_pay3 (k0_pay2 xs0 x0 x1) := by
  rw [View.read_writes_eq_canon _ _ _ (ocover0_last c i arg3 harg3 arg4 harg4 arg5 harg5 arg6 harg6 x0 x1 xs0 hc0 hc1)]
  unfold run0_last; dsimp only; sl_unfold_words
  rw [View.canon_unit_zero (S := S1x1024x2048) zero3]
  simp only [View.readAt_eq_ld, harg3.read_unread, harg4.read_unread, harg6.read_unread, View.ld_unit_zero (S := S1024x1024) zero2,
    View.ld_unit_zero (S := S1x1024x2048) zero3, View.ld_unit_zero (S := S1024x2048) zero2, View.readCov_unit_zero (S := S1024x2048) _ zero2]

end Pieces

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 24 := lt_of_lt_of_eq t.isLt (show cfg0.N = 24 from N_0)
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  by_cases h0 : t.val % 2 = 0
  · have hc0 : kFirst0 (grid0.coords t) := (kFirst0_iff t).mpr h0
    have hc1 : ¬kLast0 (grid0.coords t) := fun h => by have := (kLast0_iff t).mp h; omega
    rw [Dat.leavesExact_idle (dat0 V c) 2 t (idle0_2_first t hc0 hc1) (noFlush0_2_first t hc0 hc1)]
    rw [acc0_first V c t h0]
    by_cases hz : t.val = 0
    · rw [PhiS0_castSucc V c t, PhiS0_zero V c _ _ hz, PhiA0_eq]
      iintro ⟨⟨⟨HS0, Hoth⟩, Hg⟩, Ho, ⟨%d0, H0⟩, ⟨%d1, H1⟩, ⟨%d2, H2⟩⟩
      iapply ((run0_first c (grid0.coords t) _ _ _ _ _ _ _ _ hc0 hc1 (xblk0 V c t) (wblk0 V c t)).2 _ Set.univ _)
      isplitl [H0]; · iexact H0
      isplitl [H1]; · iexact H1
      isplitl [H2]; · iexact H2
      isplitl [HS0]; · iexact HS0
      iintro ⟨H0, H1, H2, ⟨%fs0, HS0⟩⟩
      isplitl [HS0 Hoth Hg]
      · isplitl [HS0 Hoth]
        · isplitl [HS0]
          · unfold owns; iexists _; isplitr
            swap; · iexact HS0
            ipureintro; exact sread0_first c _ _ _ _ _ _ _ _ _ _ _ hc0 hc1 _
          iexact Hoth
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HS0, Hoth⟩, Hg⟩, Ho, ⟨%d0, H0⟩, ⟨%d1, H1⟩, ⟨%d2, H2⟩⟩
      iapply ((run0_first c (grid0.coords t) _ _ _ _ _ _ _ _ hc0 hc1 (xblk0 V c t) (wblk0 V c t)).2 _ Set.univ _)
      isplitl [H0]; · iexact H0
      isplitl [H1]; · iexact H1
      isplitl [H2]; · iexact H2
      isplitl [HS0]; · iexists _; iexact HS0
      iintro ⟨H0, H1, H2, ⟨%fs0, HS0⟩⟩
      isplitl [HS0 Hoth Hg]
      · isplitl [HS0 Hoth]
        · isplitl [HS0]
          · unfold owns; iexists _; isplitr
            swap; · iexact HS0
            ipureintro; exact sread0_first c _ _ _ _ _ _ _ _ _ _ _ hc0 hc1 _
          iexact Hoth
        iexact Hg
      isplitl [Ho]; · iexact Ho
      isplitl [H0]; · iexact H0
      isplitl [H1]; · iexact H1
      iexists _; iexact H2
  · have h1 : t.val % 2 = 1 := by omega
    have hc0 : ¬kFirst0 (grid0.coords t) := fun h => h0 ((kFirst0_iff t).mp h)
    have hc1 : kLast0 (grid0.coords t) := (kLast0_iff t).mpr h1
    have hz : t.val ≠ 0 := by omega
    rw [show (dat0 V c).leavesExact 2 t = owns (c : Thread nD τ) (ms0_2 t) fullShare ((dat0 V c).after 2 t) from by
      unfold Dat.leavesExact; rw [live0_2_last t hc0 hc1], after0_2]
    rw [acc0_last V c t h1]
    rw [PhiS0_castSucc V c t, PhiS0_pos V c _ _ hz]
    iintro ⟨⟨⟨HS0, Hoth⟩, Hg⟩, Ho, ⟨%d0, H0⟩, ⟨%d1, H1⟩, ⟨%d2, H2⟩⟩
    iapply ((run0_last c (grid0.coords t) _ _ _ _ _ _ _ _ hc0 hc1 (xblk0 V c t) (wblk0 V c t) _).2.2 Set.univ _)
    isplitl [H0]; · iexact H0
    isplitl [H1]; · iexact H1
    isplitl [H2]; · iexists _; iexact H2
    isplitl [HS0]; · iexact HS0
    iintro ⟨H0, H1, ⟨%f2, H2⟩, ⟨%fs0, HS0⟩⟩
    isplitl [HS0 Hoth Hg]
    · isplitl [HS0 Hoth]
      · isplitl [HS0]
        · unfold owns; iexists _; isplitr
          swap; · iexact HS0
          ipureintro; exact sread0_last c _ _ _ _ _ _ _ _ _ _ _ _ hc0 hc1 _
        iexact Hoth
      iexact Hg
    isplitl [Ho]; · iexact Ho
    isplitl [H0]; · iexact H0
    isplitl [H1]; · iexact H1
    unfold owns; iexists _; isplitr
    swap; · iexact H2
    ipureintro; exact oread0_last c _ _ _ _ _ _ _ _ _ _ _ _ hc0 hc1 _

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is handed is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class invariant back: the accumulator's value is forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 24 := N_0; omega), PhiA0_eq]
  iintro ⟨⟨HS0, Hoth⟩, Hg⟩
  isplitl [HS0 Hoth]
  · isplitl [HS0]
    · iexists _; iexact HS0
    iexact Hoth
  iexact Hg

end Cert.Kernel.Hand

end
-- ==== Proof.Bits.R1Base.lean ====
/-
  The attention kernel (the second pallas_call), shared by its three control cases: the grid is (qi, kv) with
  kv ∈ {0, 1, 2, 3} the key/value tile, fastest. At kv = 0 the three scratch buffers (running maximum, running
  normaliser, running weighted sum) are reset before the tile's contribution is folded in; at kv = 3 the weighted sum
  is divided by the normaliser and stored to the output block, which the pipeline writes back there.
  Here: the two branch conditions in closed form over the 32 grid points, where the output window is idle, the
  staging memrefs the pipeline passes at a point, and the region invariant with the three scratch buffers singled out.
-/
import proofs.«409648_j16458314678750_3_alg».proof.Proof.Gen.Kernel.Launch
import proofs.«409648_j16458314678750_3_alg».proof.Proof.Gen.Kernel.Skeleton
import proofs.«409648_j16458314678750_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two branch conditions over the grid -/

/-- The key/value coordinate is 0: the running maximum, normaliser and weighted sum are reset at this point. -/
abbrev kFirst1 (i : grid1.Coords) : Prop :=
  (Scalar.cmpi .ne (Scalar.extui (Scalar.cmpi .eq (BitVec.ofNat 32 (i 1).val) 0#32)) 0#32) = 1#1
/-- Points are numbered with the key/value coordinate fastest: it is 0 exactly at the points ≡ 0 (mod 4). -/
theorem kFirst1_iff : ∀ t : Fin cfg1.N, kFirst1 (grid1.coords t) ↔ t.val % 4 = 0 :=
  (by decide +kernel : ∀ t : Fin grid1.N, kFirst1 (grid1.coords t) ↔ t.val % 4 = 0)

/-- The key/value coordinate is 3, the last: the output block is stored at this point. -/
abbrev kLast1 (i : grid1.Coords) : Prop := k1_cond2 i = 1#1
theorem kLast1_iff : ∀ t : Fin cfg1.N, kLast1 (grid1.coords t) ↔ t.val % 4 = 3 :=
  (by decide +kernel : ∀ t : Fin grid1.N, kLast1 (grid1.coords t) ↔ t.val % 4 = 3)

/-! ## Where the windows are idle -/

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
/-- Before the last key/value tile nothing is stored into the output block and the pipeline does not write it back. -/
theorem idle1_3_notLast : ∀ t : Fin cfg1.N, ¬kLast1 (grid1.coords t) → cfg1.idle 3 (grid1.coords t) = true := by decide +kernel
theorem noFlush1_3_notLast : ∀ t : Fin cfg1.N, ¬kLast1 (grid1.coords t) → (cfg1.win 3).flush t = false := by decide +kernel
/-- At the last key/value tile the output block is stored whole. -/
theorem live1_3_last : ∀ t : Fin cfg1.N, kLast1 (grid1.coords t) → cfg1.idle 3 (grid1.coords t) = false := by decide +kernel

/-! ## The memrefs the body is called with -/

abbrev ms1_0 (t : Fin cfg1.N) : Memref sig .tc .vmem S1x512x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x2048 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x2048 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x2048 .f32 := win1_3.stage (cfg1.slots t 3)
abbrev hs1_3 (t : Fin cfg1.N) : (ms1_3 t).IsWhole := hstage1_3 ((cfg1.slots t 3).cast nbuf1_3)
/-- The running-maximum scratch, a whole scoped buffer of the kernel's own. -/
abbrev scM1_0 : Memref sig .tc .vmem S512x1 .f32 := Memref.whole cc1_scratch0
/-- The running-normaliser scratch. -/
abbrev scM1_1 : Memref sig .tc .vmem S512x1 .f32 := Memref.whole cc1_scratch1
/-- The running weighted-sum scratch. -/
abbrev scM1_2 : Memref sig .tc .vmem S512x2048 .f32 := Memref.whole cc1_scratch2
/-- One staging buffer of the output window, through which a block's contents are stated. -/
abbrev VO1_3 : View sig .tc .vmem S512x2048 .f32 := (Memref.whole cc1_stg3_0 : Memref sig .tc .vmem S512x2048 .f32).view
abbrev VS1_0 : View sig .tc .vmem S512x1 .f32 := scM1_0.view
abbrev VS1_1 : View sig .tc .vmem S512x1 .f32 := scM1_1.view
abbrev VS1_2 : View sig .tc .vmem S512x2048 .f32 := scM1_2.view

/-! ## The region invariant with the three scratch buffers singled out -/

/-- The scoped buffers of the core that this kernel never names (the first kernel's staging and scratch buffers),
    each whole at some contents. -/
def otherScoped1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- The class invariant of the region (every scoped buffer that is no staging buffer at some contents, the generator
    register at some state) with the three scratch buffers as owned memrefs. -/
theorem PhiA1_eq (c : Dev nD) :
    (Pipeline.ΦA spec1 c : sProp 𝕄)
      = iprop(iprop(otherScoped1 c ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  have assoc : ∀ P Q R' : sProp 𝕄, iprop((P ∗ Q) ∗ R') = iprop(P ∗ Q ∗ R') :=
    fun _ _ _ => Idealize.SL.BI.Entails.antisymm Idealize.SL.BI.sep_assoc Idealize.SL.BI.sep_assoc'
  unfold Pipeline.ΦA otherScoped1; rw [scopedRest1_eq]; simp only [scM1_0, scM1_1, scM1_2, owns_whole, assoc]
  rfl

end Cert.Kernel.Hand

end
-- ==== Proof.Bits.R1Defs.lean ====
/-
  The attention kernel's proof data. Parameter `V`: the core's unscoped buffers as the region finds them. The grid is
  (qi, kv) with kv ∈ {0, 1, 2, 3} the key/value tile, fastest. The three scratch buffers carry, between the points of
  one query tile, the running row maximum, the running normaliser and the running weighted sum: at kv = 0 they are
  reset (to -∞, 0, 0) and then updated, at the later tiles updated from what the point before left; at kv = 3 the
  weighted sum divided by the normaliser is stored over the output block, which the pipeline writes back there.
  The three input windows read ONE array (the stacked projections), so each holds a third of its share.
-/
import proofs.«409648_j16458314678750_3_alg».proof.Proof.Bits.R1Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query, key and value blocks at a point, at their literal vector types. -/
abbrev qblk1 (c : Dev nD) (t : Fin cfg1.N) : Vec F S1x512x2048 .bf16 := iblk1 V c 0 t
abbrev kblk1 (c : Dev nD) (t : Fin cfg1.N) : Vec F S1x1024x2048 .bf16 := iblk1 V c 1 t
abbrev vblk1 (c : Dev nD) (t : Fin cfg1.N) : Vec F S1x1024x2048 .bf16 := iblk1 V c 2 t

/-! ## One step of the running state -/

/-- The running maximum after a tile, from the maximum before it. -/
def nextM (q : Vec F S1x512x2048 .bf16) (k : Vec F S1x1024x2048 .bf16) (m0 : Vec F S512x1 .f32) : Vec F S512x1 .f32 :=
  k1_pay2 (k1_pay9 q k m0)
/-- The running normaliser after a tile: the old one rescaled, plus the tile's sum of exponentials. -/
def nextL (q : Vec F S1x512x2048 .bf16) (k : Vec F S1x1024x2048 .bf16) (m0 l0 : Vec F S512x1 .f32) : Vec F S512x1 .f32 :=
  k1_pay12 q k m0 m0 l0
/-- The running weighted sum after a tile: the old one rescaled, plus the tile's exponentials times its values. -/
def nextA (q : Vec F S1x512x2048 .bf16) (k v : Vec F S1x1024x2048 .bf16) (m0 : Vec F S512x1 .f32) (a0 : Vec F S512x2048 .f32) : Vec F S512x2048 .f32 :=
  k1_pay1 (k1_pay7 v) (k1_pay10 q k m0 m0) (k1_pay11 q k m0) a0

/-- The state (maximum, normaliser, weighted sum) after one tile, from the state before it. -/
def step1 (q : Vec F S1x512x2048 .bf16) (k v : Vec F S1x1024x2048 .bf16)
    (s : Vec F S512x1 .f32 × Vec F S512x1 .f32 × Vec F S512x2048 .f32) : Vec F S512x1 .f32 × Vec F S512x1 .f32 × Vec F S512x2048 .f32 :=
  (nextM q k s.1, nextL q k s.1 s.2.1, nextA q k v s.1 s.2.2)

/-- The state a first tile starts from: what the reset stores. -/
def reset1 : Vec F S512x1 .f32 × Vec F S512x1 .f32 × Vec F S512x2048 .f32 := (k1_pay4 (F := F), k1_pay5 (F := F), k1_pay6 (F := F))

/-! ## The state, point by point -/

/-- What the three scratch buffers hold after the body at point `n`. -/
def st1 (c : Dev nD) : (n : ℕ) → n < cfg1.N → Vec F S512x1 .f32 × Vec F S512x1 .f32 × Vec F S512x2048 .f32
  | 0, hn => step1 (qblk1 V c ⟨0, hn⟩) (kblk1 V c ⟨0, hn⟩) (vblk1 V c ⟨0, hn⟩) reset1
  | n + 1, hn =>
    if (n + 1) % 4 = 0 then step1 (qblk1 V c ⟨n + 1, hn⟩) (kblk1 V c ⟨n + 1, hn⟩) (vblk1 V c ⟨n + 1, hn⟩) reset1
    else step1 (qblk1 V c ⟨n + 1, hn⟩) (kblk1 V c ⟨n + 1, hn⟩) (vblk1 V c ⟨n + 1, hn⟩) (st1 c n (Nat.lt_of_succ_lt hn))

theorem st1_first (c : Dev nD) (t : Fin cfg1.N) (h : t.val % 4 = 0) :
    st1 V c t.val t.isLt = step1 (qblk1 V c t) (kblk1 V c t) (vblk1 V c t) reset1 := by
  obtain ⟨n, hn⟩ := t
  cases n with
  | zero => rfl
  | succ n => exact if_pos h

theorem st1_next (c : Dev nD) (t : Fin cfg1.N) (h : ¬t.val % 4 = 0) :
    st1 V c t.val t.isLt = step1 (qblk1 V c t) (kblk1 V c t) (vblk1 V c t)
      (st1 V c (t.val - 1) (Nat.lt_of_le_of_lt (Nat.sub_le _ _) t.isLt)) := by
  obtain ⟨n, hn⟩ := t
  cases n with
  | zero => exfalso; dsimp only at h; omega
  | succ n => exact if_neg h

/-- The output block stored at a last tile: the weighted sum divided by the normaliser. -/
def outBlk1 (c : Dev nD) (t : Fin cfg1.N) : Vec F S512x2048 .f32 :=
  k1_pay3 (st1 V c t.val t.isLt).2.2 (st1 V c t.val t.isLt).2.1

/-! ## The invariant -/

/-- The region invariant before position `n`: the class invariant before the first point; afterwards the three
    scratch buffers at the state after the point before. -/
def PhiS1 (c : Dev nD) : (n : ℕ) → n ≤ cfg1.N → sProp 𝕄
  | 0, _ => Pipeline.ΦA spec1 c
  | n + 1, hn => iprop(iprop(otherScoped1 c ∗ owns (c : Thread nD τ) scM1_0 fullShare (st1 V c n hn).1
      ∗ owns (c : Thread nD τ) scM1_1 fullShare (st1 V c n hn).2.1 ∗ owns (c : Thread nD τ) scM1_2 fullShare (st1 V c n hn).2.2) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(otherScoped1 c ∗ owns (c : Thread nD τ) scM1_0 fullShare (st1 V c n hn).1
      ∗ owns (c : Thread nD τ) scM1_1 fullShare (st1 V c n hn).2.1 ∗ owns (c : Thread nD τ) scM1_2 fullShare (st1 V c n hn).2.2) ∗ (∃ r, prngReg c r)) := rfl
theorem PhiS1_pos (c : Dev nD) (n : ℕ) (h : n ≤ cfg1.N) (hz : n ≠ 0) :
    PhiS1 V c n h = iprop(iprop(otherScoped1 c ∗ owns (c : Thread nD τ) scM1_0 fullShare (st1 V c (n - 1) (by omega)).1
      ∗ owns (c : Thread nD τ) scM1_1 fullShare (st1 V c (n - 1) (by omega)).2.1 ∗ owns (c : Thread nD τ) scM1_2 fullShare (st1 V c (n - 1) (by omega)).2.2) ∗ (∃ r, prngReg c r)) := by
  cases n with
  | zero => exact absurd rfl hz
  | succ n => rfl

/-! ## The proof data -/

/-- The arrays as the region finds them; after the body each input's buffer at its block and the output's at the
    quotient; the invariant `PhiS1`; nothing owed; the stacked projections' share dealt in three among the windows
    that read them. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outBlk1 V c t
  Φ t := PhiS1 V c t.val (Nat.le_of_lt_succ t.isLt)
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outBlk1 V c t := by dsimp only [dat1]

/-- Each input's current staging buffer holds its block at every point, fetched there or not (the query block is
    fetched only when the query tile changes, and the key/value tile does not move its index). -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

end Cert.Kernel.Hand

end
-- ==== Proof.Bits.FrameBase.lean ====
/-
  The run of the kernel program, first part: what the unscoped buffers hold between the items of @main, with the two
  regions' results NAMED — the stacked projections as the first region's write-backs leave them, the output as the
  second region's do —, the two pipelines' proof data at their regions' entry contents, and the first region as a
  segment of @main: entered from every unscoped buffer at the contents after the host stretch, left with the stacked
  projections replaced; its arrays are three distinct buffers, each held whole; the generator register passes through the
  invariant; nothing is owed.
-/
import proofs.«409648_j16458314678750_3_alg».proof.Proof.Bits.R0Body
import proofs.«409648_j16458314678750_3_alg».proof.Proof.Bits.R1Defs
import proofs.«409648_j16458314678750_3_alg».proof.Proof.Gen.Kernel.Regions
import Idealize.ShloMosaic.Lib.Pipeline.RegionsLoop

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffers between the items -/

/-- What the first region finds: the launch contents after the host stretch, read at a TensorCore reference. -/
abbrev VR0 (c : Dev nD) (b : Ref sig .tc) : Buf (Elt F) ((c : Thread nD τ).loc b) := Gen.V1 m c b

/-- The stacked projections as the first region's write-backs leave them. -/
def qkvArr (c : Dev nD) : Buf (Elt F) ((c : Thread nD τ).loc main_v6) := (dat0 (VR0 m) c).arrAt 2 cfg0.N

/-- The buffers after the first region: the stacked projections replaced. -/
def WR1 (c : Dev nD) : Valuation τ sig (Elt F) := Function.update (Gen.V1 m c) main_v6 (qkvArr m c)
/-- What the second region finds, read at a TensorCore reference. -/
abbrev VR1 (c : Dev nD) (b : Ref sig .tc) : Buf (Elt F) ((c : Thread nD τ).loc b) := WR1 m c b

/-- The output as the second region's write-backs leave it. -/
def outArr (c : Dev nD) : Buf (Elt F) ((c : Thread nD τ).loc main_v7) := (dat1 (VR1 m) c).arrAt 3 cfg1.N

/-- What the regions leave in the buffers they may change. -/
def outs : Gen.Outs (F := F) := fun _ r c =>
  if h : r = main_v6 then h ▸ qkvArr m c else if h : r = main_v7 then h ▸ outArr m c else Gen.V1 m c r

theorem outs_v6 (c : Dev nD) : outs m 2 main_v6 c = qkvArr m c := by unfold outs; rw [dif_pos rfl]
theorem outs_v7 (c : Dev nD) : outs m 3 main_v7 c = outArr m c := by
  unfold outs; rw [dif_neg (by decide), dif_pos rfl]

theorem V2_eq (c : Dev nD) : Gen.V2 m (outs m) c = WR1 m c := by
  unfold WR1; rw [← outs_v6]

/-! ## The proof data family and what rides beside the buffers -/

/-- Both pipelines' proof data, each at its region's entry contents. -/
def pdats : (p : Fin 2) → (c : Dev nD) → Dat τ (Elt F) Unit ℕ (UR sig nD τ) ℕ (cfgs p) c
  | ⟨0, _⟩ => fun c => dat0 (VR0 m) c
  | ⟨1, _⟩ => fun c => dat1 (VR1 m) c

/-- No core owes another anything: no level is assigned. -/
abbrev L0 : GSem nD τ sig → Finset Unit := fun _ => ∅
abbrev lv0 : GSem nD τ sig → Unit → ℕ := fun _ _ => 0

/-- Beside the buffers, through every item: the generator register at some state, and nothing owed. -/
abbrev Rst (c : Dev nD) : sProp 𝕄 :=
  iprop((∃ r, prngReg c r) ∗ ∃ W, owes (c : Thread nD τ) (0 : CellTallies nD τ sig Unit) W)

/-! ## What the first region leaves in its arrays -/

theorem hF0 (c : Dev nD) (w : Fin cfg0.W) : (pdats m 0 c).arrAt w cfg0.N = Gen.V2 m (outs m) c (Pipeline.arrRef spec0 w) := by
  match w with
  | ⟨0, _⟩ => exact ((dat0 (VR0 m) c).arrAt_in 0 rfl _).trans ((A_eq0 (VR0 m) c 0).trans (Gen.V2_of m (outs m) c main_v5 (by decide)).symm)
  | ⟨1, _⟩ => exact ((dat0 (VR0 m) c).arrAt_in 1 rfl _).trans ((A_eq0 (VR0 m) c 1).trans (Gen.V2_of m (outs m) c main_v4 (by decide)).symm)
  | ⟨2, _⟩ =>
    show qkvArr m c = Function.update (Gen.V1 m c) (Proc.devRef .tc main_v6) (outs m 2 main_v6 c) (Proc.devRef .tc main_v6)
    rw [Function.update_self, outs_v6]

theorem hrest0 (c : Dev nD) : ∀ b, b ∉ Finset.univ.image (Pipeline.arrRef spec0) → Gen.V2 m (outs m) c b = Gen.V1 m c b :=
  fun b hb => Gen.V2_of m (outs m) c b (by
    intro h
    rw [List.mem_singleton] at h
    exact hb (Finset.mem_image.mpr ⟨2, Finset.mem_univ _, h.symm⟩))

end Cert.Kernel.Hand

end
-- ==== Proof.Bits.FrameR0.lean ====
/-
  The first region (the projection kernel) as a segment of @main. Entry: the unscoped buffers held at the contents
  after the host stretch are the region's three arrays (distinct whole buffers, each at the full share) and the rest,
  which bypasses the region; the generator register enters the invariant. Exit: the arrays at what the write-backs
  leave and the rest are again every unscoped buffer, now with the stacked projections replaced.
-/
import proofs.«409648_j16458314678750_3_alg».proof.Proof.Bits.FrameBase

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg0 : Pipeline.RegionSeg (pcfgs (F := F)) Gen.adm (pdats m) () defs₀ Variants.none L0 lv0 0 where
  win := launch0.win.to₀
  block_pos := launch0.block_pos
  stage_whole := launch0.stage_whole
  K := PEmpty
  osem k := k.elim
  ho := Pipeline.OwnSemFacts.none _
  hbody c := (body_obligation0 (VR0 m) c).loose
  hwaits := Pipeline.hwaits_of_owed_zero _ _ _ _ L0 lv0 0 fun _ _ => rfl
  pre c := iprop(StableHlo.held (c : Thread nD τ) (Pipeline.ucRefs τ sig) (Gen.V1 m c) ∗ Rst c)
  post c := iprop(StableHlo.held (c : Thread nD τ) (Pipeline.ucRefs τ sig) (Gen.V2 m (outs m) c) ∗ Rst c)
  X c := iprop(∃ r, prngReg c r)
  Y c := iprop(∃ r, prngReg c r)
  Z c := Pipeline.unscopedRest (Ix := Unit) (Name := ℕ) (U := UR sig nD τ) (Lvl := ℕ) spec0 c (VR0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (VR0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    have h : (Pipeline.ΦA spec0 c : sProp 𝕄) ⊢ iprop((∃ r, prngReg c r) ∗ BI.emp ∗ Pipeline.scopedRest (Ix := Unit) (Name := ℕ) (U := UR sig nD τ) (Lvl := ℕ) (Val := Elt F) spec0 c) := by
      unfold Pipeline.ΦA
      iintro ⟨Hr, Hp⟩
      isplitl [Hp]; · iexact Hp
      isplitr; · iempintro
      iexact Hr
    exact (hout0 (VR0 m) c).trans h
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (VR0 m c) (fun b => Gen.V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Bits.R1RunFirst.lean ====
/-
  The attention kernel's body at a FIRST key/value tile (kv = 0): the three scratch buffers, found at anything, are
  reset (running maximum to -∞, normaliser and weighted sum to 0) and then receive the first tile's contribution;
  nothing is stored into the output block. The run is made on any whole staging memrefs; what the scratch buffers end
  with is kept as the lists of pieces the stores wrote.
-/
import proofs.«409648_j16458314678750_3_alg».proof.Proof.Bits.R1Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- At a first key/value tile, from the query block at `x0`, the key and value blocks at `x1`, `x2`, the output block's
    buffer at `xi3` and the three scratch buffers at anything, the body runs to the inputs and the output buffer as they
    were and the scratch buffers with the pieces `LS0`, `LS1`, `LS2` written. -/
noncomputable def run1_first (c : Dev nD) (i : grid1.Coords)
    (arg2 : Memref sig .tc .vmem S1x512x2048 .bf16) (harg2 : arg2.IsWhole) (arg3 : Memref sig .tc .vmem S1x1024x2048 .bf16) (harg3 : arg3.IsWhole)
    (arg4 : Memref sig .tc .vmem S1x1024x2048 .bf16) (harg4 : arg4.IsWhole) (arg5 : Memref sig .tc .vmem S512x2048 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x2048 .f32) (harg8 : arg8.IsWhole)
    (hc0 : kFirst1 i) (hc1 : ¬kLast1 i) (x0 : Vec F S1x512x2048 .bf16) (x1 x2 : Vec F S1x1024x2048 .bf16) :
    Σ' (LS0 LS1 : List (View.Piece (Elt F) S512x1 .f32)), { LS2 : List (View.Piece (Elt F) S512x2048 .f32) //
      ∀ (xi3 : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LS2)) -∗ K ⟨⟩))
          ⊢ wp frame (wpE (defs₀ (F := F)) Variants.none c none) E (cc1__attention_kernel i arg2 harg2 arg3 harg3 arg4 harg4 arg5 harg5 arg6 harg6 arg7 harg7 arg8 harg8) K } := by
  refine ⟨?_, ?_, ?_, fun xi3 E K => ?run⟩
  case run =>
    simp only [cc1__attention_kernel_eq_skeleton]; unfold cc1__attention_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Hand

end
-- ==== Proof.Bits.R1RunMid.lean ====
/-
  The attention kernel's body at a MIDDLE key/value tile (kv = 1, 2): the three scratch buffers, found at what the
  tile before left, are rescaled to the new running maximum and receive this tile's contribution; nothing is stored
  into the output block.
-/
import proofs.«409648_j16458314678750_3_alg».proof.Proof.Bits.R1Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- At a middle key/value tile, from the query block at `x0`, the key and value blocks at `x1`, `x2`, the output block's
    buffer at `xi3` and the three scratch buffers at `xs0`, `xs1`, `xs2` (what the tile before left), the body runs to
    the inputs and the output buffer as they were and the scratch buffers with the pieces `LS0`, `LS1`, `LS2` written. -/
noncomputable def run1_mid (c : Dev nD) (i : grid1.Coords)
    (arg2 : Memref sig .tc .vmem S1x512x2048 .bf16) (harg2 : arg2.IsWhole) (arg3 : Memref sig .tc .vmem S1x1024x2048 .bf16) (harg3 : arg3.IsWhole)
    (arg4 : Memref sig .tc .vmem S1x1024x2048 .bf16) (harg4 : arg4.IsWhole) (arg5 : Memref sig .tc .vmem S512x2048 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x2048 .f32) (harg8 : arg8.IsWhole)
    (hc0 : ¬kFirst1 i) (hc1 : ¬kLast1 i) (x0 : Vec F S1x512x2048 .bf16) (x1 x2 : Vec F S1x1024x2048 .bf16)
    (xs0 xs1 : Vec F S512x1 .f32) (xs2 : Vec F S512x2048 .f32) :
    Σ' (LS0 LS1 : List (View.Piece (Elt F) S512x1 .f32)), { LS2 : List (View.Piece (Elt F) S512x2048 .f32) //
      ∀ (xi3 : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LS2)) -∗ K ⟨⟩))
          ⊢ wp frame (wpE (defs₀ (F := F)) Variants.none c none) E (cc1__attention_kernel i arg2 harg2 arg3 harg3 arg4 harg4 arg5 harg5 arg6 harg6 arg7 harg7 arg8 harg8) K } := by
  refine ⟨?_, ?_, ?_, fun xi3 E K => ?run⟩
  case run =>
    simp only [cc1__attention_kernel_eq_skeleton]; unfold cc1__attention_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Hand

end
-- ==== Proof.Bits.R1RunLast.lean ====
/-
  The attention kernel's body at the LAST key/value tile (kv = 3): the three scratch buffers, found at what the tile
  before left, are rescaled and receive this tile's contribution; the weighted sum is then read back, divided by the
  normaliser and stored over the whole output block, whose buffer is found at anything.
-/
import proofs.«409648_j16458314678750_3_alg».proof.Proof.Bits.R1Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- At the last key/value tile, from the query block at `x0`, the key and value blocks at `x1`, `x2`, the output block's
    buffer at anything and the three scratch buffers at `xs0`, `xs1`, `xs2`, the body runs to the inputs as they were,
    the output buffer with the pieces `L3` written and the scratch buffers with the pieces `LS0`, `LS1`, `LS2` written. -/
noncomputable def run1_last (c : Dev nD) (i : grid1.Coords)
    (arg2 : Memref sig .tc .vmem S1x512x2048 .bf16) (harg2 : arg2.IsWhole) (arg3 : Memref sig .tc .vmem S1x1024x2048 .bf16) (harg3 : arg3.IsWhole)
    (arg4 : Memref sig .tc .vmem S1x1024x2048 .bf16) (harg4 : arg4.IsWhole) (arg5 : Memref sig .tc .vmem S512x2048 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x2048 .f32) (harg8 : arg8.IsWhole)
    (hc0 : ¬kFirst1 i) (hc1 : kLast1 i) (x0 : Vec F S1x512x2048 .bf16) (x1 x2 : Vec F S1x1024x2048 .bf16)
    (xs0 xs1 : Vec F S512x1 .f32) (xs2 : Vec F S512x2048 .f32) :
    Σ' (L3 : List (View.Piece (Elt F) S512x2048 .f32)) (LS0 LS1 : List (View.Piece (Elt F) S512x1 .f32)), { LS2 : List (View.Piece (Elt F) S512x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LS2)) -∗ K ⟨⟩))
          ⊢ wp frame (wpE (defs₀ (F := F)) Variants.none c none) E (cc1__attention_kernel i arg2 harg2 arg3 harg3 arg4 harg4 arg5 harg5 arg6 harg6 arg7 harg7 arg8 harg8) K } := by
  refine ⟨?_, ?_, ?_, ?_, fun E K => ?run⟩
  case run =>
    simp only [cc1__attention_kernel_eq_skeleton]; unfold cc1__attention_kernel_skel
    simp only [k1_part1_eq_skeleton]; unfold k1_part1_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.Kernel.Hand

end
-- ==== Proof.Bits.R1Body.lean ====
/-
  The attention kernel's body obligation. First, what the three runs' stores leave, read back: the last store into a
  buffer covers it whole, so the buffer reads as that store's payload; a load after a covering store reads the payload
  stored. Then the obligation at a generic point: the inputs' buffers hold their blocks, the point's residue mod 4
  says which run applies, the invariant hands over the three scratch buffers (at anything before the first point, at
  the running state after the point before afterwards) and takes them back at the running state at this point; at a
  last tile the output block's buffer is left at the weighted sum divided by the normaliser.
-/
import proofs.«409648_j16458314678750_3_alg».proof.Proof.Bits.R1Defs
import proofs.«409648_j16458314678750_3_alg».proof.Proof.Bits.R1RunFirst
import proofs.«409648_j16458314678750_3_alg».proof.Proof.Bits.R1RunMid
import proofs.«409648_j16458314678750_3_alg».proof.Proof.Bits.R1RunLast
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem zeroFin2 : (![0, 0] : Fin 2 → ℕ) = fun _ => 0 := by funext a; fin_cases a <;> rfl
theorem zeroFin3 : (![0, 0, 0] : Fin 3 → ℕ) = fun _ => 0 := by funext a; fin_cases a <;> rfl

/-! ## What the runs leave -/

section Pieces

variable (c : Dev nD) (i : grid1.Coords)
    (arg2 : Memref sig .tc .vmem S1x512x2048 .bf16) (harg2 : arg2.IsWhole) (arg3 : Memref sig .tc .vmem S1x1024x2048 .bf16) (harg3 : arg3.IsWhole)
    (arg4 : Memref sig .tc .vmem S1x1024x2048 .bf16) (harg4 : arg4.IsWhole) (arg5 : Memref sig .tc .vmem S512x2048 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x2048 .f32) (harg8 : arg8.IsWhole)
  (x0 : Vec F S1x512x2048 .bf16) (x1 x2 : Vec F S1x1024x2048 .bf16)

theorem mcover1_first (hc0 : kFirst1 i) (hc1 : ¬kLast1 i) (y : S512x1.Idx) :
    ∃ pc ∈ (run1_first c i arg2 harg2 arg3 harg3 arg4 harg4 arg5 harg5 arg6 harg6 arg7 harg7 arg8 harg8 hc0 hc1 x0 x1 x2).1, y ∈ pc.1.set :=
  View.cover_of_tiledL (run1_first c i arg2 harg2 arg3 harg3 arg4 harg4 arg5 harg5 arg6 harg6 arg7 harg7 arg8 harg8 hc0 hc1 x0 x1 x2).1 S512x1.size (by sl_kernel_rfl) y
theorem lcover1_first (hc0 : kFirst1 i) (hc1 : ¬kLast1 i) (y : S512x1.Idx) :
    ∃ pc ∈ (run1_first c i arg2 harg2 arg3 harg3 arg4 harg4 arg5 harg5 arg6 harg6 arg7 harg7 arg8 harg8 hc0 hc1 x0 x1 x2).2.1, y ∈ pc.1.set :=
  View.cover_of_tiledL (run1_first c i arg2 harg2 arg3 harg3 arg4 harg4 arg5 harg5 arg6 harg6 arg7 harg7 arg8 harg8 hc0 hc1 x0 x1 x2).2.1 S512x1.size (by sl_kernel_rfl) y
theorem acover1_first (hc0 : kFirst1 i) (hc1 : ¬kLast1 i) (y : S512x2048.Idx) :
    ∃ pc ∈ (run1_first c i arg2 harg2 arg3 harg3 arg4 harg4 arg5 harg5 arg6 harg6 arg7 harg7 arg8 harg8 hc0 hc1 x0 x1 x2).2.2.1, y ∈ pc.1.set :=
  View.cover_of_tiledL (run1_first c i arg2 harg2 arg3 harg3 arg4 harg4 arg5 harg5 arg6 harg6 arg7 harg7 arg8 harg8 hc0 hc1 x0 x1 x2).2.2.1 S512x2048.size (by sl_kernel_rfl) y

/-- After a first tile the maximum scratch reads as the tile's row maximum joined with the -∞ it was reset to. -/
theorem mread1_first (hc0 : kFirst1 i) (hc1 : ¬kLast1 i) (f : arg6.view.ty.Contents (Elt F)) :
    arg6.view.read (Elt F) (arg6.view.writes (Elt F) f (run1_first c i arg2 harg2 arg3 harg3 arg4 harg4 arg5 harg5 arg6 harg6 arg7 harg7 arg8 harg8 hc0 hc1 x0 x1 x2).1)
      = nextM x0 x1 (k1_pay4 (F := F)) := by
  rw [View.read_writes_eq_canon _ _ _ (mcover1_first c i arg2 harg2 arg3 harg3 arg4 harg4 arg5 harg5 arg6 harg6 arg7 harg7 arg8 harg8 x0 x1 x2 hc0 hc1)]
  unfold run1_first nextM; dsimp only; sl_unfold_words; try dsimp only
  rw [View.canon_cons_unit_zero (S := S512x1) zeroFin2]
  simp only [View.readAt_eq_ld, harg2.read_unread, harg3.read_unread, harg4.read_unread, View.ld_unit_zero (S := S1x512x2048) zeroFin3, View.ld_unit_zero (S := S1x1024x2048) zeroFin3, View.readCov_unit_zero (S := S512x1) _ zeroFin2, View.readCov_unit_zero (S := S512x2048) _ zeroFin2]
/-- the normaliser scratch as the tile's sum of exponentials added to the rescaled 0 it was reset to, -/
theorem lread1_first (hc0 : kFirst1 i) (hc1 : ¬kLast1 i) (f : arg7.view.ty.Contents (Elt F)) :
    arg7.view.read (Elt F) (arg7.view.writes (Elt F) f (run1_first c i arg2 harg2 arg3 harg3 arg4 harg4 arg5 harg5 arg6 harg6 arg7 harg7 arg8 harg8 hc0 hc1 x0 x1 x2).2.1)
      = nextL x0 x1 (k1_pay4 (F := F)) (k1_pay5 (F := F)) := by
  rw [View.read_writes_eq_canon _ _ _ (lcover1_first c i arg2 harg2 arg3 harg3 arg4 harg4 arg5 harg5 arg6 harg6 arg7 harg7 arg8 harg8 x0 x1 x2 hc0 hc1)]
  unfold run1_first nextL; dsimp only; sl_unfold_words; try dsimp only
  rw [View.canon_cons_unit_zero (S := S512x1) zeroFin2]
  simp only [View.readAt_eq_ld, harg2.read_unread, harg3.read_unread, harg4.read_unread, View.ld_unit_zero (S := S1x512x2048) zeroFin3, View.ld_unit_zero (S := S1x1024x2048) zeroFin3, View.readCov_unit_zero (S := S512x1) _ zeroFin2, View.readCov_unit_zero (S := S512x2048) _ zeroFin2]
/-- and the weighted-sum scratch as the tile's exponentials times its values added to the rescaled 0 it was reset to. -/
theorem aread1_first (hc0 : kFirst1 i) (hc1 : ¬kLast1 i) (f : arg8.view.ty.Contents (Elt F)) :
    arg8.view.read (Elt F) (arg8.view.writes (Elt F) f (run1_first c i arg2 harg2 arg3 harg3 arg4 harg4 arg5 harg5 arg6 harg6 arg7 harg7 arg8 harg8 hc0 hc1 x0 x1 x2).2.2.1)
      = nextA x0 x1 x2 (k1_pay4 (F := F)) (k1_pay6 (F := F)) := by
  rw [View.read_writes_eq_canon _ _ _ (acover1_first c i arg2 harg2 arg3 harg3 arg4 harg4 arg5 harg5 arg6 harg6 arg7 harg7 arg8 harg8 x0 x1 x2 hc0 hc1)]
  unfold run1_first nextA; dsimp only; sl_unfold_words; try dsimp only
  rw [View.canon_cons_unit_zero (S := S512x2048) zeroFin2]
  simp only [View.readAt_eq_ld, harg2.read_unread, harg3.read_unread, harg4.read_unread, View.ld_unit_zero (S := S1x512x2048) zeroFin3, View.ld_unit_zero (S := S1x1024x2048) zeroFin3, View.readCov_unit_zero (S := S512x1) _ zeroFin2, View.readCov_unit_zero (S := S512x2048) _ zeroFin2]

variable (xs0 xs1 : Vec F S512x1 .f32) (xs2 : Vec F S512x2048 .f32)

theorem mcover1_mid (hc0 : ¬kFirst1 i) (hc1 : ¬kLast1 i) (y : S512x1.Idx) :
    ∃ pc ∈ (run1_mid c i arg2 harg2 arg3 harg3 arg4 harg4 arg5 harg5 arg6 harg6 arg7 harg7 arg8 harg8 hc0 hc1 x0 x1 x2 xs0 xs1 xs2).1, y ∈ pc.1.set :=
  View.cover_of_tiledL (run1_mid c i arg2 harg2 arg3 harg3 arg4 harg4 arg5 harg5 arg6 harg6 arg7 harg7 arg8 harg8 hc0 hc1 x0 x1 x2 xs0 xs1 xs2).1 S512x1.size (by sl_kernel_rfl) y
theorem lcover1_mid (hc0 : ¬kFirst1 i) (hc1 : ¬kLast1 i) (y : S512x1.Idx) :
    ∃ pc ∈ (run1_mid c i arg2 harg2 arg3 harg3 arg4 harg4 arg5 harg5 arg6 harg6 arg7 harg7 arg8 harg8 hc0 hc1 x0 x1 x2 xs0 xs1 xs2).2.1, y ∈ pc.1.set :=
  View.cover_of_tiledL (run1_mid c i arg2 harg2 arg3 harg3 arg4 harg4 arg5 harg5 arg6 harg6 arg7 harg7 arg8 harg8 hc0 hc1 x0 x1 x2 xs0 xs1 xs2).2.1 S512x1.size (by sl_kernel_rfl) y
theorem acover1_mid (hc0 : ¬kFirst1 i) (hc1 : ¬kLast1 i) (y : S512x2048.Idx) :
    ∃ pc ∈ (run1_mid c i arg2 harg2 arg3 harg3 arg4 harg4 arg5 harg5 arg6 harg6 arg7 harg7 arg8 harg8 hc0 hc1 x0 x1 x2 xs0 xs1 xs2).2.2.1, y ∈ pc.1.set :=
  View.cover_of_tiledL (run1_mid c i arg2 harg2 arg3 harg3 arg4 harg4 arg5 harg5 arg6 harg6 arg7 harg7 arg8 harg8 hc0 hc1 x0 x1 x2 xs0 xs1 xs2).2.2.1 S512x2048.size (by sl_kernel_rfl) y

/-- After a middle tile the maximum scratch reads as the tile's row maximum joined with what it held, -/
theorem mread1_mid (hc0 : ¬kFirst1 i) (hc1 : ¬kLast1 i) (f : arg6.view.ty.Contents (Elt F)) :
    arg6.view.read (Elt F) (arg6.view.writes (Elt F) f (run1_mid c i arg2 harg2 arg3 harg3 arg4 harg4 arg5 harg5 arg6 harg6 arg7 harg7 arg8 harg8 hc0 hc1 x0 x1 x2 xs0 xs1 xs2).1)
      = nextM x0 x1 xs0 := by
  rw [View.read_writes_eq_canon _ _ _ (mcover1_mid c i arg2 harg2 arg3 harg3 arg4 harg4 arg5 harg5 arg6 harg6 arg7 harg7 arg8 harg8 x0 x1 x2 xs0 xs1 xs2 hc0 hc1)]
  unfold run1_mid nextM; dsimp only; sl_unfold_words; try dsimp only
  rw [View.canon_unit_zero (S := S512x1) zeroFin2]
  simp only [View.readAt_eq_ld, harg2.read_unread, harg3.read_unread, harg4.read_unread, View.ld_unit_zero (S := S1x512x2048) zeroFin3, View.ld_unit_zero (S := S1x1024x2048) zeroFin3, harg6.read_unread, harg7.read_unread, harg8.read_unread, View.ld_unit_zero (S := S512x1) zeroFin2, View.ld_unit_zero (S := S512x2048) zeroFin2]
/-- the normaliser scratch as what it held rescaled plus the tile's sum of exponentials, -/
theorem lread1_mid (hc0 : ¬kFirst1 i) (hc1 : ¬kLast1 i) (f : arg7.view.ty.Contents (Elt F)) :
    arg7.view.read (Elt F) (arg7.view.writes (Elt F) f (run1_mid c i arg2 harg2 arg3 harg3 arg4 harg4 arg5 harg5 arg6 harg6 arg7 harg7 arg8 harg8 hc0 hc1 x0 x1 x2 xs0 xs1 xs2).2.1)
      = nextL x0 x1 xs0 xs1 := by
  rw [View.read_writes_eq_canon _ _ _ (lcover1_mid c i arg2 harg2 arg3 harg3 arg4 harg4 arg5 harg5 arg6 harg6 arg7 harg7 arg8 harg8 x0 x1 x2 xs0 xs1 xs2 hc0 hc1)]
  unfold run1_mid nextL; dsimp only; sl_unfold_words; try dsimp only
  rw [View.canon_unit_zero (S := S512x1) zeroFin2]
  simp only [View.readAt_eq_ld, harg2.read_unread, harg3.read_unread, harg4.read_unread, View.ld_unit_zero (S := S1x512x2048) zeroFin3, View.ld_unit_zero (S := S1x1024x2048) zeroFin3, harg6.read_unread, harg7.read_unread, harg8.read_unread, View.ld_unit_zero (S := S512x1) zeroFin2, View.ld_unit_zero (S := S512x2048) zeroFin2]
/-- and the weighted-sum scratch as what it held rescaled plus the tile's exponentials times its values. -/
theorem aread1_mid (hc0 : ¬kFirst1 i) (hc1 : ¬kLast1 i) (f : arg8.view.ty.Contents (Elt F)) :
    arg8.view.read (Elt F) (arg8.view.writes (Elt F) f (run1_mid c i arg2 harg2 arg3 harg3 arg4 harg4 arg5 harg5 arg6 harg6 arg7 harg7 arg8 harg8 hc0 hc1 x0 x1 x2 xs0 xs1 xs2).2.2.1)
      = nextA x0 x1 x2 xs0 xs2 := by
  rw [View.read_writes_eq_canon _ _ _ (acover1_mid c i arg2 harg2 arg3 harg3 arg4 harg4 arg5 harg5 arg6 harg6 arg7 harg7 arg8 harg8 x0 x1 x2 xs0 xs1 xs2 hc0 hc1)]
  unfold run1_mid nextA; dsimp only; sl_unfold_words; try dsimp only
  rw [View.canon_unit_zero (S := S512x2048) zeroFin2]
  simp only [View.readAt_eq_ld, harg2.read_unread, harg3.read_unread, harg4.read_unread, View.ld_unit_zero (S := S1x512x2048) zeroFin3, View.ld_unit_zero (S := S1x1024x2048) zeroFin3, harg6.read_unread, harg7.read_unread, harg8.read_unread, View.ld_unit_zero (S := S512x1) zeroFin2, View.ld_unit_zero (S := S512x2048) zeroFin2]

theorem ocover1_last (hc0 : ¬kFirst1 i) (hc1 : kLast1 i) (y : S512x2048.Idx) :
    ∃ pc ∈ (run1_last c i arg2 harg2 arg3 harg3 arg4 harg4 arg5 harg5 arg6 harg6 arg7 harg7 arg8 harg8 hc0 hc1 x0 x1 x2 xs0 xs1 xs2).1, y ∈ pc.1.set :=
  View.cover_of_tiledL (run1_last c i arg2 harg2 arg3 harg3 arg4 harg4 arg5 harg5 arg6 harg6 arg7 harg7 arg8 harg8 hc0 hc1 x0 x1 x2 xs0 xs1 xs2).1 S512x2048.size (by sl_kernel_rfl) y
theorem mcover1_last (hc0 : ¬kFirst1 i) (hc1 : kLast1 i) (y : S512x1.Idx) :
    ∃ pc ∈ (run1_last c i arg2 harg2 arg3 harg3 arg4 harg4 arg5 harg5 arg6 harg6 arg7 harg7 arg8 harg8 hc0 hc1 x0 x1 x2 xs0 xs1 xs2).2.1, y ∈ pc.1.set :=
  View.cover_of_tiledL (run1_last c i arg2 harg2 arg3 harg3 arg4 harg4 arg5 harg5 arg6 harg6 arg7 harg7 arg8 harg8 hc0 hc1 x0 x1 x2 xs0 xs1 xs2).2.1 S512x1.size (by sl_kernel_rfl) y
theorem lcover1_last (hc0 : ¬kFirst1 i) (hc1 : kLast1 i) (y : S512x1.Idx) :
    ∃ pc ∈ (run1_last c i arg2 harg2 arg3 harg3 arg4 harg4 arg5 harg5 arg6 harg6 arg7 harg7 arg8 harg8 hc0 hc1 x0 x1 x2 xs0 xs1 xs2).2.2.1, y ∈ pc.1.set :=
  View.cover_of_tiledL (run1_last c i arg2 harg2 arg3 harg3 arg4 harg4 arg5 harg5 arg6 harg6 arg7 harg7 arg8 harg8 hc0 hc1 x0 x1 x2 xs0 xs1 xs2).2.2.1 S512x1.size (by sl_kernel_rfl) y
theorem acover1_last (hc0 : ¬kFirst1 i) (hc1 : kLast1 i) (y : S512x2048.Idx) :
    ∃ pc ∈ (run1_last c i arg2 harg2 arg3 harg3 arg4 harg4 arg5 harg5 arg6 harg6 arg7 harg7 arg8 harg8 hc0 hc1 x0 x1 x2 xs0 xs1 xs2).2.2.2.1, y ∈ pc.1.set :=
  View.cover_of_tiledL (run1_last c i arg2 harg2 arg3 harg3 arg4 harg4 arg5 harg5 arg6 harg6 arg7 harg7 arg8 harg8 hc0 hc1 x0 x1 x2 xs0 xs1 xs2).2.2.2.1 S512x2048.size (by sl_kernel_rfl) y

/-- After the last tile the three scratch buffers read as after a middle one, -/
theorem mread1_last (hc0 : ¬kFirst1 i) (hc1 : kLast1 i) (f : arg6.view.ty.Contents (Elt F)) :
    arg6.view.read (Elt F) (arg6.view.writes (Elt F) f (run1_last c i arg2 harg2 arg3 harg3 arg4 harg4 arg5 harg5 arg6 harg6 arg7 harg7 arg8 harg8 hc0 hc1 x0 x1 x2 xs0 xs1 xs2).2.1)
      = nextM x0 x1 xs0 := by
  rw [View.read_writes_eq_canon _ _ _ (mcover1_last c i arg2 harg2 arg3 harg3 arg4 harg4 arg5 harg5 arg6 harg6 arg7 harg7 arg8 harg8 x0 x1 x2 xs0 xs1 xs2 hc0 hc1)]
  unfold run1_last nextM; dsimp only; sl_unfold_words; try dsimp only
  rw [View.canon_unit_zero (S := S512x1) zeroFin2]
  simp only [View.readAt_eq_ld, harg2.read_unread, harg3.read_unread, harg4.read_unread, View.ld_unit_zero (S := S1x512x2048) zeroFin3, View.ld_unit_zero (S := S1x1024x2048) zeroFin3, harg6.read_unread, harg7.read_unread, harg8.read_unread, View.ld_unit_zero (S := S512x1) zeroFin2, View.ld_unit_zero (S := S512x2048) zeroFin2]
/-- (the normaliser) -/
theorem lread1_last (hc0 : ¬kFirst1 i) (hc1 : kLast1 i) (f : arg7.view.ty.Contents (Elt F)) :
    arg7.view.read (Elt F) (arg7.view.writes (Elt F) f (run1_last c i arg2 harg2 arg3 harg3 arg4 harg4 arg5 harg5 arg6 harg6 arg7 harg7 arg8 harg8 hc0 hc1 x0 x1 x2 xs0 xs1 xs2).2.2.1)
      = nextL x0 x1 xs0 xs1 := by
  rw [View.read_writes_eq_canon _ _ _ (lcover1_last c i arg2 harg2 arg3 harg3 arg4 harg4 arg5 harg5 arg6 harg6 arg7 harg7 arg8 harg8 x0 x1 x2 xs0 xs1 xs2 hc0 hc1)]
  unfold run1_last nextL; dsimp only; sl_unfold_words; try dsimp only
  rw [View.canon_unit_zero (S := S512x1) zeroFin2]
  simp only [View.readAt_eq_ld, harg2.read_unread, harg3.read_unread, harg4.read_unread, View.ld_unit_zero (S := S1x512x2048) zeroFin3, View.ld_unit_zero (S := S1x1024x2048) zeroFin3, harg6.read_unread, harg7.read_unread, harg8.read_unread, View.ld_unit_zero (S := S512x1) zeroFin2, View.ld_unit_zero (S := S512x2048) zeroFin2]
/-- (the weighted sum) -/
theorem aread1_last (hc0 : ¬kFirst1 i) (hc1 : kLast1 i) (f : arg8.view.ty.Contents (Elt F)) :
    arg8.view.read (Elt F) (arg8.view.writes (Elt F) f (run1_last c i arg2 harg2 arg3 harg3 arg4 harg4 arg5 harg5 arg6 harg6 arg7 harg7 arg8 harg8 hc0 hc1 x0 x1 x2 xs0 xs1 xs2).2.2.2.1)
      = nextA x0 x1 x2 xs0 xs2 := by
  rw [View.read_writes_eq_canon _ _ _ (acover1_last c i arg2 harg2 arg3 harg3 arg4 harg4 arg5 harg5 arg6 harg6 arg7 harg7 arg8 harg8 x0 x1 x2 xs0 xs1 xs2 hc0 hc1)]
  unfold run1_last nextA; dsimp only; sl_unfold_words; try dsimp only
  rw [View.canon_unit_zero (S := S512x2048) zeroFin2]
  simp only [View.readAt_eq_ld, harg2.read_unread, harg3.read_unread, harg4.read_unread, View.ld_unit_zero (S := S1x512x2048) zeroFin3, View.ld_unit_zero (S := S1x1024x2048) zeroFin3, harg6.read_unread, harg7.read_unread, harg8.read_unread, View.ld_unit_zero (S := S512x1) zeroFin2, View.ld_unit_zero (S := S512x2048) zeroFin2]
/-- and the output block reads as the weighted sum divided by the normaliser. -/
theorem oread1_last (hc0 : ¬kFirst1 i) (hc1 : kLast1 i) (f : arg5.view.ty.Contents (Elt F)) :
    arg5.view.read (Elt F) (arg5.view.writes (Elt F) f (run1_last c i arg2 harg2 arg3 harg3 arg4 harg4 arg5 harg5 arg6 harg6 arg7 harg7 arg8 harg8 hc0 hc1 x0 x1 x2 xs0 xs1 xs2).1)
      = k1_pay3 (nextA x0 x1 x2 xs0 xs2) (nextL x0 x1 xs0 xs1) := by
  rw [View.read_writes_eq_canon _ _ _ (ocover1_last c i arg2 harg2 arg3 harg3 arg4 harg4 arg5 harg5 arg6 harg6 arg7 harg7 arg8 harg8 x0 x1 x2 xs0 xs1 xs2 hc0 hc1)]
  unfold run1_last nextA nextL; dsimp only; sl_unfold_words; try dsimp only
  rw [View.canon_unit_zero (S := S512x2048) zeroFin2]
  simp only [View.readAt_eq_ld, harg2.read_unread, harg3.read_unread, harg4.read_unread, View.ld_unit_zero (S := S1x512x2048) zeroFin3, View.ld_unit_zero (S := S1x1024x2048) zeroFin3, harg6.read_unread, harg7.read_unread, harg8.read_unread, View.ld_unit_zero (S := S512x1) zeroFin2, View.ld_unit_zero (S := S512x2048) zeroFin2, View.readCov_unit_zero (S := S512x1) _ zeroFin2, View.readCov_unit_zero (S := S512x2048) _ zeroFin2]

end Pieces

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

/-- The components of one step of the running state. -/
theorem step1_fst (q : Vec F S1x512x2048 .bf16) (k v : Vec F S1x1024x2048 .bf16) (s : Vec F S512x1 .f32 × Vec F S512x1 .f32 × Vec F S512x2048 .f32) :
    (step1 q k v s).1 = nextM q k s.1 := rfl
theorem step1_snd_fst (q : Vec F S1x512x2048 .bf16) (k v : Vec F S1x1024x2048 .bf16) (s : Vec F S512x1 .f32 × Vec F S512x1 .f32 × Vec F S512x2048 .f32) :
    (step1 q k v s).2.1 = nextL q k s.1 s.2.1 := rfl
theorem step1_snd_snd (q : Vec F S1x512x2048 .bf16) (k v : Vec F S1x1024x2048 .bf16) (s : Vec F S512x1 .f32 × Vec F S512x1 .f32 × Vec F S512x2048 .f32) :
    (step1 q k v s).2.2 = nextA q k v s.1 s.2.2 := rfl
theorem reset1_fst : (reset1 (F := F)).1 = k1_pay4 (F := F) := rfl
theorem reset1_snd_fst : (reset1 (F := F)).2.1 = k1_pay5 (F := F) := rfl
theorem reset1_snd_snd : (reset1 (F := F)).2.2 = k1_pay6 (F := F) := rfl

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  rw [show (dat1 V c).leavesExact 2 t = owns (c : Thread nD τ) (ms1_2 t) fullShare ((dat1 V c).after 2 t) from by
    unfold Dat.leavesExact; rw [live1_2 t], after1_2]
  by_cases h0 : t.val % 4 = 0
  · have hc0 : kFirst1 (grid1.coords t) := (kFirst1_iff t).mpr h0
    have hc1 : ¬kLast1 (grid1.coords t) := fun h => by have := (kLast1_iff t).mp h; omega
    rw [Dat.leavesExact_idle (dat1 V c) 3 t (idle1_3_notLast t hc1) (noFlush1_3_notLast t hc1)]
    rw [st1_first V c t h0]
    simp only [step1_fst, step1_snd_fst, step1_snd_snd, reset1_fst, reset1_snd_fst, reset1_snd_snd]
    by_cases hz : t.val = 0
    · rw [PhiS1_castSucc V c t, PhiS1_zero V c _ _ hz, PhiA1_eq]
      iintro ⟨⟨⟨Hoth, HS0, HS1, HS2⟩, Hg⟩, Ho, ⟨%d0, H0⟩, ⟨%d1, H1⟩, ⟨%d2, H2⟩, ⟨%d3, H3⟩⟩
      iapply ((run1_first c (grid1.coords t) _ _ _ _ _ _ _ _ _ _ _ _ _ _ hc0 hc1 (qblk1 V c t) (kblk1 V c t) (vblk1 V c t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%fs0, HS0⟩, ⟨%fs1, HS1⟩, ⟨%fs2, HS2⟩⟩
      isplitl [HS0 HS1 HS2 Hoth Hg]
      · isplitl [HS0 HS1 HS2 Hoth]
        · isplitl [Hoth]; · iexact Hoth
          isplitl [HS0]
          · unfold owns; iexists _; isplitr
            swap; · iexact HS0
            ipureintro; exact mread1_first c _ _ _ _ _ _ _ _ _ _ _ _ _ _ _ _ _ _ hc0 hc1 _
          isplitl [HS1]
          · unfold owns; iexists _; isplitr
            swap; · iexact HS1
            ipureintro; exact lread1_first c _ _ _ _ _ _ _ _ _ _ _ _ _ _ _ _ _ _ hc0 hc1 _
          unfold owns; iexists _; isplitr
          swap; · iexact HS2
          ipureintro; exact aread1_first c _ _ _ _ _ _ _ _ _ _ _ _ _ _ _ _ _ _ hc0 hc1 _
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨Hoth, HS0, HS1, HS2⟩, Hg⟩, Ho, ⟨%d0, H0⟩, ⟨%d1, H1⟩, ⟨%d2, H2⟩, ⟨%d3, H3⟩⟩
      iapply ((run1_first c (grid1.coords t) _ _ _ _ _ _ _ _ _ _ _ _ _ _ hc0 hc1 (qblk1 V c t) (kblk1 V c t) (vblk1 V c t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%fs0, HS0⟩, ⟨%fs1, HS1⟩, ⟨%fs2, HS2⟩⟩
      isplitl [HS0 HS1 HS2 Hoth Hg]
      · isplitl [HS0 HS1 HS2 Hoth]
        · isplitl [Hoth]; · iexact Hoth
          isplitl [HS0]
          · unfold owns; iexists _; isplitr
            swap; · iexact HS0
            ipureintro; exact mread1_first c _ _ _ _ _ _ _ _ _ _ _ _ _ _ _ _ _ _ hc0 hc1 _
          isplitl [HS1]
          · unfold owns; iexists _; isplitr
            swap; · iexact HS1
            ipureintro; exact lread1_first c _ _ _ _ _ _ _ _ _ _ _ _ _ _ _ _ _ _ hc0 hc1 _
          unfold owns; iexists _; isplitr
          swap; · iexact HS2
          ipureintro; exact aread1_first c _ _ _ _ _ _ _ _ _ _ _ _ _ _ _ _ _ _ hc0 hc1 _
        iexact Hg
      isplitl [Ho]; · iexact Ho
      isplitl [H0]; · iexact H0
      isplitl [H1]; · iexact H1
      isplitl [H2]; · iexact H2
      iexists _; iexact H3
  · have hc0 : ¬kFirst1 (grid1.coords t) := fun h => h0 ((kFirst1_iff t).mp h)
    have hz : t.val ≠ 0 := fun h => h0 (by rw [h])
    by_cases h3 : t.val % 4 = 3
    · have hc1 : kLast1 (grid1.coords t) := (kLast1_iff t).mpr h3
      rw [show (dat1 V c).leavesExact 3 t = owns (c : Thread nD τ) (ms1_3 t) fullShare ((dat1 V c).after 3 t) from by
        unfold Dat.leavesExact; rw [live1_3_last t hc1], after1_3]
      unfold outBlk1
      rw [st1_next V c t h0]
      simp only [step1_fst, step1_snd_fst, step1_snd_snd]
      rw [PhiS1_castSucc V c t, PhiS1_pos V c _ _ hz]
      iintro ⟨⟨⟨Hoth, HS0, HS1, HS2⟩, Hg⟩, Ho, ⟨%d0, H0⟩, ⟨%d1, H1⟩, ⟨%d2, H2⟩, ⟨%d3, H3⟩⟩
      iapply ((run1_last c (grid1.coords t) _ _ _ _ _ _ _ _ _ _ _ _ _ _ hc0 hc1 (qblk1 V c t) (kblk1 V c t) (vblk1 V c t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%f3, H3⟩, ⟨%fs0, HS0⟩, ⟨%fs1, HS1⟩, ⟨%fs2, HS2⟩⟩
      isplitl [HS0 HS1 HS2 Hoth Hg]
      · isplitl [HS0 HS1 HS2 Hoth]
        · isplitl [Hoth]; · iexact Hoth
          isplitl [HS0]
          · unfold owns; iexists _; isplitr
            swap; · iexact HS0
            ipureintro; exact mread1_last c _ _ _ _ _ _ _ _ _ _ _ _ _ _ _ _ _ _ _ _ _ hc0 hc1 _
          isplitl [HS1]
          · unfold owns; iexists _; isplitr
            swap; · iexact HS1
            ipureintro; exact lread1_last c _ _ _ _ _ _ _ _ _ _ _ _ _ _ _ _ _ _ _ _ _ hc0 hc1 _
          unfold owns; iexists _; isplitr
          swap; · iexact HS2
          ipureintro; exact aread1_last c _ _ _ _ _ _ _ _ _ _ _ _ _ _ _ _ _ _ _ _ _ hc0 hc1 _
        iexact Hg
      isplitl [Ho]; · iexact Ho
      isplitl [H0]; · iexact H0
      isplitl [H1]; · iexact H1
      isplitl [H2]; · iexact H2
      unfold owns; iexists _; isplitr
      swap; · iexact H3
      ipureintro; exact oread1_last c _ _ _ _ _ _ _ _ _ _ _ _ _ _ _ _ _ _ _ _ _ hc0 hc1 _
    · have hc1 : ¬kLast1 (grid1.coords t) := fun h => h3 ((kLast1_iff t).mp h)
      rw [Dat.leavesExact_idle (dat1 V c) 3 t (idle1_3_notLast t hc1) (noFlush1_3_notLast t hc1)]
      rw [st1_next V c t h0]
      simp only [step1_fst, step1_snd_fst, step1_snd_snd]
      rw [PhiS1_castSucc V c t, PhiS1_pos V c _ _ hz]
      iintro ⟨⟨⟨Hoth, HS0, HS1, HS2⟩, Hg⟩, Ho, ⟨%d0, H0⟩, ⟨%d1, H1⟩, ⟨%d2, H2⟩, ⟨%d3, H3⟩⟩
      iapply ((run1_mid c (grid1.coords t) _ _ _ _ _ _ _ _ _ _ _ _ _ _ hc0 hc1 (qblk1 V c t) (kblk1 V c t) (vblk1 V c t) _ _ _).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%fs0, HS0⟩, ⟨%fs1, HS1⟩, ⟨%fs2, HS2⟩⟩
      isplitl [HS0 HS1 HS2 Hoth Hg]
      · isplitl [HS0 HS1 HS2 Hoth]
        · isplitl [Hoth]; · iexact Hoth
          isplitl [HS0]
          · unfold owns; iexists _; isplitr
            swap; · iexact HS0
            ipureintro; exact mread1_mid c _ _ _ _ _ _ _ _ _ _ _ _ _ _ _ _ _ _ _ _ _ hc0 hc1 _
          isplitl [HS1]
          · unfold owns; iexists _; isplitr
            swap; · iexact HS1
            ipureintro; exact lread1_mid c _ _ _ _ _ _ _ _ _ _ _ _ _ _ _ _ _ _ _ _ _ hc0 hc1 _
          unfold owns; iexists _; isplitr
          swap; · iexact HS2
          ipureintro; exact aread1_mid c _ _ _ _ _ _ _ _ _ _ _ _ _ _ _ _ _ _ _ _ _ hc0 hc1 _
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is handed is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back: the running state is forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 32 := N_1; omega), PhiA1_eq]
  iintro ⟨⟨Hoth, HS0, HS1, HS2⟩, Hg⟩
  isplitl [Hoth HS0 HS1 HS2]
  · isplitl [Hoth]; · iexact Hoth
    isplitl [HS0]; · iexists _; iexact HS0
    isplitl [HS1]; · iexists _; iexact HS1
    iexists _; iexact HS2
  iexact Hg

end Cert.Kernel.Hand

end
-- ==== Proof.Bits.R1Shares.lean ====
/-
  The stacked projections' share, dealt and rejoined. The attention kernel's three input windows read one array and
  its output window another, so the distinct buffers behind the windows are two, each held whole at the full share.
  A full share is its left half together with the left and right halves of its right half: at the region's entry
  the first array's full share is dealt so among the three windows on it, and at the exit, where an input's array is
  what it was, the three parts are joined again; the output's array is one window's, at the full share throughout.
-/
import proofs.«409648_j16458314678750_3_alg».proof.Proof.Bits.R1Defs
import Idealize.ShloMosaic.Lib.Pipeline.Launch
import Idealize.ShloMosaic.Lib.Pipeline.Cells
import Idealize.ShloMosaic.Rules.PointsTo
import Idealize.SL.RA.TreeShare

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the four windows are two. -/
theorem img1 : (Finset.univ.image (Pipeline.arrRef spec1) : Finset (Ref sig .tc)) = {main_v6, main_v7} := by decide

/-- So what the launch hands the pipeline is two whole buffers at the full share. -/
theorem arrBufs1_eq (c : Dev nD) (V' : (b : Ref sig .tc) → Buf (Elt F) ((c : Thread nD τ).loc b)) :
    (Pipeline.arrBufs spec1 c V' : sProp 𝕄)
      = iprop((((c : Thread nD τ).loc main_v6) ↦{fullShare} V' main_v6) ∗ (((c : Thread nD τ).loc main_v7) ↦{fullShare} V' main_v7)) := by
  unfold Pipeline.arrBufs
  rw [img1, bigSep_insert (by decide), bigSep_singleton]
  rfl

theorem share1_0 (c : Dev nD) : (dat1 V c).share 0 = fullShare.left := by unfold Dat.share; rfl
theorem share1_1 (c : Dev nD) : (dat1 V c).share 1 = fullShare.right.left := by unfold Dat.share; rfl
theorem share1_2 (c : Dev nD) : (dat1 V c).share 2 = fullShare.right.right := by unfold Dat.share; rfl
theorem share1_3 (c : Dev nD) : (dat1 V c).share 3 = fullShare := by unfold Dat.share; rfl

/-- The pipeline's arrays, window by window: three parts of the first buffer and the whole of the second. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v6) ↦{fullShare.left} (G 0 : Buf (Elt F) ((c : Thread nD τ).loc main_v6)))
          ∗ (((c : Thread nD τ).loc main_v6) ↦{fullShare.right.left} (G 1 : Buf (Elt F) ((c : Thread nD τ).loc main_v6)))
          ∗ (((c : Thread nD τ).loc main_v6) ↦{fullShare.right.right} (G 2 : Buf (Elt F) ((c : Thread nD τ).loc main_v6)))
          ∗ (((c : Thread nD τ).loc main_v7) ↦{fullShare} (G 3 : Buf (Elt F) ((c : Thread nD τ).loc main_v7)))) := by
  unfold Dat.arrays
  rw [bigSep_W1, share1_0, share1_1, share1_2, share1_3, (arr_whole1 0).set_eq_univ, (arr_whole1 3).set_eq_univ]

/-- A whole share is its left half and the two halves of its right half. -/
theorem pointsTo_deal3 (ℓ : Loc nD τ sig) (f : Buf (Elt F) ℓ) :
    (ℓ ↦{fullShare} f : sProp 𝕄) ⊣⊢ iprop((ℓ ↦{fullShare.left} f) ∗ (ℓ ↦{fullShare.right.left} f) ∗ (ℓ ↦{fullShare.right.right} f)) := by
  constructor
  · iintro H
    ihave H' := (pointsTo_share (PosShare.mem_left_op_right fullShare)).1 $$ H
    icases H' with ⟨Hl, Hr⟩
    ihave Hr' := (pointsTo_share (PosShare.mem_left_op_right fullShare.right)).1 $$ Hr
    icases Hr' with ⟨Hrl, Hrr⟩
    isplitl [Hl]; · iexact Hl
    isplitl [Hrl]; · iexact Hrl
    iexact Hrr
  · iintro ⟨Hl, Hrl, Hrr⟩
    iapply (pointsTo_share (PosShare.mem_left_op_right fullShare)).2
    isplitl [Hl]; · iexact Hl
    iapply (pointsTo_share (PosShare.mem_left_op_right fullShare.right)).2
    isplitl [Hrl]; · iexact Hrl
    iexact Hrr

/-- At the region's entry the first buffer's full share is dealt among the three windows that read it. -/
theorem arrays_in1 (c : Dev nD) : (Pipeline.arrBufs spec1 c (V c) : sProp 𝕄) ⊢ (dat1 V c).arrays ((dat1 V c).arrAt · 0) := by
  rw [arrBufs1_eq, arrays1_eq]
  show iprop((((c : Thread nD τ).loc main_v6) ↦{fullShare} V c main_v6) ∗ (((c : Thread nD τ).loc main_v7) ↦{fullShare} V c main_v7))
    ⊢ iprop((((c : Thread nD τ).loc main_v6) ↦{fullShare.left} V c main_v6) ∗ (((c : Thread nD τ).loc main_v6) ↦{fullShare.right.left} V c main_v6)
        ∗ (((c : Thread nD τ).loc main_v6) ↦{fullShare.right.right} V c main_v6) ∗ (((c : Thread nD τ).loc main_v7) ↦{fullShare} V c main_v7))
  iintro ⟨H6, H7⟩
  ihave H6' := (pointsTo_deal3 _ _).1 $$ H6
  icases H6' with ⟨Hl, Hrl, Hrr⟩
  isplitl [Hl]; · iexact Hl
  isplitl [Hrl]; · iexact Hrl
  isplitl [Hrr]; · iexact Hrr
  iexact H7

/-- At the exit the inputs' array is what it was, so its three parts join to the full share again. -/
theorem arrays_out1 (c : Dev nD) (V' : (b : Ref sig .tc) → Buf (Elt F) ((c : Thread nD τ).loc b)) (h6 : V' main_v6 = V c main_v6)
    (h7 : V' main_v7 = (dat1 V c).arrAt 3 cfg1.N) :
    (dat1 V c).arrays ((dat1 V c).arrAt · cfg1.N) ⊢ (Pipeline.arrBufs spec1 c V' : sProp 𝕄) := by
  rw [arrBufs1_eq, arrays1_eq, h6, h7]
  have e0 : (dat1 V c).arrAt 0 cfg1.N = V c main_v6 := Dat.arrAt_in (dat := dat1 V c) 0 rfl cfg1.N
  have e1 : (dat1 V c).arrAt 1 cfg1.N = V c main_v6 := Dat.arrAt_in (dat := dat1 V c) 1 rfl cfg1.N
  have e2 : (dat1 V c).arrAt 2 cfg1.N = V c main_v6 := Dat.arrAt_in (dat := dat1 V c) 2 rfl cfg1.N
  show iprop((((c : Thread nD τ).loc main_v6) ↦{fullShare.left} (dat1 V c).arrAt 0 cfg1.N) ∗ (((c : Thread nD τ).loc main_v6) ↦{fullShare.right.left} (dat1 V c).arrAt 1 cfg1.N)
        ∗ (((c : Thread nD τ).loc main_v6) ↦{fullShare.right.right} (dat1 V c).arrAt 2 cfg1.N) ∗ (((c : Thread nD τ).loc main_v7) ↦{fullShare} (dat1 V c).arrAt 3 cfg1.N))
    ⊢ iprop((((c : Thread nD τ).loc main_v6) ↦{fullShare} V c main_v6) ∗ (((c : Thread nD τ).loc main_v7) ↦{fullShare} (dat1 V c).arrAt 3 cfg1.N))
  rw [e0, e1, e2]
  iintro ⟨Hl, Hrl, Hrr, H7⟩
  isplitr [H7]
  · iapply (pointsTo_deal3 _ _).2
    isplitl [Hl]; · iexact Hl
    isplitl [Hrl]; · iexact Hrl
    iexact Hrr
  · iexact H7

end Cert.Kernel.Hand

end
-- ==== Proof.Bits.FrameR1.lean ====
/-
  The second region (the attention kernel) as a segment of @main. Its three input windows read one array, the stacked
  projections, and its output window writes another. Entry: of the unscoped buffers, the two buffers behind the
  region's arrays are dealt to the four windows — the stacked projections' full share in three parts —, the rest
  bypasses the region. Exit: the three parts are joined again (an input's array is never written), the output holds
  what the write-backs left, and with the rest they are again every unscoped buffer, the output replaced.
-/
import proofs.«409648_j16458314678750_3_alg».proof.Proof.Bits.FrameBase
import proofs.«409648_j16458314678750_3_alg».proof.Proof.Bits.R1Body
import proofs.«409648_j16458314678750_3_alg».proof.Proof.Bits.R1Shares

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- The buffers after the second region, read at a TensorCore reference. -/
abbrev VR2 (c : Dev nD) (b : Ref sig .tc) : Buf (Elt F) ((c : Thread nD τ).loc b) := Gen.V3 m (outs m) c b

theorem VR2_v6 (c : Dev nD) : VR2 m c main_v6 = VR1 m c main_v6 := by
  show Gen.V3 m (outs m) c main_v6 = WR1 m c main_v6
  rw [Gen.V3_of m (outs m) c main_v6 (by decide), V2_eq]

theorem VR2_v7 (c : Dev nD) : VR2 m c main_v7 = (dat1 (VR1 m) c).arrAt 3 cfg1.N := by
  show Function.update (Gen.V2 m (outs m) c) (Proc.devRef .tc main_v7) (outs m 3 main_v7 c) (Proc.devRef .tc main_v7) = outArr m c
  rw [Function.update_self, outs_v7]

/-- Off the region's two arrays the buffers before and after the region agree. -/
theorem rest1_congr (c : Dev nD) :
    (Pipeline.unscopedRest (Ix := Unit) (Name := ℕ) (U := UR sig nD τ) (Lvl := ℕ) spec1 c (VR1 m c) : sProp 𝕄)
      = Pipeline.unscopedRest spec1 c (VR2 m c) := by
  unfold Pipeline.unscopedRest
  refine bigSep_congr fun b hb => ?_
  have hb' : b ∉ Finset.univ.image (Pipeline.arrRef spec1) := (Finset.mem_sdiff.mp hb).2
  have h7 : b ∉ ([main_v7] : List (Ref sig .tc)) := by
    intro h
    rw [List.mem_singleton] at h
    exact hb' (Finset.mem_image.mpr ⟨3, Finset.mem_univ _, h.symm⟩)
  have e : VR1 m c b = VR2 m c b := by
    show WR1 m c b = Gen.V3 m (outs m) c b
    rw [Gen.V3_of m (outs m) c b h7, V2_eq]
  rw [e]

set_option backward.isDefEq.respectTransparency.types false in
def reg1 : Pipeline.RegionSeg (pcfgs (F := F)) Gen.adm (pdats m) () defs₀ Variants.none L0 lv0 1 where
  win := winFacts₀1
  block_pos := block_pos1
  stage_whole := stage_whole1
  K := PEmpty
  osem k := k.elim
  ho := Pipeline.OwnSemFacts.none _
  hbody c := (body_obligation1 (VR1 m) c).loose
  hwaits := Pipeline.hwaits_of_owed_zero _ _ _ _ L0 lv0 1 fun _ _ => rfl
  pre c := iprop(StableHlo.held (c : Thread nD τ) (Pipeline.ucRefs τ sig) (Gen.V2 m (outs m) c) ∗ Rst c)
  post c := iprop(StableHlo.held (c : Thread nD τ) (Pipeline.ucRefs τ sig) (Gen.V3 m (outs m) c) ∗ Rst c)
  X c := iprop(∃ r, prngReg c r)
  Y c := iprop(∃ r, prngReg c r)
  Z c := Pipeline.unscopedRest (Ix := Unit) (Name := ℕ) (U := UR sig nD τ) (Lvl := ℕ) spec1 c (VR1 m c)
  hentry c := by
    rw [Pipeline.ownSems0_none, V2_eq m c, ← Pipeline.unscopedBufs_held (Ix := Unit) (Name := ℕ) (U := UR sig nD τ) (Lvl := ℕ) c (WR1 m c),
      Pipeline.unscopedBufs_split₀ cfgs (1 : Fin 2) winFacts₀1.arr_unscoped c (VR1 m c)]
    iintro ⟨⟨⟨Harr, Hrest⟩, Hp, HO⟩, -, -⟩
    imodintro
    isplitl [Harr]; · iapply (arrays_in1 (VR1 m) c); iexact Harr
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    have h : (Pipeline.ΦA spec1 c : sProp 𝕄) ⊢ iprop((∃ r, prngReg c r) ∗ BI.emp ∗ Pipeline.scopedRest (Ix := Unit) (Name := ℕ) (U := UR sig nD τ) (Lvl := ℕ) (Val := Elt F) spec1 c) := by
      unfold Pipeline.ΦA
      iintro ⟨Hr, Hp⟩
      isplitl [Hp]; · iexact Hp
      isplitr; · iempintro
      iexact Hr
    exact (hout1 (VR1 m) c).trans h
  hexit c := by
    rw [← Pipeline.unscopedBufs_held (Ix := Unit) (Name := ℕ) (U := UR sig nD τ) (Lvl := ℕ) c (Gen.V3 m (outs m) c),
      Pipeline.unscopedBufs_split₀ cfgs (1 : Fin 2) winFacts₀1.arr_unscoped c (VR2 m c), rest1_congr m c]
    iintro ⟨Ha, HO, HY, Hrest⟩
    imodintro
    isplitl [Ha Hrest]
    · isplitl [Ha]
      · iapply (arrays_out1 (VR1 m) c (VR2 m c) (VR2_v6 m c) (VR2_v7 m c)); iexact Ha
      iexact Hrest
    isplitl [HY]; · iexact HY
    unfold Pipeline.Dat.owesAt Pipeline.owesWithin
    icases HO with ⟨%W, -, HO⟩; iexists W; iexact HO

end Cert.Kernel.Hand

end
-- ==== Proof.Bits.FrameMain.lean ====
/-
  The run of the kernel program: @main as its three segments (the host stretch, the two regions), launched from any
  memory with zero counters. Every weakly fair execution terminates, and every final memory holds each unscoped buffer
  at the last boundary's contents: the arguments as launched (no item writes one), the output at what the second
  region's write-backs leave. The frame claim and the run with the result named are read off that one run.
-/
import proofs.«409648_j16458314678750_3_alg».proof.Proof.Bits.FrameR0
import proofs.«409648_j16458314678750_3_alg».proof.Proof.Bits.FrameR1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.Pipeline (Seg)

variable (m : (ℓ : Loc nD τ sig) → Buf (Elt F) ℓ) (ρ : Dev nD → PrngReg)

/-- @main's segments. -/
abbrev segsOf (c : Dev nD) : List (Seg (pcfgs (F := F)) Gen.adm (pdats m) () defs₀ Variants.none L0 lv0) :=
  Gen.segs m Variants.none L0 lv0 (fun _ c => Rst c) () (pdats m) (reg0 m) (reg1 m) c

-- the launch theorem's implicit arguments are found by unifying its conclusion with this one
set_option backward.isDefEq.respectTransparency.types false in
/-- THE RUN, every unscoped buffer read at the end. -/
theorem run_all : θ_run defs (onTc (τ := τ) (main (F := F))) ⟨m, fun _ => 0, ρ⟩ (fun r => ∀ c : Dev nD,
    ∀ b ∈ Pipeline.ucRefs τ sig, r.2.mem (((c : Thread nD τ)).1, b) = Gen.V3 m (outs m) c b) := by
  refine Pipeline.θ_run_regions_kit_dev (pcfgs (F := F)) Gen.adm (pdats m) () cellOf_inj emb₁ defs₀ Variants.none L0 lv0 m ρ main
    (segsOf m)
    (fun c Q => by
      rewrite [main_chain c, Seg.run_eq_chain,
        show (segsOf m c).map Seg.prog = [
          StableHlo.seq hostOps0,
          Prog.lift (.customCall (Pipeline.entry 0) ()),
          Prog.lift (.customCall (Pipeline.entry 1) ()) ] from rfl]
      exact .rfl)
    (fun c => by simp only [segsOf, Gen.segs, Seg.pipes_host, Seg.pipes_region, Seg.pipes_nil]; decide) 0 (fun _ _ => rfl)
    (fun _ => iprop(emp)) (initOf (Pipeline.cells cfgs cellOf_inj) (Pipeline.launchToks cfgs cellOf_inj)) ?hu
    (T₀ := fun c => iprop(StableHlo.held (c : Thread nD τ) (Pipeline.ucRefs τ sig) (Gen.V0 m c) ∗ Rst c))
    (Tₙ := fun c => iprop(StableHlo.held (c : Thread nD τ) (Pipeline.ucRefs τ sig) (Gen.V3 m (outs m) c) ∗ ∃ r, prngReg c r))
    (hch := fun c => ⟨.rfl, .rfl, .rfl, ?hlast⟩)
    (hinit := ?hinit) (QY := fun c s => ∀ b ∈ Pipeline.ucRefs τ sig, s.mem (((c : Thread nD τ)).1, b) = Gen.V3 m (outs m) c b)
    (hfin := fun c s' => ?hfin) (hQ := fun _ h => h)
  case hu =>
    iintro Hu
    imodintro
    isplitl [Hu]; · rw [← ownU_emb₁]; iexact Hu
    iapply (show (BI.emp : sProp 𝕄) ⊢ bigSep Finset.univ (fun _ : Dev nD => (BI.emp : sProp 𝕄)) from by rw [BI.bigSep_emp_const])
    iempintro
  case hlast =>
    show iprop(StableHlo.held (c : Thread nD τ) (Pipeline.ucRefs τ sig) (Gen.V3 m (outs m) c) ∗ Rst c)
      ⊢ iprop(iprop(StableHlo.held (c : Thread nD τ) (Pipeline.ucRefs τ sig) (Gen.V3 m (outs m) c) ∗ ∃ r, prngReg c r)
          ∗ ∃ W, owes (c : Thread nD τ) (0 : CellTallies nD τ sig Unit) W)
    iintro ⟨Hh, Hp, HO⟩
    isplitr [HO]
    · isplitl [Hh]; · iexact Hh
      iexact Hp
    · iexact HO
  case hinit =>
    refine Pipeline.initEach L0 lv0 fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  case hfin =>
    iintro ⟨⟨Hh, -⟩, HSI⟩
    unfold StableHlo.held
    imodintro
    iapply (pointsTo_read_all (Pipeline.ucRefs τ sig) (fun b => (((c : Thread nD τ)).1, b)) (Gen.V3 m (outs m) c) s')
    isplitl [Hh] <;> iassumption

/-- An unscoped TensorCore reference is among those read at the end. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: the program runs and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (Gen.V3_main_arg0 m (outs m) c),
     (h c _ (mem_uc main_arg1 (by decide))).trans (Gen.V3_main_arg1 m (outs m) c),
     (h c _ (mem_uc main_arg2 (by decide))).trans (Gen.V3_main_arg2 m (outs m) c),
     (h c _ (mem_uc main_arg3 (by decide))).trans (Gen.V3_main_arg3 m (outs m) c)⟩) (run_all m ρ)

/-- THE RUN WITH THE RESULT NAMED: the output ends at what the second region's write-backs leave, the arguments as
    launched. -/
theorem run_value : θ_run defs (onTc (τ := τ) (main (F := F))) ⟨m, fun _ => 0, ρ⟩ (fun r => ∀ c : Dev nD,
      r.2.mem ((c.tc : Thread nD τ).loc main_v7) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v7 (by decide))).trans (VR2_v7 m c),
     (h c _ (mem_uc main_arg0 (by decide))).trans (Gen.V3_main_arg0 m (outs m) c),
     (h c _ (mem_uc main_arg1 (by decide))).trans (Gen.V3_main_arg1 m (outs m) c),
     (h c _ (mem_uc main_arg2 (by decide))).trans (Gen.V3_main_arg2 m (outs m) c),
     (h c _ (mem_uc main_arg3 (by decide))).trans (Gen.V3_main_arg3 m (outs m) c)⟩) (run_all m ρ)

end Cert.Kernel.Hand

end
-- ==== Proof.R0Base.lean ====
/-
  The projection kernel (the first pallas_call), shared by its two control cases: the grid is (p, i, k) with
  k ∈ {0, 1} the reduction step. At k = 0 the accumulator scratch is reset before the partial product is added;
  at k = 1 the accumulated product is rounded and stored to the output block, which the pipeline writes back there.
  Here: the two branch conditions in closed form over the 24 grid points, where the output window is idle, the
  staging memrefs the pipeline passes at a point, and the region invariant with the scratch buffer singled out.
-/
import proofs.«409648_j16458314678750_3_alg».proof.Proof.Gen.KernelIdeal.Launch
import proofs.«409648_j16458314678750_3_alg».proof.Proof.Gen.KernelIdeal.Skeleton
import proofs.«409648_j16458314678750_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two branch conditions over the grid -/

/-- The reduction coordinate is 0: the accumulator is reset at this point. -/
abbrev kFirst0 (i : grid0.Coords) : Prop :=
  (Scalar.cmpi .ne (Scalar.extui (Scalar.cmpi .eq (BitVec.ofNat 32 (i 2).val) 0#32)) 0#32) = 1#1
/-- Points are numbered with the reduction coordinate fastest: it is 0 exactly at the even points. -/
theorem kFirst0_iff : ∀ t : Fin cfg0.N, kFirst0 (grid0.coords t) ↔ t.val % 2 = 0 :=
  (by decide +kernel : ∀ t : Fin grid0.N, kFirst0 (grid0.coords t) ↔ t.val % 2 = 0)

/-- The reduction coordinate is 1, the last: the output block is stored at this point. -/
abbrev kLast0 (i : grid0.Coords) : Prop := k0_cond2 i = 1#1
theorem kLast0_iff : ∀ t : Fin cfg0.N, kLast0 (grid0.coords t) ↔ t.val % 2 = 1 :=
  (by decide +kernel : ∀ t : Fin grid0.N, kLast0 (grid0.coords t) ↔ t.val % 2 = 1)

/-! ## Where the windows are idle -/

theorem live0_0 : ∀ t : Fin cfg0.N, cfg0.idle 0 (grid0.coords t) = false := by decide +kernel
theorem live0_1 : ∀ t : Fin cfg0.N, cfg0.idle 1 (grid0.coords t) = false := by decide +kernel
/-- At a first reduction step nothing is stored into the output block and the pipeline does not write it back. -/
theorem idle0_2_first : ∀ t : Fin cfg0.N, kFirst0 (grid0.coords t) → ¬kLast0 (grid0.coords t) → cfg0.idle 2 (grid0.coords t) = true := by decide +kernel
theorem noFlush0_2_first : ∀ t : Fin cfg0.N, kFirst0 (grid0.coords t) → ¬kLast0 (grid0.coords t) → (cfg0.win 2).flush t = false := by decide +kernel
/-- At a last reduction step the output block is stored whole. -/
theorem live0_2_last : ∀ t : Fin cfg0.N, ¬kFirst0 (grid0.coords t) → kLast0 (grid0.coords t) → cfg0.idle 2 (grid0.coords t) = false := by decide +kernel

/-! ## The memrefs the body is called with -/

abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x2048 .bf16 := win0_2.stage (cfg0.slots t 2)
abbrev hs0_2 (t : Fin cfg0.N) : (ms0_2 t).IsWhole := hstage0_2 ((cfg0.slots t 2).cast nbuf0_2)
/-- The accumulator scratch, a whole scoped buffer of the kernel's own. -/
abbrev scM0 : Memref sig .tc .vmem S1024x2048 .f32 := Memref.whole cc0_scratch0
/-- One staging buffer of the output window, through which a block's contents are stated. -/
abbrev VO0_2 : View sig .tc .vmem S1x1024x2048 .bf16 := (Memref.whole cc0_stg2_0 : Memref sig .tc .vmem S1x1024x2048 .bf16).view
abbrev VS0 : View sig .tc .vmem S1024x2048 .f32 := scM0.view

/-! ## The region invariant with the accumulator singled out -/

/-- The scoped buffers of the core that this kernel never names (the second kernel's staging and scratch buffers),
    each whole at some contents. -/
def otherScoped0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f))

/-- The class invariant of the region (every scoped buffer that is no staging buffer at some contents, the generator
    register at some state) with the accumulator scratch as an owned memref. -/
theorem PhiA0_eq (c : Dev nD) :
    (Pipeline.ΦA spec0 c : sProp 𝕄)
      = iprop(iprop((∃ d, owns (c : Thread nD τ) scM0 fullShare d) ∗ otherScoped0 c) ∗ (∃ r, prngReg c r)) := by
  unfold Pipeline.ΦA otherScoped0; rw [scopedRest0_eq]; simp only [scM0, owns_whole]; try rfl

end Cert.KernelIdeal.Hand

end
-- ==== Proof.R0RunFirst.lean ====
/-
  The projection kernel's body at a FIRST reduction step (k = 0): the accumulator scratch, found at anything, is
  reset and then receives the first partial product; nothing is stored into the output block. The run is made on
  any whole staging memrefs; what the scratch ends with is kept as the list of pieces the stores wrote.
-/
import proofs.«409648_j16458314678750_3_alg».proof.Proof.R0Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- At a first reduction step, from the two input blocks at `x0`, `x1`, the output block's buffer at `xi2` and the
    scratch at anything, the body runs to the inputs and the output buffer as they were and the scratch with the
    pieces `LS0` written. -/
noncomputable def run0_first (c : Dev nD) (i : grid0.Coords)
    (arg3 : Memref sig .tc .vmem S1024x1024 .bf16) (harg3 : arg3.IsWhole) (arg4 : Memref sig .tc .vmem S1x1024x2048 .bf16) (harg4 : arg4.IsWhole)
    (arg5 : Memref sig .tc .vmem S1x1024x2048 .bf16) (harg5 : arg5.IsWhole) (arg6 : Memref sig .tc .vmem S1024x2048 .f32) (harg6 : arg6.IsWhole)
    (hc0 : kFirst0 i) (hc1 : ¬kLast0 i) (x0 : Vec F S1024x1024 .bf16) (x1 : Vec F S1x1024x2048 .bf16) :
    { LS0 : List (View.Piece (Elt F) S1024x2048 .f32) //
      ∀ (xi2 : Vec F S1x1024x2048 .bf16) (E : Set ℕ) (K : PUnit → sProp 𝕄),
        iprop(owns (c : Thread nD τ) arg3 fullShare x0 ∗ owns (c : Thread nD τ) arg4 fullShare x1 ∗ owns (c : Thread nD τ) arg5 fullShare xi2
            ∗ (∃ d, owns (c : Thread nD τ) arg6 fullShare d)
            ∗ (iprop(owns (c : Thread nD τ) arg3 fullShare x0 ∗ owns (c : Thread nD τ) arg4 fullShare x1 ∗ owns (c : Thread nD τ) arg5 fullShare xi2
                ∗ (∃ f, arg6.view.loc (c : Thread nD τ) ↦[arg6.view.set]{fullShare} arg6.view.writes (Elt F) f LS0)) -∗ K ⟨⟩))
          ⊢ wp frame (wpE (defs₀ (F := F)) Variants.none c none) E (cc0__qkv_proj_kernel i arg3 harg3 arg4 harg4 arg5 harg5 arg6 harg6) K } := by
  refine ⟨?_, fun xi2 E K => ?run⟩
  case run =>
    simp only [cc0__qkv_proj_kernel_eq_skeleton]; unfold cc0__qkv_proj_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Hand

end
-- ==== Proof.R0RunLast.lean ====
/-
  The projection kernel's body at a LAST reduction step (k = 1): the scratch, found at what the step before left,
  receives the second partial product added to it; the sum is then read back, rounded to the output's format and
  stored over the whole output block, whose buffer is found at anything.
-/
import proofs.«409648_j16458314678750_3_alg».proof.Proof.R0Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- At a last reduction step, from the two input blocks at `x0`, `x1`, the output block's buffer at anything and the
    scratch at `xs0`, the body runs to the inputs as they were, the output buffer with the pieces `L2` written and the
    scratch with the pieces `LS0` written. -/
noncomputable def run0_last (c : Dev nD) (i : grid0.Coords)
    (arg3 : Memref sig .tc .vmem S1024x1024 .bf16) (harg3 : arg3.IsWhole) (arg4 : Memref sig .tc .vmem S1x1024x2048 .bf16) (harg4 : arg4.IsWhole)
    (arg5 : Memref sig .tc .vmem S1x1024x2048 .bf16) (harg5 : arg5.IsWhole) (arg6 : Memref sig .tc .vmem S1024x2048 .f32) (harg6 : arg6.IsWhole)
    (hc0 : ¬kFirst0 i) (hc1 : kLast0 i) (x0 : Vec F S1024x1024 .bf16) (x1 : Vec F S1x1024x2048 .bf16) (xs0 : Vec F S1024x2048 .f32) :
    Σ' (L2 : List (View.Piece (Elt F) S1x1024x2048 .bf16)), { LS0 : List (View.Piece (Elt F) S1024x2048 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d)
            ∗ owns (c : Thread nD τ) arg6 fullShare xs0
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)
                ∗ (∃ f, arg6.view.loc (c : Thread nD τ) ↦[arg6.view.set]{fullShare} arg6.view.writes (Elt F) f LS0)) -∗ K ⟨⟩))
          ⊢ wp frame (wpE (defs₀ (F := F)) Variants.none c none) E (cc0__qkv_proj_kernel i arg3 harg3 arg4 harg4 arg5 harg5 arg6 harg6) K } := by
  refine ⟨?_, ?_, fun E K => ?run⟩
  case run =>
    simp only [cc0__qkv_proj_kernel_eq_skeleton]; unfold cc0__qkv_proj_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.KernelIdeal.Hand

end
-- ==== Proof.R0Dat.lean ====
/-
  The projection kernel's proof data. Parameter `V`: the core's unscoped buffers as the region finds them.
  The accumulator scratch after point n is defined by recursion on the point: at a first reduction step the partial
  product of the point's two blocks added to zero, at a last one the same added to what the step before left. The
  output block written back at a last step is that sum rounded to the output's format. The region invariant holds
  the class invariant before the first point and afterwards the scratch at the accumulator's value, the core's other
  scoped buffers at anything and the generator register at some state.
-/
import proofs.«409648_j16458314678750_3_alg».proof.Proof.R0RunFirst
import proofs.«409648_j16458314678750_3_alg».proof.Proof.R0RunLast

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' block and the weights' block at a point, at their literal vector types. -/
abbrev xblk0 (c : Dev nD) (t : Fin cfg0.N) : Vec F S1024x1024 .bf16 := iblk0 V c 0 t
abbrev wblk0 (c : Dev nD) (t : Fin cfg0.N) : Vec F S1x1024x2048 .bf16 := iblk0 V c 1 t

/-! ## The accumulator, point by point -/

/-- What the accumulator scratch holds after the body at point `n`. -/
def acc0 (c : Dev nD) : (n : ℕ) → n < cfg0.N → Vec F S1024x2048 .f32
  | 0, hn => k0_pay2 (k0_pay1 (F := F)) (xblk0 V c ⟨0, hn⟩) (wblk0 V c ⟨0, hn⟩)
  | n + 1, hn =>
    if (n + 1) % 2 = 0 then k0_pay2 (k0_pay1 (F := F)) (xblk0 V c ⟨n + 1, hn⟩) (wblk0 V c ⟨n + 1, hn⟩)
    else k0_pay2 (acc0 c n (Nat.lt_of_succ_lt hn)) (xblk0 V c ⟨n + 1, hn⟩) (wblk0 V c ⟨n + 1, hn⟩)

/-- At a first reduction step: the partial product added to zero. -/
theorem acc0_first (c : Dev nD) (t : Fin cfg0.N) (h : t.val % 2 = 0) :
    acc0 V c t.val t.isLt = k0_pay2 (k0_pay1 (F := F)) (xblk0 V c t) (wblk0 V c t) := by
  obtain ⟨n, hn⟩ := t
  cases n with
  | zero => rfl
  | succ n => exact if_pos h

/-- At a last reduction step: the partial product added to what the step before left. -/
theorem acc0_last (c : Dev nD) (t : Fin cfg0.N) (h : t.val % 2 = 1) :
    acc0 V c t.val t.isLt = k0_pay2 (acc0 V c (t.val - 1) (Nat.lt_of_le_of_lt (Nat.sub_le _ _) t.isLt)) (xblk0 V c t) (wblk0 V c t) := by
  obtain ⟨n, hn⟩ := t
  cases n with
  | zero => exfalso; dsimp only at h; omega
  | succ n => exact if_neg (by dsimp only at h; omega)

/-! ## The invariant -/

/-- The region invariant before position `n`: the class invariant before the first point; afterwards the scratch at
    the accumulator's value after the point before. -/
def PhiS0 (c : Dev nD) : (n : ℕ) → n ≤ cfg0.N → sProp 𝕄
  | 0, _ => Pipeline.ΦA spec0 c
  | n + 1, hn => iprop(iprop(owns (c : Thread nD τ) scM0 fullShare (acc0 V c n hn) ∗ otherScoped0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare (acc0 V c n hn) ∗ otherScoped0 c) ∗ (∃ r, prngReg c r)) := rfl
theorem PhiS0_pos (c : Dev nD) (n : ℕ) (h : n ≤ cfg0.N) (hz : n ≠ 0) :
    PhiS0 V c n h = iprop(iprop(owns (c : Thread nD τ) scM0 fullShare (acc0 V c (n - 1) (by omega)) ∗ otherScoped0 c) ∗ (∃ r, prngReg c r)) := by
  cases n with
  | zero => exact absurd rfl hz
  | succ n => rfl

/-! ## The proof data -/

/-- The arrays as the region finds them; after the body each input's buffer at its block and the output's at the
    rounded accumulator; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (acc0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay3 (acc0 V c t.val t.isLt) := by dsimp only [dat0]

/-- Each input's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

end Cert.KernelIdeal.Hand

end
-- ==== Proof.R0Body.lean ====
/-
  The projection kernel's body obligation. First, what the two runs' stores leave, read back: the last store into a
  buffer covers it whole, so the buffer reads as that store's payload; a load after a covering store reads the payload
  stored. Then the obligation at a generic point: the inputs' buffers hold their blocks, the parity of the point
  says which run applies, the invariant hands over the scratch (at anything before the first point, at the
  accumulator's previous value afterwards) and takes it back at the accumulator's value at this point.
-/
import proofs.«409648_j16458314678750_3_alg».proof.Proof.R0Dat
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem zero2 : (![0, 0] : Fin 2 → ℕ) = fun _ => 0 := by funext a; fin_cases a <;> rfl
theorem zero3 : (![0, 0, 0] : Fin 3 → ℕ) = fun _ => 0 := by funext a; fin_cases a <;> rfl

/-! ## What the runs leave -/

section Pieces

variable (c : Dev nD) (i : grid0.Coords)
  (arg3 : Memref sig .tc .vmem S1024x1024 .bf16) (harg3 : arg3.IsWhole) (arg4 : Memref sig .tc .vmem S1x1024x2048 .bf16) (harg4 : arg4.IsWhole)
  (arg5 : Memref sig .tc .vmem S1x1024x2048 .bf16) (harg5 : arg5.IsWhole) (arg6 : Memref sig .tc .vmem S1024x2048 .f32) (harg6 : arg6.IsWhole)
  (x0 : Vec F S1024x1024 .bf16) (x1 : Vec F S1x1024x2048 .bf16)

theorem scover0_first (hc0 : kFirst0 i) (hc1 : ¬kLast0 i) (y : S1024x2048.Idx) :
    ∃ pc ∈ (run0_first c i arg3 harg3 arg4 harg4 arg5 harg5 arg6 harg6 hc0 hc1 x0 x1).1, y ∈ pc.1.set :=
  View.cover_of_tiledL (run0_first c i arg3 harg3 arg4 harg4 arg5 harg5 arg6 harg6 hc0 hc1 x0 x1).1 S1024x2048.size (by sl_kernel_rfl) y

/-- After a first step the scratch reads as the partial product added to the zero it was reset to. -/
theorem sread0_first (hc0 : kFirst0 i) (hc1 : ¬kLast0 i) (f : arg6.view.ty.Contents (Elt F)) :
    arg6.view.read (Elt F) (arg6.view.writes (Elt F) f (run0_first c i arg3 harg3 arg4 harg4 arg5 harg5 arg6 harg6 hc0 hc1 x0 x1).1)
      = k0_pay2 (k0_pay1 (F := F)) x0 x1 := by
  rw [View.read_writes_eq_canon _ _ _ (scover0_first c i arg3 harg3 arg4 harg4 arg5 harg5 arg6 harg6 x0 x1 hc0 hc1)]
  unfold run0_first; dsimp only; sl_unfold_words
  rw [View.canon_cons_unit_zero (S := S1024x2048) zero2]
  simp only [View.readAt_eq_ld, harg3.read_unread, harg4.read_unread, View.ld_unit_zero (S := S1024x1024) zero2,
    View.ld_unit_zero (S := S1x1024x2048) zero3, View.readCov_unit_zero (S := S1024x2048) _ zero2]

variable (xs0 : Vec F S1024x2048 .f32)

theorem scover0_last (hc0 : ¬kFirst0 i) (hc1 : kLast0 i) (y : S1024x2048.Idx) :
    ∃ pc ∈ (run0_last c i arg3 harg3 arg4 harg4 arg5 harg5 arg6 harg6 hc0 hc1 x0 x1 xs0).2.1, y ∈ pc.1.set :=
  View.cover_of_tiledL (run0_last c i arg3 harg3 arg4 harg4 arg5 harg5 arg6 harg6 hc0 hc1 x0 x1 xs0).2.1 S1024x2048.size (by sl_kernel_rfl) y
theorem ocover0_last (hc0 : ¬kFirst0 i) (hc1 : kLast0 i) (y : S1x1024x2048.Idx) :
    ∃ pc ∈ (run0_last c i arg3 harg3 arg4 harg4 arg5 harg5 arg6 harg6 hc0 hc1 x0 x1 xs0).1, y ∈ pc.1.set :=
  View.cover_of_tiledL (run0_last c i arg3 harg3 arg4 harg4 arg5 harg5 arg6 harg6 hc0 hc1 x0 x1 xs0).1 S1x1024x2048.size (by sl_kernel_rfl) y

/-- After a last step the scratch reads as the partial product added to what it held. -/
theorem sread0_last (hc0 : ¬kFirst0 i) (hc1 : kLast0 i) (f : arg6.view.ty.Contents (Elt F)) :
    arg6.view.read (Elt F) (arg6.view.writes (Elt F) f (run0_last c i arg3 harg3 arg4 harg4 arg5 harg5 arg6 harg6 hc0 hc1 x0 x1 xs0).2.1)
      = k0_pay2 xs0 x0 x1 := by
  rw [View.read_writes_eq_canon _ _ _ (scover0_last c i arg3 harg3 arg4 harg4 arg5 harg5 arg6 harg6 x0 x1 xs0 hc0 hc1)]
  unfold run0_last; dsimp only; sl_unfold_words
  rw [View.canon_unit_zero (S := S1024x2048) zero2]
  simp only [View.readAt_eq_ld, harg3.read_unread, harg4.read_unread, harg6.read_unread, View.ld_unit_zero (S := S1024x1024) zero2,
    View.ld_unit_zero (S := S1x1024x2048) zero3, View.ld_unit_zero (S := S1024x2048) zero2]

/-- and the output block reads as that sum rounded to the output's format. -/
theorem oread0_last (hc0 : ¬kFirst0 i) (hc1 : kLast0 i) (f : arg5.view.ty.Contents (Elt F)) :
    arg5.view.read (Elt F) (arg5.view.writes (Elt F) f (run0_last c i arg3 harg3 arg4 harg4 arg5 harg5 arg6 harg6 hc0 hc1 x0 x1 xs0).1)
      = k0_pay3 (k0_pay2 xs0 x0 x1) := by
  rw [View.read_writes_eq_canon _ _ _ (ocover0_last c i arg3 harg3 arg4 harg4 arg5 harg5 arg6 harg6 x0 x1 xs0 hc0 hc1)]
  unfold run0_last; dsimp only; sl_unfold_words
  rw [View.canon_unit_zero (S := S1x1024x2048) zero3]
  simp only [View.readAt_eq_ld, harg3.read_unread, harg4.read_unread, harg6.read_unread, View.ld_unit_zero (S := S1024x1024) zero2,
    View.ld_unit_zero (S := S1x1024x2048) zero3, View.ld_unit_zero (S := S1024x2048) zero2, View.readCov_unit_zero (S := S1024x2048) _ zero2]

end Pieces

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 24 := lt_of_lt_of_eq t.isLt (show cfg0.N = 24 from N_0)
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  by_cases h0 : t.val % 2 = 0
  · have hc0 : kFirst0 (grid0.coords t) := (kFirst0_iff t).mpr h0
    have hc1 : ¬kLast0 (grid0.coords t) := fun h => by have := (kLast0_iff t).mp h; omega
    rw [Dat.leavesExact_idle (dat0 V c) 2 t (idle0_2_first t hc0 hc1) (noFlush0_2_first t hc0 hc1)]
    rw [acc0_first V c t h0]
    by_cases hz : t.val = 0
    · rw [PhiS0_castSucc V c t, PhiS0_zero V c _ _ hz, PhiA0_eq]
      iintro ⟨⟨⟨HS0, Hoth⟩, Hg⟩, Ho, ⟨%d0, H0⟩, ⟨%d1, H1⟩, ⟨%d2, H2⟩⟩
      iapply ((run0_first c (grid0.coords t) _ _ _ _ _ _ _ _ hc0 hc1 (xblk0 V c t) (wblk0 V c t)).2 _ Set.univ _)
      isplitl [H0]; · iexact H0
      isplitl [H1]; · iexact H1
      isplitl [H2]; · iexact H2
      isplitl [HS0]; · iexact HS0
      iintro ⟨H0, H1, H2, ⟨%fs0, HS0⟩⟩
      isplitl [HS0 Hoth Hg]
      · isplitl [HS0 Hoth]
        · isplitl [HS0]
          · unfold owns; iexists _; isplitr
            swap; · iexact HS0
            ipureintro; exact sread0_first c _ _ _ _ _ _ _ _ _ _ _ hc0 hc1 _
          iexact Hoth
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HS0, Hoth⟩, Hg⟩, Ho, ⟨%d0, H0⟩, ⟨%d1, H1⟩, ⟨%d2, H2⟩⟩
      iapply ((run0_first c (grid0.coords t) _ _ _ _ _ _ _ _ hc0 hc1 (xblk0 V c t) (wblk0 V c t)).2 _ Set.univ _)
      isplitl [H0]; · iexact H0
      isplitl [H1]; · iexact H1
      isplitl [H2]; · iexact H2
      isplitl [HS0]; · iexists _; iexact HS0
      iintro ⟨H0, H1, H2, ⟨%fs0, HS0⟩⟩
      isplitl [HS0 Hoth Hg]
      · isplitl [HS0 Hoth]
        · isplitl [HS0]
          · unfold owns; iexists _; isplitr
            swap; · iexact HS0
            ipureintro; exact sread0_first c _ _ _ _ _ _ _ _ _ _ _ hc0 hc1 _
          iexact Hoth
        iexact Hg
      isplitl [Ho]; · iexact Ho
      isplitl [H0]; · iexact H0
      isplitl [H1]; · iexact H1
      iexists _; iexact H2
  · have h1 : t.val % 2 = 1 := by omega
    have hc0 : ¬kFirst0 (grid0.coords t) := fun h => h0 ((kFirst0_iff t).mp h)
    have hc1 : kLast0 (grid0.coords t) := (kLast0_iff t).mpr h1
    have hz : t.val ≠ 0 := by omega
    rw [show (dat0 V c).leavesExact 2 t = owns (c : Thread nD τ) (ms0_2 t) fullShare ((dat0 V c).after 2 t) from by
      unfold Dat.leavesExact; rw [live0_2_last t hc0 hc1], after0_2]
    rw [acc0_last V c t h1]
    rw [PhiS0_castSucc V c t, PhiS0_pos V c _ _ hz]
    iintro ⟨⟨⟨HS0, Hoth⟩, Hg⟩, Ho, ⟨%d0, H0⟩, ⟨%d1, H1⟩, ⟨%d2, H2⟩⟩
    iapply ((run0_last c (grid0.coords t) _ _ _ _ _ _ _ _ hc0 hc1 (xblk0 V c t) (wblk0 V c t) _).2.2 Set.univ _)
    isplitl [H0]; · iexact H0
    isplitl [H1]; · iexact H1
    isplitl [H2]; · iexists _; iexact H2
    isplitl [HS0]; · iexact HS0
    iintro ⟨H0, H1, ⟨%f2, H2⟩, ⟨%fs0, HS0⟩⟩
    isplitl [HS0 Hoth Hg]
    · isplitl [HS0 Hoth]
      · isplitl [HS0]
        · unfold owns; iexists _; isplitr
          swap; · iexact HS0
          ipureintro; exact sread0_last c _ _ _ _ _ _ _ _ _ _ _ _ hc0 hc1 _
        iexact Hoth
      iexact Hg
    isplitl [Ho]; · iexact Ho
    isplitl [H0]; · iexact H0
    isplitl [H1]; · iexact H1
    unfold owns; iexists _; isplitr
    swap; · iexact H2
    ipureintro; exact oread0_last c _ _ _ _ _ _ _ _ _ _ _ _ hc0 hc1 _

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is handed is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class invariant back: the accumulator's value is forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 24 := N_0; omega), PhiA0_eq]
  iintro ⟨⟨HS0, Hoth⟩, Hg⟩
  isplitl [HS0 Hoth]
  · isplitl [HS0]
    · iexists _; iexact HS0
    iexact Hoth
  iexact Hg

end Cert.KernelIdeal.Hand

end
-- ==== Proof.R1Base.lean ====
/-
  The attention kernel (the second pallas_call), shared by its three control cases: the grid is (qi, kv) with
  kv ∈ {0, 1, 2, 3} the key/value tile, fastest. At kv = 0 the three scratch buffers (running maximum, running
  normaliser, running weighted sum) are reset before the tile's contribution is folded in; at kv = 3 the weighted sum
  is divided by the normaliser and stored to the output block, which the pipeline writes back there.
  Here: the two branch conditions in closed form over the 32 grid points, where the output window is idle, the
  staging memrefs the pipeline passes at a point, and the region invariant with the three scratch buffers singled out.
-/
import proofs.«409648_j16458314678750_3_alg».proof.Proof.Gen.KernelIdeal.Launch
import proofs.«409648_j16458314678750_3_alg».proof.Proof.Gen.KernelIdeal.Skeleton
import proofs.«409648_j16458314678750_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two branch conditions over the grid -/

/-- The key/value coordinate is 0: the running maximum, normaliser and weighted sum are reset at this point. -/
abbrev kFirst1 (i : grid1.Coords) : Prop :=
  (Scalar.cmpi .ne (Scalar.extui (Scalar.cmpi .eq (BitVec.ofNat 32 (i 1).val) 0#32)) 0#32) = 1#1
/-- Points are numbered with the key/value coordinate fastest: it is 0 exactly at the points ≡ 0 (mod 4). -/
theorem kFirst1_iff : ∀ t : Fin cfg1.N, kFirst1 (grid1.coords t) ↔ t.val % 4 = 0 :=
  (by decide +kernel : ∀ t : Fin grid1.N, kFirst1 (grid1.coords t) ↔ t.val % 4 = 0)

/-- The key/value coordinate is 3, the last: the output block is stored at this point. -/
abbrev kLast1 (i : grid1.Coords) : Prop := k1_cond2 i = 1#1
theorem kLast1_iff : ∀ t : Fin cfg1.N, kLast1 (grid1.coords t) ↔ t.val % 4 = 3 :=
  (by decide +kernel : ∀ t : Fin grid1.N, kLast1 (grid1.coords t) ↔ t.val % 4 = 3)

/-! ## Where the windows are idle -/

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
/-- Before the last key/value tile nothing is stored into the output block and the pipeline does not write it back. -/
theorem idle1_3_notLast : ∀ t : Fin cfg1.N, ¬kLast1 (grid1.coords t) → cfg1.idle 3 (grid1.coords t) = true := by decide +kernel
theorem noFlush1_3_notLast : ∀ t : Fin cfg1.N, ¬kLast1 (grid1.coords t) → (cfg1.win 3).flush t = false := by decide +kernel
/-- At the last key/value tile the output block is stored whole. -/
theorem live1_3_last : ∀ t : Fin cfg1.N, kLast1 (grid1.coords t) → cfg1.idle 3 (grid1.coords t) = false := by decide +kernel

/-! ## The memrefs the body is called with -/

abbrev ms1_0 (t : Fin cfg1.N) : Memref sig .tc .vmem S1x512x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x2048 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x2048 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x2048 .f32 := win1_3.stage (cfg1.slots t 3)
abbrev hs1_3 (t : Fin cfg1.N) : (ms1_3 t).IsWhole := hstage1_3 ((cfg1.slots t 3).cast nbuf1_3)
/-- The running-maximum scratch, a whole scoped buffer of the kernel's own. -/
abbrev scM1_0 : Memref sig .tc .vmem S512x1 .f32 := Memref.whole cc1_scratch0
/-- The running-normaliser scratch. -/
abbrev scM1_1 : Memref sig .tc .vmem S512x1 .f32 := Memref.whole cc1_scratch1
/-- The running weighted-sum scratch. -/
abbrev scM1_2 : Memref sig .tc .vmem S512x2048 .f32 := Memref.whole cc1_scratch2
/-- One staging buffer of the output window, through which a block's contents are stated. -/
abbrev VO1_3 : View sig .tc .vmem S512x2048 .f32 := (Memref.whole cc1_stg3_0 : Memref sig .tc .vmem S512x2048 .f32).view
abbrev VS1_0 : View sig .tc .vmem S512x1 .f32 := scM1_0.view
abbrev VS1_1 : View sig .tc .vmem S512x1 .f32 := scM1_1.view
abbrev VS1_2 : View sig .tc .vmem S512x2048 .f32 := scM1_2.view

/-! ## The region invariant with the three scratch buffers singled out -/

/-- The scoped buffers of the core that this kernel never names (the first kernel's staging and scratch buffers),
    each whole at some contents. -/
def otherScoped1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- The class invariant of the region (every scoped buffer that is no staging buffer at some contents, the generator
    register at some state) with the three scratch buffers as owned memrefs. -/
theorem PhiA1_eq (c : Dev nD) :
    (Pipeline.ΦA spec1 c : sProp 𝕄)
      = iprop(iprop(otherScoped1 c ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  have assoc : ∀ P Q R' : sProp 𝕄, iprop((P ∗ Q) ∗ R') = iprop(P ∗ Q ∗ R') :=
    fun _ _ _ => Idealize.SL.BI.Entails.antisymm Idealize.SL.BI.sep_assoc Idealize.SL.BI.sep_assoc'
  unfold Pipeline.ΦA otherScoped1; rw [scopedRest1_eq]; simp only [scM1_0, scM1_1, scM1_2, owns_whole, assoc]
  rfl

end Cert.KernelIdeal.Hand

end
-- ==== Proof.R1Defs.lean ====
/-
  The attention kernel's proof data. Parameter `V`: the core's unscoped buffers as the region finds them. The grid is
  (qi, kv) with kv ∈ {0, 1, 2, 3} the key/value tile, fastest. The three scratch buffers carry, between the points of
  one query tile, the running row maximum, the running normaliser and the running weighted sum: at kv = 0 they are
  reset (to -∞, 0, 0) and then updated, at the later tiles updated from what the point before left; at kv = 3 the
  weighted sum divided by the normaliser is stored over the output block, which the pipeline writes back there.
  The three input windows read ONE array (the stacked projections), so each holds a third of its share.
-/
import proofs.«409648_j16458314678750_3_alg».proof.Proof.R1Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query, key and value blocks at a point, at their literal vector types. -/
abbrev qblk1 (c : Dev nD) (t : Fin cfg1.N) : Vec F S1x512x2048 .bf16 := iblk1 V c 0 t
abbrev kblk1 (c : Dev nD) (t : Fin cfg1.N) : Vec F S1x1024x2048 .bf16 := iblk1 V c 1 t
abbrev vblk1 (c : Dev nD) (t : Fin cfg1.N) : Vec F S1x1024x2048 .bf16 := iblk1 V c 2 t

/-! ## One step of the running state -/

/-- The running maximum after a tile, from the maximum before it. -/
def nextM (q : Vec F S1x512x2048 .bf16) (k : Vec F S1x1024x2048 .bf16) (m0 : Vec F S512x1 .f32) : Vec F S512x1 .f32 :=
  k1_pay2 (k1_pay9 q k m0)
/-- The running normaliser after a tile: the old one rescaled, plus the tile's sum of exponentials. -/
def nextL (q : Vec F S1x512x2048 .bf16) (k : Vec F S1x1024x2048 .bf16) (m0 l0 : Vec F S512x1 .f32) : Vec F S512x1 .f32 :=
  k1_pay12 q k m0 m0 l0
/-- The running weighted sum after a tile: the old one rescaled, plus the tile's exponentials times its values. -/
def nextA (q : Vec F S1x512x2048 .bf16) (k v : Vec F S1x1024x2048 .bf16) (m0 : Vec F S512x1 .f32) (a0 : Vec F S512x2048 .f32) : Vec F S512x2048 .f32 :=
  k1_pay1 (k1_pay7 v) (k1_pay10 q k m0 m0) (k1_pay11 q k m0) a0

/-- The state (maximum, normaliser, weighted sum) after one tile, from the state before it. -/
def step1 (q : Vec F S1x512x2048 .bf16) (k v : Vec F S1x1024x2048 .bf16)
    (s : Vec F S512x1 .f32 × Vec F S512x1 .f32 × Vec F S512x2048 .f32) : Vec F S512x1 .f32 × Vec F S512x1 .f32 × Vec F S512x2048 .f32 :=
  (nextM q k s.1, nextL q k s.1 s.2.1, nextA q k v s.1 s.2.2)

/-- The state a first tile starts from: what the reset stores. -/
def reset1 : Vec F S512x1 .f32 × Vec F S512x1 .f32 × Vec F S512x2048 .f32 := (k1_pay4 (F := F), k1_pay5 (F := F), k1_pay6 (F := F))

/-! ## The state, point by point -/

/-- What the three scratch buffers hold after the body at point `n`. -/
def st1 (c : Dev nD) : (n : ℕ) → n < cfg1.N → Vec F S512x1 .f32 × Vec F S512x1 .f32 × Vec F S512x2048 .f32
  | 0, hn => step1 (qblk1 V c ⟨0, hn⟩) (kblk1 V c ⟨0, hn⟩) (vblk1 V c ⟨0, hn⟩) reset1
  | n + 1, hn =>
    if (n + 1) % 4 = 0 then step1 (qblk1 V c ⟨n + 1, hn⟩) (kblk1 V c ⟨n + 1, hn⟩) (vblk1 V c ⟨n + 1, hn⟩) reset1
    else step1 (qblk1 V c ⟨n + 1, hn⟩) (kblk1 V c ⟨n + 1, hn⟩) (vblk1 V c ⟨n + 1, hn⟩) (st1 c n (Nat.lt_of_succ_lt hn))

theorem st1_first (c : Dev nD) (t : Fin cfg1.N) (h : t.val % 4 = 0) :
    st1 V c t.val t.isLt = step1 (qblk1 V c t) (kblk1 V c t) (vblk1 V c t) reset1 := by
  obtain ⟨n, hn⟩ := t
  cases n with
  | zero => rfl
  | succ n => exact if_pos h

theorem st1_next (c : Dev nD) (t : Fin cfg1.N) (h : ¬t.val % 4 = 0) :
    st1 V c t.val t.isLt = step1 (qblk1 V c t) (kblk1 V c t) (vblk1 V c t)
      (st1 V c (t.val - 1) (Nat.lt_of_le_of_lt (Nat.sub_le _ _) t.isLt)) := by
  obtain ⟨n, hn⟩ := t
  cases n with
  | zero => exfalso; dsimp only at h; omega
  | succ n => exact if_neg h

/-- The output block stored at a last tile: the weighted sum divided by the normaliser. -/
def outBlk1 (c : Dev nD) (t : Fin cfg1.N) : Vec F S512x2048 .f32 :=
  k1_pay3 (st1 V c t.val t.isLt).2.2 (st1 V c t.val t.isLt).2.1

/-! ## The invariant -/

/-- The region invariant before position `n`: the class invariant before the first point; afterwards the three
    scratch buffers at the state after the point before. -/
def PhiS1 (c : Dev nD) : (n : ℕ) → n ≤ cfg1.N → sProp 𝕄
  | 0, _ => Pipeline.ΦA spec1 c
  | n + 1, hn => iprop(iprop(otherScoped1 c ∗ owns (c : Thread nD τ) scM1_0 fullShare (st1 V c n hn).1
      ∗ owns (c : Thread nD τ) scM1_1 fullShare (st1 V c n hn).2.1 ∗ owns (c : Thread nD τ) scM1_2 fullShare (st1 V c n hn).2.2) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(otherScoped1 c ∗ owns (c : Thread nD τ) scM1_0 fullShare (st1 V c n hn).1
      ∗ owns (c : Thread nD τ) scM1_1 fullShare (st1 V c n hn).2.1 ∗ owns (c : Thread nD τ) scM1_2 fullShare (st1 V c n hn).2.2) ∗ (∃ r, prngReg c r)) := rfl
theorem PhiS1_pos (c : Dev nD) (n : ℕ) (h : n ≤ cfg1.N) (hz : n ≠ 0) :
    PhiS1 V c n h = iprop(iprop(otherScoped1 c ∗ owns (c : Thread nD τ) scM1_0 fullShare (st1 V c (n - 1) (by omega)).1
      ∗ owns (c : Thread nD τ) scM1_1 fullShare (st1 V c (n - 1) (by omega)).2.1 ∗ owns (c : Thread nD τ) scM1_2 fullShare (st1 V c (n - 1) (by omega)).2.2) ∗ (∃ r, prngReg c r)) := by
  cases n with
  | zero => exact absurd rfl hz
  | succ n => rfl

/-! ## The proof data -/

/-- The arrays as the region finds them; after the body each input's buffer at its block and the output's at the
    quotient; the invariant `PhiS1`; nothing owed; the stacked projections' share dealt in three among the windows
    that read them. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outBlk1 V c t
  Φ t := PhiS1 V c t.val (Nat.le_of_lt_succ t.isLt)
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outBlk1 V c t := by dsimp only [dat1]

/-- Each input's current staging buffer holds its block at every point, fetched there or not (the query block is
    fetched only when the query tile changes, and the key/value tile does not move its index). -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

end Cert.KernelIdeal.Hand

end
-- ==== Proof.FrameBase.lean ====
/-
  The run of the kernel program, first part: what the unscoped buffers hold between the items of @main, with the two
  regions' results NAMED — the stacked projections as the first region's write-backs leave them, the output as the
  second region's do —, the two pipelines' proof data at their regions' entry contents, and the first region as a
  segment of @main: entered from every unscoped buffer at the contents after the host stretch, left with the stacked
  projections replaced; its arrays are three distinct buffers, each held whole; the generator register passes through the
  invariant; nothing is owed.
-/
import proofs.«409648_j16458314678750_3_alg».proof.Proof.R0Body
import proofs.«409648_j16458314678750_3_alg».proof.Proof.R1Defs
import proofs.«409648_j16458314678750_3_alg».proof.Proof.Gen.KernelIdeal.Regions
import Idealize.ShloMosaic.Lib.Pipeline.RegionsLoop

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffers between the items -/

/-- What the first region finds: the launch contents after the host stretch, read at a TensorCore reference. -/
abbrev VR0 (c : Dev nD) (b : Ref sig .tc) : Buf (Elt F) ((c : Thread nD τ).loc b) := Gen.V1 m c b

/-- The stacked projections as the first region's write-backs leave them. -/
def qkvArr (c : Dev nD) : Buf (Elt F) ((c : Thread nD τ).loc main_v6) := (dat0 (VR0 m) c).arrAt 2 cfg0.N

/-- The buffers after the first region: the stacked projections replaced. -/
def WR1 (c : Dev nD) : Valuation τ sig (Elt F) := Function.update (Gen.V1 m c) main_v6 (qkvArr m c)
/-- What the second region finds, read at a TensorCore reference. -/
abbrev VR1 (c : Dev nD) (b : Ref sig .tc) : Buf (Elt F) ((c : Thread nD τ).loc b) := WR1 m c b

/-- The output as the second region's write-backs leave it. -/
def outArr (c : Dev nD) : Buf (Elt F) ((c : Thread nD τ).loc main_v7) := (dat1 (VR1 m) c).arrAt 3 cfg1.N

/-- What the regions leave in the buffers they may change. -/
def outs : Gen.Outs (F := F) := fun _ r c =>
  if h : r = main_v6 then h ▸ qkvArr m c else if h : r = main_v7 then h ▸ outArr m c else Gen.V1 m c r

theorem outs_v6 (c : Dev nD) : outs m 2 main_v6 c = qkvArr m c := by unfold outs; rw [dif_pos rfl]
theorem outs_v7 (c : Dev nD) : outs m 3 main_v7 c = outArr m c := by
  unfold outs; rw [dif_neg (by decide), dif_pos rfl]

theorem V2_eq (c : Dev nD) : Gen.V2 m (outs m) c = WR1 m c := by
  unfold WR1; rw [← outs_v6]

/-! ## The proof data family and what rides beside the buffers -/

/-- Both pipelines' proof data, each at its region's entry contents. -/
def pdats : (p : Fin 2) → (c : Dev nD) → Dat τ (Elt F) Unit ℕ (UR sig nD τ) ℕ (cfgs p) c
  | ⟨0, _⟩ => fun c => dat0 (VR0 m) c
  | ⟨1, _⟩ => fun c => dat1 (VR1 m) c

/-- No core owes another anything: no level is assigned. -/
abbrev L0 : GSem nD τ sig → Finset Unit := fun _ => ∅
abbrev lv0 : GSem nD τ sig → Unit → ℕ := fun _ _ => 0

/-- Beside the buffers, through every item: the generator register at some state, and nothing owed. -/
abbrev Rst (c : Dev nD) : sProp 𝕄 :=
  iprop((∃ r, prngReg c r) ∗ ∃ W, owes (c : Thread nD τ) (0 : CellTallies nD τ sig Unit) W)

/-! ## What the first region leaves in its arrays -/

theorem hF0 (c : Dev nD) (w : Fin cfg0.W) : (pdats m 0 c).arrAt w cfg0.N = Gen.V2 m (outs m) c (Pipeline.arrRef spec0 w) := by
  match w with
  | ⟨0, _⟩ => exact ((dat0 (VR0 m) c).arrAt_in 0 rfl _).trans ((A_eq0 (VR0 m) c 0).trans (Gen.V2_of m (outs m) c main_v5 (by decide)).symm)
  | ⟨1, _⟩ => exact ((dat0 (VR0 m) c).arrAt_in 1 rfl _).trans ((A_eq0 (VR0 m) c 1).trans (Gen.V2_of m (outs m) c main_v4 (by decide)).symm)
  | ⟨2, _⟩ =>
    show qkvArr m c = Function.update (Gen.V1 m c) (Proc.devRef .tc main_v6) (outs m 2 main_v6 c) (Proc.devRef .tc main_v6)
    rw [Function.update_self, outs_v6]

theorem hrest0 (c : Dev nD) : ∀ b, b ∉ Finset.univ.image (Pipeline.arrRef spec0) → Gen.V2 m (outs m) c b = Gen.V1 m c b :=
  fun b hb => Gen.V2_of m (outs m) c b (by
    intro h
    rw [List.mem_singleton] at h
    exact hb (Finset.mem_image.mpr ⟨2, Finset.mem_univ _, h.symm⟩))

end Cert.KernelIdeal.Hand

end
-- ==== Proof.FrameR0.lean ====
/-
  The first region (the projection kernel) as a segment of @main. Entry: the unscoped buffers held at the contents
  after the host stretch are the region's three arrays (distinct whole buffers, each at the full share) and the rest,
  which bypasses the region; the generator register enters the invariant. Exit: the arrays at what the write-backs
  leave and the rest are again every unscoped buffer, now with the stacked projections replaced.
-/
import proofs.«409648_j16458314678750_3_alg».proof.Proof.FrameBase

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg0 : Pipeline.RegionSeg (pcfgs (F := F)) Gen.adm (pdats m) () defs₀ Variants.none L0 lv0 0 where
  win := launch0.win.to₀
  block_pos := launch0.block_pos
  stage_whole := launch0.stage_whole
  K := PEmpty
  osem k := k.elim
  ho := Pipeline.OwnSemFacts.none _
  hbody c := (body_obligation0 (VR0 m) c).loose
  hwaits := Pipeline.hwaits_of_owed_zero _ _ _ _ L0 lv0 0 fun _ _ => rfl
  pre c := iprop(StableHlo.held (c : Thread nD τ) (Pipeline.ucRefs τ sig) (Gen.V1 m c) ∗ Rst c)
  post c := iprop(StableHlo.held (c : Thread nD τ) (Pipeline.ucRefs τ sig) (Gen.V2 m (outs m) c) ∗ Rst c)
  X c := iprop(∃ r, prngReg c r)
  Y c := iprop(∃ r, prngReg c r)
  Z c := Pipeline.unscopedRest (Ix := Unit) (Name := ℕ) (U := UR sig nD τ) (Lvl := ℕ) spec0 c (VR0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (VR0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    have h : (Pipeline.ΦA spec0 c : sProp 𝕄) ⊢ iprop((∃ r, prngReg c r) ∗ BI.emp ∗ Pipeline.scopedRest (Ix := Unit) (Name := ℕ) (U := UR sig nD τ) (Lvl := ℕ) (Val := Elt F) spec0 c) := by
      unfold Pipeline.ΦA
      iintro ⟨Hr, Hp⟩
      isplitl [Hp]; · iexact Hp
      isplitr; · iempintro
      iexact Hr
    exact (hout0 (VR0 m) c).trans h
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (VR0 m c) (fun b => Gen.V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.R1RunFirst.lean ====
/-
  The attention kernel's body at a FIRST key/value tile (kv = 0): the three scratch buffers, found at anything, are
  reset (running maximum to -∞, normaliser and weighted sum to 0) and then receive the first tile's contribution;
  nothing is stored into the output block. The run is made on any whole staging memrefs; what the scratch buffers end
  with is kept as the lists of pieces the stores wrote.
-/
import proofs.«409648_j16458314678750_3_alg».proof.Proof.R1Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- At a first key/value tile, from the query block at `x0`, the key and value blocks at `x1`, `x2`, the output block's
    buffer at `xi3` and the three scratch buffers at anything, the body runs to the inputs and the output buffer as they
    were and the scratch buffers with the pieces `LS0`, `LS1`, `LS2` written. -/
noncomputable def run1_first (c : Dev nD) (i : grid1.Coords)
    (arg2 : Memref sig .tc .vmem S1x512x2048 .bf16) (harg2 : arg2.IsWhole) (arg3 : Memref sig .tc .vmem S1x1024x2048 .bf16) (harg3 : arg3.IsWhole)
    (arg4 : Memref sig .tc .vmem S1x1024x2048 .bf16) (harg4 : arg4.IsWhole) (arg5 : Memref sig .tc .vmem S512x2048 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x2048 .f32) (harg8 : arg8.IsWhole)
    (hc0 : kFirst1 i) (hc1 : ¬kLast1 i) (x0 : Vec F S1x512x2048 .bf16) (x1 x2 : Vec F S1x1024x2048 .bf16) :
    Σ' (LS0 LS1 : List (View.Piece (Elt F) S512x1 .f32)), { LS2 : List (View.Piece (Elt F) S512x2048 .f32) //
      ∀ (xi3 : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LS2)) -∗ K ⟨⟩))
          ⊢ wp frame (wpE (defs₀ (F := F)) Variants.none c none) E (cc1__attention_kernel i arg2 harg2 arg3 harg3 arg4 harg4 arg5 harg5 arg6 harg6 arg7 harg7 arg8 harg8) K } := by
  refine ⟨?_, ?_, ?_, fun xi3 E K => ?run⟩
  case run =>
    simp only [cc1__attention_kernel_eq_skeleton]; unfold cc1__attention_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Hand

end
-- ==== Proof.R1RunMid.lean ====
/-
  The attention kernel's body at a MIDDLE key/value tile (kv = 1, 2): the three scratch buffers, found at what the
  tile before left, are rescaled to the new running maximum and receive this tile's contribution; nothing is stored
  into the output block.
-/
import proofs.«409648_j16458314678750_3_alg».proof.Proof.R1Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- At a middle key/value tile, from the query block at `x0`, the key and value blocks at `x1`, `x2`, the output block's
    buffer at `xi3` and the three scratch buffers at `xs0`, `xs1`, `xs2` (what the tile before left), the body runs to
    the inputs and the output buffer as they were and the scratch buffers with the pieces `LS0`, `LS1`, `LS2` written. -/
noncomputable def run1_mid (c : Dev nD) (i : grid1.Coords)
    (arg2 : Memref sig .tc .vmem S1x512x2048 .bf16) (harg2 : arg2.IsWhole) (arg3 : Memref sig .tc .vmem S1x1024x2048 .bf16) (harg3 : arg3.IsWhole)
    (arg4 : Memref sig .tc .vmem S1x1024x2048 .bf16) (harg4 : arg4.IsWhole) (arg5 : Memref sig .tc .vmem S512x2048 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x2048 .f32) (harg8 : arg8.IsWhole)
    (hc0 : ¬kFirst1 i) (hc1 : ¬kLast1 i) (x0 : Vec F S1x512x2048 .bf16) (x1 x2 : Vec F S1x1024x2048 .bf16)
    (xs0 xs1 : Vec F S512x1 .f32) (xs2 : Vec F S512x2048 .f32) :
    Σ' (LS0 LS1 : List (View.Piece (Elt F) S512x1 .f32)), { LS2 : List (View.Piece (Elt F) S512x2048 .f32) //
      ∀ (xi3 : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LS2)) -∗ K ⟨⟩))
          ⊢ wp frame (wpE (defs₀ (F := F)) Variants.none c none) E (cc1__attention_kernel i arg2 harg2 arg3 harg3 arg4 harg4 arg5 harg5 arg6 harg6 arg7 harg7 arg8 harg8) K } := by
  refine ⟨?_, ?_, ?_, fun xi3 E K => ?run⟩
  case run =>
    simp only [cc1__attention_kernel_eq_skeleton]; unfold cc1__attention_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Hand

end
-- ==== Proof.R1RunLast.lean ====
/-
  The attention kernel's body at the LAST key/value tile (kv = 3): the three scratch buffers, found at what the tile
  before left, are rescaled and receive this tile's contribution; the weighted sum is then read back, divided by the
  normaliser and stored over the whole output block, whose buffer is found at anything.
-/
import proofs.«409648_j16458314678750_3_alg».proof.Proof.R1Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- At the last key/value tile, from the query block at `x0`, the key and value blocks at `x1`, `x2`, the output block's
    buffer at anything and the three scratch buffers at `xs0`, `xs1`, `xs2`, the body runs to the inputs as they were,
    the output buffer with the pieces `L3` written and the scratch buffers with the pieces `LS0`, `LS1`, `LS2` written. -/
noncomputable def run1_last (c : Dev nD) (i : grid1.Coords)
    (arg2 : Memref sig .tc .vmem S1x512x2048 .bf16) (harg2 : arg2.IsWhole) (arg3 : Memref sig .tc .vmem S1x1024x2048 .bf16) (harg3 : arg3.IsWhole)
    (arg4 : Memref sig .tc .vmem S1x1024x2048 .bf16) (harg4 : arg4.IsWhole) (arg5 : Memref sig .tc .vmem S512x2048 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x2048 .f32) (harg8 : arg8.IsWhole)
    (hc0 : ¬kFirst1 i) (hc1 : kLast1 i) (x0 : Vec F S1x512x2048 .bf16) (x1 x2 : Vec F S1x1024x2048 .bf16)
    (xs0 xs1 : Vec F S512x1 .f32) (xs2 : Vec F S512x2048 .f32) :
    Σ' (L3 : List (View.Piece (Elt F) S512x2048 .f32)) (LS0 LS1 : List (View.Piece (Elt F) S512x1 .f32)), { LS2 : List (View.Piece (Elt F) S512x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LS2)) -∗ K ⟨⟩))
          ⊢ wp frame (wpE (defs₀ (F := F)) Variants.none c none) E (cc1__attention_kernel i arg2 harg2 arg3 harg3 arg4 harg4 arg5 harg5 arg6 harg6 arg7 harg7 arg8 harg8) K } := by
  refine ⟨?_, ?_, ?_, ?_, fun E K => ?run⟩
  case run =>
    simp only [cc1__attention_kernel_eq_skeleton]; unfold cc1__attention_kernel_skel
    simp only [k1_part1_eq_skeleton]; unfold k1_part1_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.KernelIdeal.Hand

end
-- ==== Proof.R1Body.lean ====
/-
  The attention kernel's body obligation. First, what the three runs' stores leave, read back: the last store into a
  buffer covers it whole, so the buffer reads as that store's payload; a load after a covering store reads the payload
  stored. Then the obligation at a generic point: the inputs' buffers hold their blocks, the point's residue mod 4
  says which run applies, the invariant hands over the three scratch buffers (at anything before the first point, at
  the running state after the point before afterwards) and takes them back at the running state at this point; at a
  last tile the output block's buffer is left at the weighted sum divided by the normaliser.
-/
import proofs.«409648_j16458314678750_3_alg».proof.Proof.R1Defs
import proofs.«409648_j16458314678750_3_alg».proof.Proof.R1RunFirst
import proofs.«409648_j16458314678750_3_alg».proof.Proof.R1RunMid
import proofs.«409648_j16458314678750_3_alg».proof.Proof.R1RunLast
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem zeroFin2 : (![0, 0] : Fin 2 → ℕ) = fun _ => 0 := by funext a; fin_cases a <;> rfl
theorem zeroFin3 : (![0, 0, 0] : Fin 3 → ℕ) = fun _ => 0 := by funext a; fin_cases a <;> rfl

/-! ## What the runs leave -/

section Pieces

variable (c : Dev nD) (i : grid1.Coords)
    (arg2 : Memref sig .tc .vmem S1x512x2048 .bf16) (harg2 : arg2.IsWhole) (arg3 : Memref sig .tc .vmem S1x1024x2048 .bf16) (harg3 : arg3.IsWhole)
    (arg4 : Memref sig .tc .vmem S1x1024x2048 .bf16) (harg4 : arg4.IsWhole) (arg5 : Memref sig .tc .vmem S512x2048 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x2048 .f32) (harg8 : arg8.IsWhole)
  (x0 : Vec F S1x512x2048 .bf16) (x1 x2 : Vec F S1x1024x2048 .bf16)

theorem mcover1_first (hc0 : kFirst1 i) (hc1 : ¬kLast1 i) (y : S512x1.Idx) :
    ∃ pc ∈ (run1_first c i arg2 harg2 arg3 harg3 arg4 harg4 arg5 harg5 arg6 harg6 arg7 harg7 arg8 harg8 hc0 hc1 x0 x1 x2).1, y ∈ pc.1.set :=
  View.cover_of_tiledL (run1_first c i arg2 harg2 arg3 harg3 arg4 harg4 arg5 harg5 arg6 harg6 arg7 harg7 arg8 harg8 hc0 hc1 x0 x1 x2).1 S512x1.size (by sl_kernel_rfl) y
theorem lcover1_first (hc0 : kFirst1 i) (hc1 : ¬kLast1 i) (y : S512x1.Idx) :
    ∃ pc ∈ (run1_first c i arg2 harg2 arg3 harg3 arg4 harg4 arg5 harg5 arg6 harg6 arg7 harg7 arg8 harg8 hc0 hc1 x0 x1 x2).2.1, y ∈ pc.1.set :=
  View.cover_of_tiledL (run1_first c i arg2 harg2 arg3 harg3 arg4 harg4 arg5 harg5 arg6 harg6 arg7 harg7 arg8 harg8 hc0 hc1 x0 x1 x2).2.1 S512x1.size (by sl_kernel_rfl) y
theorem acover1_first (hc0 : kFirst1 i) (hc1 : ¬kLast1 i) (y : S512x2048.Idx) :
    ∃ pc ∈ (run1_first c i arg2 harg2 arg3 harg3 arg4 harg4 arg5 harg5 arg6 harg6 arg7 harg7 arg8 harg8 hc0 hc1 x0 x1 x2).2.2.1, y ∈ pc.1.set :=
  View.cover_of_tiledL (run1_first c i arg2 harg2 arg3 harg3 arg4 harg4 arg5 harg5 arg6 harg6 arg7 harg7 arg8 harg8 hc0 hc1 x0 x1 x2).2.2.1 S512x2048.size (by sl_kernel_rfl) y

/-- After a first tile the maximum scratch reads as the tile's row maximum joined with the -∞ it was reset to. -/
theorem mread1_first (hc0 : kFirst1 i) (hc1 : ¬kLast1 i) (f : arg6.view.ty.Contents (Elt F)) :
    arg6.view.read (Elt F) (arg6.view.writes (Elt F) f (run1_first c i arg2 harg2 arg3 harg3 arg4 harg4 arg5 harg5 arg6 harg6 arg7 harg7 arg8 harg8 hc0 hc1 x0 x1 x2).1)
      = nextM x0 x1 (k1_pay4 (F := F)) := by
  rw [View.read_writes_eq_canon _ _ _ (mcover1_first c i arg2 harg2 arg3 harg3 arg4 harg4 arg5 harg5 arg6 harg6 arg7 harg7 arg8 harg8 x0 x1 x2 hc0 hc1)]
  unfold run1_first nextM; dsimp only; sl_unfold_words; try dsimp only
  rw [View.canon_cons_unit_zero (S := S512x1) zeroFin2]
  simp only [View.readAt_eq_ld, harg2.read_unread, harg3.read_unread, harg4.read_unread, View.ld_unit_zero (S := S1x512x2048) zeroFin3, View.ld_unit_zero (S := S1x1024x2048) zeroFin3, View.readCov_unit_zero (S := S512x1) _ zeroFin2, View.readCov_unit_zero (S := S512x2048) _ zeroFin2]
/-- the normaliser scratch as the tile's sum of exponentials added to the rescaled 0 it was reset to, -/
theorem lread1_first (hc0 : kFirst1 i) (hc1 : ¬kLast1 i) (f : arg7.view.ty.Contents (Elt F)) :
    arg7.view.read (Elt F) (arg7.view.writes (Elt F) f (run1_first c i arg2 harg2 arg3 harg3 arg4 harg4 arg5 harg5 arg6 harg6 arg7 harg7 arg8 harg8 hc0 hc1 x0 x1 x2).2.1)
      = nextL x0 x1 (k1_pay4 (F := F)) (k1_pay5 (F := F)) := by
  rw [View.read_writes_eq_canon _ _ _ (lcover1_first c i arg2 harg2 arg3 harg3 arg4 harg4 arg5 harg5 arg6 harg6 arg7 harg7 arg8 harg8 x0 x1 x2 hc0 hc1)]
  unfold run1_first nextL; dsimp only; sl_unfold_words; try dsimp only
  rw [View.canon_cons_unit_zero (S := S512x1) zeroFin2]
  simp only [View.readAt_eq_ld, harg2.read_unread, harg3.read_unread, harg4.read_unread, View.ld_unit_zero (S := S1x512x2048) zeroFin3, View.ld_unit_zero (S := S1x1024x2048) zeroFin3, View.readCov_unit_zero (S := S512x1) _ zeroFin2, View.readCov_unit_zero (S := S512x2048) _ zeroFin2]
/-- and the weighted-sum scratch as the tile's exponentials times its values added to the rescaled 0 it was reset to. -/
theorem aread1_first (hc0 : kFirst1 i) (hc1 : ¬kLast1 i) (f : arg8.view.ty.Contents (Elt F)) :
    arg8.view.read (Elt F) (arg8.view.writes (Elt F) f (run1_first c i arg2 harg2 arg3 harg3 arg4 harg4 arg5 harg5 arg6 harg6 arg7 harg7 arg8 harg8 hc0 hc1 x0 x1 x2).2.2.1)
      = nextA x0 x1 x2 (k1_pay4 (F := F)) (k1_pay6 (F := F)) := by
  rw [View.read_writes_eq_canon _ _ _ (acover1_first c i arg2 harg2 arg3 harg3 arg4 harg4 arg5 harg5 arg6 harg6 arg7 harg7 arg8 harg8 x0 x1 x2 hc0 hc1)]
  unfold run1_first nextA; dsimp only; sl_unfold_words; try dsimp only
  rw [View.canon_cons_unit_zero (S := S512x2048) zeroFin2]
  simp only [View.readAt_eq_ld, harg2.read_unread, harg3.read_unread, harg4.read_unread, View.ld_unit_zero (S := S1x512x2048) zeroFin3, View.ld_unit_zero (S := S1x1024x2048) zeroFin3, View.readCov_unit_zero (S := S512x1) _ zeroFin2, View.readCov_unit_zero (S := S512x2048) _ zeroFin2]

variable (xs0 xs1 : Vec F S512x1 .f32) (xs2 : Vec F S512x2048 .f32)

theorem mcover1_mid (hc0 : ¬kFirst1 i) (hc1 : ¬kLast1 i) (y : S512x1.Idx) :
    ∃ pc ∈ (run1_mid c i arg2 harg2 arg3 harg3 arg4 harg4 arg5 harg5 arg6 harg6 arg7 harg7 arg8 harg8 hc0 hc1 x0 x1 x2 xs0 xs1 xs2).1, y ∈ pc.1.set :=
  View.cover_of_tiledL (run1_mid c i arg2 harg2 arg3 harg3 arg4 harg4 arg5 harg5 arg6 harg6 arg7 harg7 arg8 harg8 hc0 hc1 x0 x1 x2 xs0 xs1 xs2).1 S512x1.size (by sl_kernel_rfl) y
theorem lcover1_mid (hc0 : ¬kFirst1 i) (hc1 : ¬kLast1 i) (y : S512x1.Idx) :
    ∃ pc ∈ (run1_mid c i arg2 harg2 arg3 harg3 arg4 harg4 arg5 harg5 arg6 harg6 arg7 harg7 arg8 harg8 hc0 hc1 x0 x1 x2 xs0 xs1 xs2).2.1, y ∈ pc.1.set :=
  View.cover_of_tiledL (run1_mid c i arg2 harg2 arg3 harg3 arg4 harg4 arg5 harg5 arg6 harg6 arg7 harg7 arg8 harg8 hc0 hc1 x0 x1 x2 xs0 xs1 xs2).2.1 S512x1.size (by sl_kernel_rfl) y
theorem acover1_mid (hc0 : ¬kFirst1 i) (hc1 : ¬kLast1 i) (y : S512x2048.Idx) :
    ∃ pc ∈ (run1_mid c i arg2 harg2 arg3 harg3 arg4 harg4 arg5 harg5 arg6 harg6 arg7 harg7 arg8 harg8 hc0 hc1 x0 x1 x2 xs0 xs1 xs2).2.2.1, y ∈ pc.1.set :=
  View.cover_of_tiledL (run1_mid c i arg2 harg2 arg3 harg3 arg4 harg4 arg5 harg5 arg6 harg6 arg7 harg7 arg8 harg8 hc0 hc1 x0 x1 x2 xs0 xs1 xs2).2.2.1 S512x2048.size (by sl_kernel_rfl) y

/-- After a middle tile the maximum scratch reads as the tile's row maximum joined with what it held, -/
theorem mread1_mid (hc0 : ¬kFirst1 i) (hc1 : ¬kLast1 i) (f : arg6.view.ty.Contents (Elt F)) :
    arg6.view.read (Elt F) (arg6.view.writes (Elt F) f (run1_mid c i arg2 harg2 arg3 harg3 arg4 harg4 arg5 harg5 arg6 harg6 arg7 harg7 arg8 harg8 hc0 hc1 x0 x1 x2 xs0 xs1 xs2).1)
      = nextM x0 x1 xs0 := by
  rw [View.read_writes_eq_canon _ _ _ (mcover1_mid c i arg2 harg2 arg3 harg3 arg4 harg4 arg5 harg5 arg6 harg6 arg7 harg7 arg8 harg8 x0 x1 x2 xs0 xs1 xs2 hc0 hc1)]
  unfold run1_mid nextM; dsimp only; sl_unfold_words; try dsimp only
  rw [View.canon_unit_zero (S := S512x1) zeroFin2]
  simp only [View.readAt_eq_ld, harg2.read_unread, harg3.read_unread, harg4.read_unread, View.ld_unit_zero (S := S1x512x2048) zeroFin3, View.ld_unit_zero (S := S1x1024x2048) zeroFin3, harg6.read_unread, harg7.read_unread, harg8.read_unread, View.ld_unit_zero (S := S512x1) zeroFin2, View.ld_unit_zero (S := S512x2048) zeroFin2]
/-- the normaliser scratch as what it held rescaled plus the tile's sum of exponentials, -/
theorem lread1_mid (hc0 : ¬kFirst1 i) (hc1 : ¬kLast1 i) (f : arg7.view.ty.Contents (Elt F)) :
    arg7.view.read (Elt F) (arg7.view.writes (Elt F) f (run1_mid c i arg2 harg2 arg3 harg3 arg4 harg4 arg5 harg5 arg6 harg6 arg7 harg7 arg8 harg8 hc0 hc1 x0 x1 x2 xs0 xs1 xs2).2.1)
      = nextL x0 x1 xs0 xs1 := by
  rw [View.read_writes_eq_canon _ _ _ (lcover1_mid c i arg2 harg2 arg3 harg3 arg4 harg4 arg5 harg5 arg6 harg6 arg7 harg7 arg8 harg8 x0 x1 x2 xs0 xs1 xs2 hc0 hc1)]
  unfold run1_mid nextL; dsimp only; sl_unfold_words; try dsimp only
  rw [View.canon_unit_zero (S := S512x1) zeroFin2]
  simp only [View.readAt_eq_ld, harg2.read_unread, harg3.read_unread, harg4.read_unread, View.ld_unit_zero (S := S1x512x2048) zeroFin3, View.ld_unit_zero (S := S1x1024x2048) zeroFin3, harg6.read_unread, harg7.read_unread, harg8.read_unread, View.ld_unit_zero (S := S512x1) zeroFin2, View.ld_unit_zero (S := S512x2048) zeroFin2]
/-- and the weighted-sum scratch as what it held rescaled plus the tile's exponentials times its values. -/
theorem aread1_mid (hc0 : ¬kFirst1 i) (hc1 : ¬kLast1 i) (f : arg8.view.ty.Contents (Elt F)) :
    arg8.view.read (Elt F) (arg8.view.writes (Elt F) f (run1_mid c i arg2 harg2 arg3 harg3 arg4 harg4 arg5 harg5 arg6 harg6 arg7 harg7 arg8 harg8 hc0 hc1 x0 x1 x2 xs0 xs1 xs2).2.2.1)
      = nextA x0 x1 x2 xs0 xs2 := by
  rw [View.read_writes_eq_canon _ _ _ (acover1_mid c i arg2 harg2 arg3 harg3 arg4 harg4 arg5 harg5 arg6 harg6 arg7 harg7 arg8 harg8 x0 x1 x2 xs0 xs1 xs2 hc0 hc1)]
  unfold run1_mid nextA; dsimp only; sl_unfold_words; try dsimp only
  rw [View.canon_unit_zero (S := S512x2048) zeroFin2]
  simp only [View.readAt_eq_ld, harg2.read_unread, harg3.read_unread, harg4.read_unread, View.ld_unit_zero (S := S1x512x2048) zeroFin3, View.ld_unit_zero (S := S1x1024x2048) zeroFin3, harg6.read_unread, harg7.read_unread, harg8.read_unread, View.ld_unit_zero (S := S512x1) zeroFin2, View.ld_unit_zero (S := S512x2048) zeroFin2]

theorem ocover1_last (hc0 : ¬kFirst1 i) (hc1 : kLast1 i) (y : S512x2048.Idx) :
    ∃ pc ∈ (run1_last c i arg2 harg2 arg3 harg3 arg4 harg4 arg5 harg5 arg6 harg6 arg7 harg7 arg8 harg8 hc0 hc1 x0 x1 x2 xs0 xs1 xs2).1, y ∈ pc.1.set :=
  View.cover_of_tiledL (run1_last c i arg2 harg2 arg3 harg3 arg4 harg4 arg5 harg5 arg6 harg6 arg7 harg7 arg8 harg8 hc0 hc1 x0 x1 x2 xs0 xs1 xs2).1 S512x2048.size (by sl_kernel_rfl) y
theorem mcover1_last (hc0 : ¬kFirst1 i) (hc1 : kLast1 i) (y : S512x1.Idx) :
    ∃ pc ∈ (run1_last c i arg2 harg2 arg3 harg3 arg4 harg4 arg5 harg5 arg6 harg6 arg7 harg7 arg8 harg8 hc0 hc1 x0 x1 x2 xs0 xs1 xs2).2.1, y ∈ pc.1.set :=
  View.cover_of_tiledL (run1_last c i arg2 harg2 arg3 harg3 arg4 harg4 arg5 harg5 arg6 harg6 arg7 harg7 arg8 harg8 hc0 hc1 x0 x1 x2 xs0 xs1 xs2).2.1 S512x1.size (by sl_kernel_rfl) y
theorem lcover1_last (hc0 : ¬kFirst1 i) (hc1 : kLast1 i) (y : S512x1.Idx) :
    ∃ pc ∈ (run1_last c i arg2 harg2 arg3 harg3 arg4 harg4 arg5 harg5 arg6 harg6 arg7 harg7 arg8 harg8 hc0 hc1 x0 x1 x2 xs0 xs1 xs2).2.2.1, y ∈ pc.1.set :=
  View.cover_of_tiledL (run1_last c i arg2 harg2 arg3 harg3 arg4 harg4 arg5 harg5 arg6 harg6 arg7 harg7 arg8 harg8 hc0 hc1 x0 x1 x2 xs0 xs1 xs2).2.2.1 S512x1.size (by sl_kernel_rfl) y
theorem acover1_last (hc0 : ¬kFirst1 i) (hc1 : kLast1 i) (y : S512x2048.Idx) :
    ∃ pc ∈ (run1_last c i arg2 harg2 arg3 harg3 arg4 harg4 arg5 harg5 arg6 harg6 arg7 harg7 arg8 harg8 hc0 hc1 x0 x1 x2 xs0 xs1 xs2).2.2.2.1, y ∈ pc.1.set :=
  View.cover_of_tiledL (run1_last c i arg2 harg2 arg3 harg3 arg4 harg4 arg5 harg5 arg6 harg6 arg7 harg7 arg8 harg8 hc0 hc1 x0 x1 x2 xs0 xs1 xs2).2.2.2.1 S512x2048.size (by sl_kernel_rfl) y

/-- After the last tile the three scratch buffers read as after a middle one, -/
theorem mread1_last (hc0 : ¬kFirst1 i) (hc1 : kLast1 i) (f : arg6.view.ty.Contents (Elt F)) :
    arg6.view.read (Elt F) (arg6.view.writes (Elt F) f (run1_last c i arg2 harg2 arg3 harg3 arg4 harg4 arg5 harg5 arg6 harg6 arg7 harg7 arg8 harg8 hc0 hc1 x0 x1 x2 xs0 xs1 xs2).2.1)
      = nextM x0 x1 xs0 := by
  rw [View.read_writes_eq_canon _ _ _ (mcover1_last c i arg2 harg2 arg3 harg3 arg4 harg4 arg5 harg5 arg6 harg6 arg7 harg7 arg8 harg8 x0 x1 x2 xs0 xs1 xs2 hc0 hc1)]
  unfold run1_last nextM; dsimp only; sl_unfold_words; try dsimp only
  rw [View.canon_unit_zero (S := S512x1) zeroFin2]
  simp only [View.readAt_eq_ld, harg2.read_unread, harg3.read_unread, harg4.read_unread, View.ld_unit_zero (S := S1x512x2048) zeroFin3, View.ld_unit_zero (S := S1x1024x2048) zeroFin3, harg6.read_unread, harg7.read_unread, harg8.read_unread, View.ld_unit_zero (S := S512x1) zeroFin2, View.ld_unit_zero (S := S512x2048) zeroFin2]
/-- (the normaliser) -/
theorem lread1_last (hc0 : ¬kFirst1 i) (hc1 : kLast1 i) (f : arg7.view.ty.Contents (Elt F)) :
    arg7.view.read (Elt F) (arg7.view.writes (Elt F) f (run1_last c i arg2 harg2 arg3 harg3 arg4 harg4 arg5 harg5 arg6 harg6 arg7 harg7 arg8 harg8 hc0 hc1 x0 x1 x2 xs0 xs1 xs2).2.2.1)
      = nextL x0 x1 xs0 xs1 := by
  rw [View.read_writes_eq_canon _ _ _ (lcover1_last c i arg2 harg2 arg3 harg3 arg4 harg4 arg5 harg5 arg6 harg6 arg7 harg7 arg8 harg8 x0 x1 x2 xs0 xs1 xs2 hc0 hc1)]
  unfold run1_last nextL; dsimp only; sl_unfold_words; try dsimp only
  rw [View.canon_unit_zero (S := S512x1) zeroFin2]
  simp only [View.readAt_eq_ld, harg2.read_unread, harg3.read_unread, harg4.read_unread, View.ld_unit_zero (S := S1x512x2048) zeroFin3, View.ld_unit_zero (S := S1x1024x2048) zeroFin3, harg6.read_unread, harg7.read_unread, harg8.read_unread, View.ld_unit_zero (S := S512x1) zeroFin2, View.ld_unit_zero (S := S512x2048) zeroFin2]
/-- (the weighted sum) -/
theorem aread1_last (hc0 : ¬kFirst1 i) (hc1 : kLast1 i) (f : arg8.view.ty.Contents (Elt F)) :
    arg8.view.read (Elt F) (arg8.view.writes (Elt F) f (run1_last c i arg2 harg2 arg3 harg3 arg4 harg4 arg5 harg5 arg6 harg6 arg7 harg7 arg8 harg8 hc0 hc1 x0 x1 x2 xs0 xs1 xs2).2.2.2.1)
      = nextA x0 x1 x2 xs0 xs2 := by
  rw [View.read_writes_eq_canon _ _ _ (acover1_last c i arg2 harg2 arg3 harg3 arg4 harg4 arg5 harg5 arg6 harg6 arg7 harg7 arg8 harg8 x0 x1 x2 xs0 xs1 xs2 hc0 hc1)]
  unfold run1_last nextA; dsimp only; sl_unfold_words; try dsimp only
  rw [View.canon_unit_zero (S := S512x2048) zeroFin2]
  simp only [View.readAt_eq_ld, harg2.read_unread, harg3.read_unread, harg4.read_unread, View.ld_unit_zero (S := S1x512x2048) zeroFin3, View.ld_unit_zero (S := S1x1024x2048) zeroFin3, harg6.read_unread, harg7.read_unread, harg8.read_unread, View.ld_unit_zero (S := S512x1) zeroFin2, View.ld_unit_zero (S := S512x2048) zeroFin2]
/-- and the output block reads as the weighted sum divided by the normaliser. -/
theorem oread1_last (hc0 : ¬kFirst1 i) (hc1 : kLast1 i) (f : arg5.view.ty.Contents (Elt F)) :
    arg5.view.read (Elt F) (arg5.view.writes (Elt F) f (run1_last c i arg2 harg2 arg3 harg3 arg4 harg4 arg5 harg5 arg6 harg6 arg7 harg7 arg8 harg8 hc0 hc1 x0 x1 x2 xs0 xs1 xs2).1)
      = k1_pay3 (nextA x0 x1 x2 xs0 xs2) (nextL x0 x1 xs0 xs1) := by
  rw [View.read_writes_eq_canon _ _ _ (ocover1_last c i arg2 harg2 arg3 harg3 arg4 harg4 arg5 harg5 arg6 harg6 arg7 harg7 arg8 harg8 x0 x1 x2 xs0 xs1 xs2 hc0 hc1)]
  unfold run1_last nextA nextL; dsimp only; sl_unfold_words; try dsimp only
  rw [View.canon_unit_zero (S := S512x2048) zeroFin2]
  simp only [View.readAt_eq_ld, harg2.read_unread, harg3.read_unread, harg4.read_unread, View.ld_unit_zero (S := S1x512x2048) zeroFin3, View.ld_unit_zero (S := S1x1024x2048) zeroFin3, harg6.read_unread, harg7.read_unread, harg8.read_unread, View.ld_unit_zero (S := S512x1) zeroFin2, View.ld_unit_zero (S := S512x2048) zeroFin2, View.readCov_unit_zero (S := S512x1) _ zeroFin2, View.readCov_unit_zero (S := S512x2048) _ zeroFin2]

end Pieces

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

/-- The components of one step of the running state. -/
theorem step1_fst (q : Vec F S1x512x2048 .bf16) (k v : Vec F S1x1024x2048 .bf16) (s : Vec F S512x1 .f32 × Vec F S512x1 .f32 × Vec F S512x2048 .f32) :
    (step1 q k v s).1 = nextM q k s.1 := rfl
theorem step1_snd_fst (q : Vec F S1x512x2048 .bf16) (k v : Vec F S1x1024x2048 .bf16) (s : Vec F S512x1 .f32 × Vec F S512x1 .f32 × Vec F S512x2048 .f32) :
    (step1 q k v s).2.1 = nextL q k s.1 s.2.1 := rfl
theorem step1_snd_snd (q : Vec F S1x512x2048 .bf16) (k v : Vec F S1x1024x2048 .bf16) (s : Vec F S512x1 .f32 × Vec F S512x1 .f32 × Vec F S512x2048 .f32) :
    (step1 q k v s).2.2 = nextA q k v s.1 s.2.2 := rfl
theorem reset1_fst : (reset1 (F := F)).1 = k1_pay4 (F := F) := rfl
theorem reset1_snd_fst : (reset1 (F := F)).2.1 = k1_pay5 (F := F) := rfl
theorem reset1_snd_snd : (reset1 (F := F)).2.2 = k1_pay6 (F := F) := rfl

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  rw [show (dat1 V c).leavesExact 2 t = owns (c : Thread nD τ) (ms1_2 t) fullShare ((dat1 V c).after 2 t) from by
    unfold Dat.leavesExact; rw [live1_2 t], after1_2]
  by_cases h0 : t.val % 4 = 0
  · have hc0 : kFirst1 (grid1.coords t) := (kFirst1_iff t).mpr h0
    have hc1 : ¬kLast1 (grid1.coords t) := fun h => by have := (kLast1_iff t).mp h; omega
    rw [Dat.leavesExact_idle (dat1 V c) 3 t (idle1_3_notLast t hc1) (noFlush1_3_notLast t hc1)]
    rw [st1_first V c t h0]
    simp only [step1_fst, step1_snd_fst, step1_snd_snd, reset1_fst, reset1_snd_fst, reset1_snd_snd]
    by_cases hz : t.val = 0
    · rw [PhiS1_castSucc V c t, PhiS1_zero V c _ _ hz, PhiA1_eq]
      iintro ⟨⟨⟨Hoth, HS0, HS1, HS2⟩, Hg⟩, Ho, ⟨%d0, H0⟩, ⟨%d1, H1⟩, ⟨%d2, H2⟩, ⟨%d3, H3⟩⟩
      iapply ((run1_first c (grid1.coords t) _ _ _ _ _ _ _ _ _ _ _ _ _ _ hc0 hc1 (qblk1 V c t) (kblk1 V c t) (vblk1 V c t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%fs0, HS0⟩, ⟨%fs1, HS1⟩, ⟨%fs2, HS2⟩⟩
      isplitl [HS0 HS1 HS2 Hoth Hg]
      · isplitl [HS0 HS1 HS2 Hoth]
        · isplitl [Hoth]; · iexact Hoth
          isplitl [HS0]
          · unfold owns; iexists _; isplitr
            swap; · iexact HS0
            ipureintro; exact mread1_first c _ _ _ _ _ _ _ _ _ _ _ _ _ _ _ _ _ _ hc0 hc1 _
          isplitl [HS1]
          · unfold owns; iexists _; isplitr
            swap; · iexact HS1
            ipureintro; exact lread1_first c _ _ _ _ _ _ _ _ _ _ _ _ _ _ _ _ _ _ hc0 hc1 _
          unfold owns; iexists _; isplitr
          swap; · iexact HS2
          ipureintro; exact aread1_first c _ _ _ _ _ _ _ _ _ _ _ _ _ _ _ _ _ _ hc0 hc1 _
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨Hoth, HS0, HS1, HS2⟩, Hg⟩, Ho, ⟨%d0, H0⟩, ⟨%d1, H1⟩, ⟨%d2, H2⟩, ⟨%d3, H3⟩⟩
      iapply ((run1_first c (grid1.coords t) _ _ _ _ _ _ _ _ _ _ _ _ _ _ hc0 hc1 (qblk1 V c t) (kblk1 V c t) (vblk1 V c t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%fs0, HS0⟩, ⟨%fs1, HS1⟩, ⟨%fs2, HS2⟩⟩
      isplitl [HS0 HS1 HS2 Hoth Hg]
      · isplitl [HS0 HS1 HS2 Hoth]
        · isplitl [Hoth]; · iexact Hoth
          isplitl [HS0]
          · unfold owns; iexists _; isplitr
            swap; · iexact HS0
            ipureintro; exact mread1_first c _ _ _ _ _ _ _ _ _ _ _ _ _ _ _ _ _ _ hc0 hc1 _
          isplitl [HS1]
          · unfold owns; iexists _; isplitr
            swap; · iexact HS1
            ipureintro; exact lread1_first c _ _ _ _ _ _ _ _ _ _ _ _ _ _ _ _ _ _ hc0 hc1 _
          unfold owns; iexists _; isplitr
          swap; · iexact HS2
          ipureintro; exact aread1_first c _ _ _ _ _ _ _ _ _ _ _ _ _ _ _ _ _ _ hc0 hc1 _
        iexact Hg
      isplitl [Ho]; · iexact Ho
      isplitl [H0]; · iexact H0
      isplitl [H1]; · iexact H1
      isplitl [H2]; · iexact H2
      iexists _; iexact H3
  · have hc0 : ¬kFirst1 (grid1.coords t) := fun h => h0 ((kFirst1_iff t).mp h)
    have hz : t.val ≠ 0 := fun h => h0 (by rw [h])
    by_cases h3 : t.val % 4 = 3
    · have hc1 : kLast1 (grid1.coords t) := (kLast1_iff t).mpr h3
      rw [show (dat1 V c).leavesExact 3 t = owns (c : Thread nD τ) (ms1_3 t) fullShare ((dat1 V c).after 3 t) from by
        unfold Dat.leavesExact; rw [live1_3_last t hc1], after1_3]
      unfold outBlk1
      rw [st1_next V c t h0]
      simp only [step1_fst, step1_snd_fst, step1_snd_snd]
      rw [PhiS1_castSucc V c t, PhiS1_pos V c _ _ hz]
      iintro ⟨⟨⟨Hoth, HS0, HS1, HS2⟩, Hg⟩, Ho, ⟨%d0, H0⟩, ⟨%d1, H1⟩, ⟨%d2, H2⟩, ⟨%d3, H3⟩⟩
      iapply ((run1_last c (grid1.coords t) _ _ _ _ _ _ _ _ _ _ _ _ _ _ hc0 hc1 (qblk1 V c t) (kblk1 V c t) (vblk1 V c t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%f3, H3⟩, ⟨%fs0, HS0⟩, ⟨%fs1, HS1⟩, ⟨%fs2, HS2⟩⟩
      isplitl [HS0 HS1 HS2 Hoth Hg]
      · isplitl [HS0 HS1 HS2 Hoth]
        · isplitl [Hoth]; · iexact Hoth
          isplitl [HS0]
          · unfold owns; iexists _; isplitr
            swap; · iexact HS0
            ipureintro; exact mread1_last c _ _ _ _ _ _ _ _ _ _ _ _ _ _ _ _ _ _ _ _ _ hc0 hc1 _
          isplitl [HS1]
          · unfold owns; iexists _; isplitr
            swap; · iexact HS1
            ipureintro; exact lread1_last c _ _ _ _ _ _ _ _ _ _ _ _ _ _ _ _ _ _ _ _ _ hc0 hc1 _
          unfold owns; iexists _; isplitr
          swap; · iexact HS2
          ipureintro; exact aread1_last c _ _ _ _ _ _ _ _ _ _ _ _ _ _ _ _ _ _ _ _ _ hc0 hc1 _
        iexact Hg
      isplitl [Ho]; · iexact Ho
      isplitl [H0]; · iexact H0
      isplitl [H1]; · iexact H1
      isplitl [H2]; · iexact H2
      unfold owns; iexists _; isplitr
      swap; · iexact H3
      ipureintro; exact oread1_last c _ _ _ _ _ _ _ _ _ _ _ _ _ _ _ _ _ _ _ _ _ hc0 hc1 _
    · have hc1 : ¬kLast1 (grid1.coords t) := fun h => h3 ((kLast1_iff t).mp h)
      rw [Dat.leavesExact_idle (dat1 V c) 3 t (idle1_3_notLast t hc1) (noFlush1_3_notLast t hc1)]
      rw [st1_next V c t h0]
      simp only [step1_fst, step1_snd_fst, step1_snd_snd]
      rw [PhiS1_castSucc V c t, PhiS1_pos V c _ _ hz]
      iintro ⟨⟨⟨Hoth, HS0, HS1, HS2⟩, Hg⟩, Ho, ⟨%d0, H0⟩, ⟨%d1, H1⟩, ⟨%d2, H2⟩, ⟨%d3, H3⟩⟩
      iapply ((run1_mid c (grid1.coords t) _ _ _ _ _ _ _ _ _ _ _ _ _ _ hc0 hc1 (qblk1 V c t) (kblk1 V c t) (vblk1 V c t) _ _ _).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%fs0, HS0⟩, ⟨%fs1, HS1⟩, ⟨%fs2, HS2⟩⟩
      isplitl [HS0 HS1 HS2 Hoth Hg]
      · isplitl [HS0 HS1 HS2 Hoth]
        · isplitl [Hoth]; · iexact Hoth
          isplitl [HS0]
          · unfold owns; iexists _; isplitr
            swap; · iexact HS0
            ipureintro; exact mread1_mid c _ _ _ _ _ _ _ _ _ _ _ _ _ _ _ _ _ _ _ _ _ hc0 hc1 _
          isplitl [HS1]
          · unfold owns; iexists _; isplitr
            swap; · iexact HS1
            ipureintro; exact lread1_mid c _ _ _ _ _ _ _ _ _ _ _ _ _ _ _ _ _ _ _ _ _ hc0 hc1 _
          unfold owns; iexists _; isplitr
          swap; · iexact HS2
          ipureintro; exact aread1_mid c _ _ _ _ _ _ _ _ _ _ _ _ _ _ _ _ _ _ _ _ _ hc0 hc1 _
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is handed is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back: the running state is forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 32 := N_1; omega), PhiA1_eq]
  iintro ⟨⟨Hoth, HS0, HS1, HS2⟩, Hg⟩
  isplitl [Hoth HS0 HS1 HS2]
  · isplitl [Hoth]; · iexact Hoth
    isplitl [HS0]; · iexists _; iexact HS0
    isplitl [HS1]; · iexists _; iexact HS1
    iexists _; iexact HS2
  iexact Hg

end Cert.KernelIdeal.Hand

end
-- ==== Proof.R1Shares.lean ====
/-
  The stacked projections' share, dealt and rejoined. The attention kernel's three input windows read one array and
  its output window another, so the distinct buffers behind the windows are two, each held whole at the full share.
  A full share is its left half together with the left and right halves of its right half: at the region's entry
  the first array's full share is dealt so among the three windows on it, and at the exit, where an input's array is
  what it was, the three parts are joined again; the output's array is one window's, at the full share throughout.
-/
import proofs.«409648_j16458314678750_3_alg».proof.Proof.R1Defs
import Idealize.ShloMosaic.Lib.Pipeline.Launch
import Idealize.ShloMosaic.Lib.Pipeline.Cells
import Idealize.ShloMosaic.Rules.PointsTo
import Idealize.SL.RA.TreeShare

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the four windows are two. -/
theorem img1 : (Finset.univ.image (Pipeline.arrRef spec1) : Finset (Ref sig .tc)) = {main_v6, main_v7} := by decide

/-- So what the launch hands the pipeline is two whole buffers at the full share. -/
theorem arrBufs1_eq (c : Dev nD) (V' : (b : Ref sig .tc) → Buf (Elt F) ((c : Thread nD τ).loc b)) :
    (Pipeline.arrBufs spec1 c V' : sProp 𝕄)
      = iprop((((c : Thread nD τ).loc main_v6) ↦{fullShare} V' main_v6) ∗ (((c : Thread nD τ).loc main_v7) ↦{fullShare} V' main_v7)) := by
  unfold Pipeline.arrBufs
  rw [img1, bigSep_insert (by decide), bigSep_singleton]
  rfl

theorem share1_0 (c : Dev nD) : (dat1 V c).share 0 = fullShare.left := by unfold Dat.share; rfl
theorem share1_1 (c : Dev nD) : (dat1 V c).share 1 = fullShare.right.left := by unfold Dat.share; rfl
theorem share1_2 (c : Dev nD) : (dat1 V c).share 2 = fullShare.right.right := by unfold Dat.share; rfl
theorem share1_3 (c : Dev nD) : (dat1 V c).share 3 = fullShare := by unfold Dat.share; rfl

/-- The pipeline's arrays, window by window: three parts of the first buffer and the whole of the second. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v6) ↦{fullShare.left} (G 0 : Buf (Elt F) ((c : Thread nD τ).loc main_v6)))
          ∗ (((c : Thread nD τ).loc main_v6) ↦{fullShare.right.left} (G 1 : Buf (Elt F) ((c : Thread nD τ).loc main_v6)))
          ∗ (((c : Thread nD τ).loc main_v6) ↦{fullShare.right.right} (G 2 : Buf (Elt F) ((c : Thread nD τ).loc main_v6)))
          ∗ (((c : Thread nD τ).loc main_v7) ↦{fullShare} (G 3 : Buf (Elt F) ((c : Thread nD τ).loc main_v7)))) := by
  unfold Dat.arrays
  rw [bigSep_W1, share1_0, share1_1, share1_2, share1_3, (arr_whole1 0).set_eq_univ, (arr_whole1 3).set_eq_univ]

/-- A whole share is its left half and the two halves of its right half. -/
theorem pointsTo_deal3 (ℓ : Loc nD τ sig) (f : Buf (Elt F) ℓ) :
    (ℓ ↦{fullShare} f : sProp 𝕄) ⊣⊢ iprop((ℓ ↦{fullShare.left} f) ∗ (ℓ ↦{fullShare.right.left} f) ∗ (ℓ ↦{fullShare.right.right} f)) := by
  constructor
  · iintro H
    ihave H' := (pointsTo_share (PosShare.mem_left_op_right fullShare)).1 $$ H
    icases H' with ⟨Hl, Hr⟩
    ihave Hr' := (pointsTo_share (PosShare.mem_left_op_right fullShare.right)).1 $$ Hr
    icases Hr' with ⟨Hrl, Hrr⟩
    isplitl [Hl]; · iexact Hl
    isplitl [Hrl]; · iexact Hrl
    iexact Hrr
  · iintro ⟨Hl, Hrl, Hrr⟩
    iapply (pointsTo_share (PosShare.mem_left_op_right fullShare)).2
    isplitl [Hl]; · iexact Hl
    iapply (pointsTo_share (PosShare.mem_left_op_right fullShare.right)).2
    isplitl [Hrl]; · iexact Hrl
    iexact Hrr

/-- At the region's entry the first buffer's full share is dealt among the three windows that read it. -/
theorem arrays_in1 (c : Dev nD) : (Pipeline.arrBufs spec1 c (V c) : sProp 𝕄) ⊢ (dat1 V c).arrays ((dat1 V c).arrAt · 0) := by
  rw [arrBufs1_eq, arrays1_eq]
  show iprop((((c : Thread nD τ).loc main_v6) ↦{fullShare} V c main_v6) ∗ (((c : Thread nD τ).loc main_v7) ↦{fullShare} V c main_v7))
    ⊢ iprop((((c : Thread nD τ).loc main_v6) ↦{fullShare.left} V c main_v6) ∗ (((c : Thread nD τ).loc main_v6) ↦{fullShare.right.left} V c main_v6)
        ∗ (((c : Thread nD τ).loc main_v6) ↦{fullShare.right.right} V c main_v6) ∗ (((c : Thread nD τ).loc main_v7) ↦{fullShare} V c main_v7))
  iintro ⟨H6, H7⟩
  ihave H6' := (pointsTo_deal3 _ _).1 $$ H6
  icases H6' with ⟨Hl, Hrl, Hrr⟩
  isplitl [Hl]; · iexact Hl
  isplitl [Hrl]; · iexact Hrl
  isplitl [Hrr]; · iexact Hrr
  iexact H7

/-- At the exit the inputs' array is what it was, so its three parts join to the full share again. -/
theorem arrays_out1 (c : Dev nD) (V' : (b : Ref sig .tc) → Buf (Elt F) ((c : Thread nD τ).loc b)) (h6 : V' main_v6 = V c main_v6)
    (h7 : V' main_v7 = (dat1 V c).arrAt 3 cfg1.N) :
    (dat1 V c).arrays ((dat1 V c).arrAt · cfg1.N) ⊢ (Pipeline.arrBufs spec1 c V' : sProp 𝕄) := by
  rw [arrBufs1_eq, arrays1_eq, h6, h7]
  have e0 : (dat1 V c).arrAt 0 cfg1.N = V c main_v6 := Dat.arrAt_in (dat := dat1 V c) 0 rfl cfg1.N
  have e1 : (dat1 V c).arrAt 1 cfg1.N = V c main_v6 := Dat.arrAt_in (dat := dat1 V c) 1 rfl cfg1.N
  have e2 : (dat1 V c).arrAt 2 cfg1.N = V c main_v6 := Dat.arrAt_in (dat := dat1 V c) 2 rfl cfg1.N
  show iprop((((c : Thread nD τ).loc main_v6) ↦{fullShare.left} (dat1 V c).arrAt 0 cfg1.N) ∗ (((c : Thread nD τ).loc main_v6) ↦{fullShare.right.left} (dat1 V c).arrAt 1 cfg1.N)
        ∗ (((c : Thread nD τ).loc main_v6) ↦{fullShare.right.right} (dat1 V c).arrAt 2 cfg1.N) ∗ (((c : Thread nD τ).loc main_v7) ↦{fullShare} (dat1 V c).arrAt 3 cfg1.N))
    ⊢ iprop((((c : Thread nD τ).loc main_v6) ↦{fullShare} V c main_v6) ∗ (((c : Thread nD τ).loc main_v7) ↦{fullShare} (dat1 V c).arrAt 3 cfg1.N))
  rw [e0, e1, e2]
  iintro ⟨Hl, Hrl, Hrr, H7⟩
  isplitr [H7]
  · iapply (pointsTo_deal3 _ _).2
    isplitl [Hl]; · iexact Hl
    isplitl [Hrl]; · iexact Hrl
    iexact Hrr
  · iexact H7

end Cert.KernelIdeal.Hand

end
-- ==== Proof.FrameR1.lean ====
/-
  The second region (the attention kernel) as a segment of @main. Its three input windows read one array, the stacked
  projections, and its output window writes another. Entry: of the unscoped buffers, the two buffers behind the
  region's arrays are dealt to the four windows — the stacked projections' full share in three parts —, the rest
  bypasses the region. Exit: the three parts are joined again (an input's array is never written), the output holds
  what the write-backs left, and with the rest they are again every unscoped buffer, the output replaced.
-/
import proofs.«409648_j16458314678750_3_alg».proof.Proof.FrameBase
import proofs.«409648_j16458314678750_3_alg».proof.Proof.R1Body
import proofs.«409648_j16458314678750_3_alg».proof.Proof.R1Shares

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The buffers after the second region, read at a TensorCore reference. -/
abbrev VR2 (c : Dev nD) (b : Ref sig .tc) : Buf (Elt F) ((c : Thread nD τ).loc b) := Gen.V3 m (outs m) c b

theorem VR2_v6 (c : Dev nD) : VR2 m c main_v6 = VR1 m c main_v6 := by
  show Gen.V3 m (outs m) c main_v6 = WR1 m c main_v6
  rw [Gen.V3_of m (outs m) c main_v6 (by decide), V2_eq]

theorem VR2_v7 (c : Dev nD) : VR2 m c main_v7 = (dat1 (VR1 m) c).arrAt 3 cfg1.N := by
  show Function.update (Gen.V2 m (outs m) c) (Proc.devRef .tc main_v7) (outs m 3 main_v7 c) (Proc.devRef .tc main_v7) = outArr m c
  rw [Function.update_self, outs_v7]

/-- Off the region's two arrays the buffers before and after the region agree. -/
theorem rest1_congr (c : Dev nD) :
    (Pipeline.unscopedRest (Ix := Unit) (Name := ℕ) (U := UR sig nD τ) (Lvl := ℕ) spec1 c (VR1 m c) : sProp 𝕄)
      = Pipeline.unscopedRest spec1 c (VR2 m c) := by
  unfold Pipeline.unscopedRest
  refine bigSep_congr fun b hb => ?_
  have hb' : b ∉ Finset.univ.image (Pipeline.arrRef spec1) := (Finset.mem_sdiff.mp hb).2
  have h7 : b ∉ ([main_v7] : List (Ref sig .tc)) := by
    intro h
    rw [List.mem_singleton] at h
    exact hb' (Finset.mem_image.mpr ⟨3, Finset.mem_univ _, h.symm⟩)
  have e : VR1 m c b = VR2 m c b := by
    show WR1 m c b = Gen.V3 m (outs m) c b
    rw [Gen.V3_of m (outs m) c b h7, V2_eq]
  rw [e]

set_option backward.isDefEq.respectTransparency.types false in
def reg1 : Pipeline.RegionSeg (pcfgs (F := F)) Gen.adm (pdats m) () defs₀ Variants.none L0 lv0 1 where
  win := winFacts₀1
  block_pos := block_pos1
  stage_whole := stage_whole1
  K := PEmpty
  osem k := k.elim
  ho := Pipeline.OwnSemFacts.none _
  hbody c := (body_obligation1 (VR1 m) c).loose
  hwaits := Pipeline.hwaits_of_owed_zero _ _ _ _ L0 lv0 1 fun _ _ => rfl
  pre c := iprop(StableHlo.held (c : Thread nD τ) (Pipeline.ucRefs τ sig) (Gen.V2 m (outs m) c) ∗ Rst c)
  post c := iprop(StableHlo.held (c : Thread nD τ) (Pipeline.ucRefs τ sig) (Gen.V3 m (outs m) c) ∗ Rst c)
  X c := iprop(∃ r, prngReg c r)
  Y c := iprop(∃ r, prngReg c r)
  Z c := Pipeline.unscopedRest (Ix := Unit) (Name := ℕ) (U := UR sig nD τ) (Lvl := ℕ) spec1 c (VR1 m c)
  hentry c := by
    rw [Pipeline.ownSems0_none, V2_eq m c, ← Pipeline.unscopedBufs_held (Ix := Unit) (Name := ℕ) (U := UR sig nD τ) (Lvl := ℕ) c (WR1 m c),
      Pipeline.unscopedBufs_split₀ cfgs (1 : Fin 2) winFacts₀1.arr_unscoped c (VR1 m c)]
    iintro ⟨⟨⟨Harr, Hrest⟩, Hp, HO⟩, -, -⟩
    imodintro
    isplitl [Harr]; · iapply (arrays_in1 (VR1 m) c); iexact Harr
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    have h : (Pipeline.ΦA spec1 c : sProp 𝕄) ⊢ iprop((∃ r, prngReg c r) ∗ BI.emp ∗ Pipeline.scopedRest (Ix := Unit) (Name := ℕ) (U := UR sig nD τ) (Lvl := ℕ) (Val := Elt F) spec1 c) := by
      unfold Pipeline.ΦA
      iintro ⟨Hr, Hp⟩
      isplitl [Hp]; · iexact Hp
      isplitr; · iempintro
      iexact Hr
    exact (hout1 (VR1 m) c).trans h
  hexit c := by
    rw [← Pipeline.unscopedBufs_held (Ix := Unit) (Name := ℕ) (U := UR sig nD τ) (Lvl := ℕ) c (Gen.V3 m (outs m) c),
      Pipeline.unscopedBufs_split₀ cfgs (1 : Fin 2) winFacts₀1.arr_unscoped c (VR2 m c), rest1_congr m c]
    iintro ⟨Ha, HO, HY, Hrest⟩
    imodintro
    isplitl [Ha Hrest]
    · isplitl [Ha]
      · iapply (arrays_out1 (VR1 m) c (VR2 m c) (VR2_v6 m c) (VR2_v7 m c)); iexact Ha
      iexact Hrest
    isplitl [HY]; · iexact HY
    unfold Pipeline.Dat.owesAt Pipeline.owesWithin
    icases HO with ⟨%W, -, HO⟩; iexists W; iexact HO

end Cert.KernelIdeal.Hand

end
-- ==== Proof.FrameMain.lean ====
/-
  The run of the kernel program: @main as its three segments (the host stretch, the two regions), launched from any
  memory with zero counters. Every weakly fair execution terminates, and every final memory holds each unscoped buffer
  at the last boundary's contents: the arguments as launched (no item writes one), the output at what the second
  region's write-backs leave. The frame claim and the run with the result named are read off that one run.
-/
import proofs.«409648_j16458314678750_3_alg».proof.Proof.FrameR0
import proofs.«409648_j16458314678750_3_alg».proof.Proof.FrameR1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.Pipeline (Seg)

variable (m : (ℓ : Loc nD τ sig) → Buf (Elt F) ℓ) (ρ : Dev nD → PrngReg)

/-- @main's segments. -/
abbrev segsOf (c : Dev nD) : List (Seg (pcfgs (F := F)) Gen.adm (pdats m) () defs₀ Variants.none L0 lv0) :=
  Gen.segs m Variants.none L0 lv0 (fun _ c => Rst c) () (pdats m) (reg0 m) (reg1 m) c

-- the launch theorem's implicit arguments are found by unifying its conclusion with this one
set_option backward.isDefEq.respectTransparency.types false in
/-- THE RUN, every unscoped buffer read at the end. -/
theorem run_all : θ_run defs (onTc (τ := τ) (main (F := F))) ⟨m, fun _ => 0, ρ⟩ (fun r => ∀ c : Dev nD,
    ∀ b ∈ Pipeline.ucRefs τ sig, r.2.mem (((c : Thread nD τ)).1, b) = Gen.V3 m (outs m) c b) := by
  refine Pipeline.θ_run_regions_kit_dev (pcfgs (F := F)) Gen.adm (pdats m) () cellOf_inj emb₁ defs₀ Variants.none L0 lv0 m ρ main
    (segsOf m)
    (fun c Q => by
      rewrite [main_chain c, Seg.run_eq_chain,
        show (segsOf m c).map Seg.prog = [
          StableHlo.seq hostOps0,
          Prog.lift (.customCall (Pipeline.entry 0) ()),
          Prog.lift (.customCall (Pipeline.entry 1) ()) ] from rfl]
      exact .rfl)
    (fun c => by simp only [segsOf, Gen.segs, Seg.pipes_host, Seg.pipes_region, Seg.pipes_nil]; decide) 0 (fun _ _ => rfl)
    (fun _ => iprop(emp)) (initOf (Pipeline.cells cfgs cellOf_inj) (Pipeline.launchToks cfgs cellOf_inj)) ?hu
    (T₀ := fun c => iprop(StableHlo.held (c : Thread nD τ) (Pipeline.ucRefs τ sig) (Gen.V0 m c) ∗ Rst c))
    (Tₙ := fun c => iprop(StableHlo.held (c : Thread nD τ) (Pipeline.ucRefs τ sig) (Gen.V3 m (outs m) c) ∗ ∃ r, prngReg c r))
    (hch := fun c => ⟨.rfl, .rfl, .rfl, ?hlast⟩)
    (hinit := ?hinit) (QY := fun c s => ∀ b ∈ Pipeline.ucRefs τ sig, s.mem (((c : Thread nD τ)).1, b) = Gen.V3 m (outs m) c b)
    (hfin := fun c s' => ?hfin) (hQ := fun _ h => h)
  case hu =>
    iintro Hu
    imodintro
    isplitl [Hu]; · rw [← ownU_emb₁]; iexact Hu
    iapply (show (BI.emp : sProp 𝕄) ⊢ bigSep Finset.univ (fun _ : Dev nD => (BI.emp : sProp 𝕄)) from by rw [BI.bigSep_emp_const])
    iempintro
  case hlast =>
    show iprop(StableHlo.held (c : Thread nD τ) (Pipeline.ucRefs τ sig) (Gen.V3 m (outs m) c) ∗ Rst c)
      ⊢ iprop(iprop(StableHlo.held (c : Thread nD τ) (Pipeline.ucRefs τ sig) (Gen.V3 m (outs m) c) ∗ ∃ r, prngReg c r)
          ∗ ∃ W, owes (c : Thread nD τ) (0 : CellTallies nD τ sig Unit) W)
    iintro ⟨Hh, Hp, HO⟩
    isplitr [HO]
    · isplitl [Hh]; · iexact Hh
      iexact Hp
    · iexact HO
  case hinit =>
    refine Pipeline.initEach L0 lv0 fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  case hfin =>
    iintro ⟨⟨Hh, -⟩, HSI⟩
    unfold StableHlo.held
    imodintro
    iapply (pointsTo_read_all (Pipeline.ucRefs τ sig) (fun b => (((c : Thread nD τ)).1, b)) (Gen.V3 m (outs m) c) s')
    isplitl [Hh] <;> iassumption

/-- An unscoped TensorCore reference is among those read at the end. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: the program runs and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (Gen.V3_main_arg0 m (outs m) c),
     (h c _ (mem_uc main_arg1 (by decide))).trans (Gen.V3_main_arg1 m (outs m) c),
     (h c _ (mem_uc main_arg2 (by decide))).trans (Gen.V3_main_arg2 m (outs m) c),
     (h c _ (mem_uc main_arg3 (by decide))).trans (Gen.V3_main_arg3 m (outs m) c)⟩) (run_all m ρ)

/-- THE RUN WITH THE RESULT NAMED: the output ends at what the second region's write-backs leave, the arguments as
    launched. -/
theorem run_value : θ_run defs (onTc (τ := τ) (main (F := F))) ⟨m, fun _ => 0, ρ⟩ (fun r => ∀ c : Dev nD,
      r.2.mem ((c.tc : Thread nD τ).loc main_v7) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v7 (by decide))).trans (VR2_v7 m c),
     (h c _ (mem_uc main_arg0 (by decide))).trans (Gen.V3_main_arg0 m (outs m) c),
     (h c _ (mem_uc main_arg1 (by decide))).trans (Gen.V3_main_arg1 m (outs m) c),
     (h c _ (mem_uc main_arg2 (by decide))).trans (Gen.V3_main_arg2 m (outs m) c),
     (h c _ (mem_uc main_arg3 (by decide))).trans (Gen.V3_main_arg3 m (outs m) c)⟩) (run_all m ρ)

end Cert.KernelIdeal.Hand

end
-- ==== Proof.HostPrefix.lean ====
/-
  What the host operations ahead of the first kernel region leave in the two arrays that region reads.

  The activations x : 4096 × 2048 are converted to the narrower float type, which at the ideal instance is the
  identity: the converted array holds x entry for entry. Each of the three weights 2048 × 2048 is broadcast to a
  leading unit axis, the three are laid end to end along that axis into one array 3 × 2048 × 2048, and that array is
  converted likewise: its slice p holds the p-th weight entry for entry (p = 0, 1, 2).
-/
import proofs.«409648_j16458314678750_3_alg».proof.Proof.Gen.KernelIdeal.Regions
import Idealize.ShloMosaic.Lib.StableHlo.Run
import Idealize.ShloMosaic.Lib.ValueIdx
import Idealize.ShloMosaic.Lib.Pipeline.Value

set_option maxRecDepth 16384

noncomputable section

namespace Cert.KernelIdeal.Val

open Cert.KernelIdeal Cert.KernelIdeal.Gen Idealize.ShloMosaic Idealize.ShloMosaic.ValueIdx Idealize.ShloMosaic.TcCoe

variable [Cert.KernelIdeal.Facts]
variable (m : (ℓ : Loc nD τ sig) → Buf (Elt Ideal) ℓ) (c : Dev nD)

/-! ## The stack of the three weights, read at an index -/

/-- The three weights, each broadcast to a leading unit axis, laid end to end along that axis. -/
abbrev stack (w1 w2 w3 : S2048x2048.Idx → EReal) : S3x2048x2048.Idx → EReal :=
  concatenate S3x2048x2048 0
    [⟨S1x2048x2048, broadcastInDim S1x2048x2048 ![1, 2] bcast_S2048x2048_S1x2048x2048_1_2 w1⟩,
     ⟨S1x2048x2048, broadcastInDim S1x2048x2048 ![1, 2] bcast_S2048x2048_S1x2048x2048_1_2 w2⟩,
     ⟨S1x2048x2048, broadcastInDim S1x2048x2048 ![1, 2] bcast_S2048x2048_S1x2048x2048_1_2 w3⟩]
    concatenates_S1x2048x2048_S1x2048x2048_S1x2048x2048_S3x2048x2048_d0

/-- A weight broadcast to a leading unit axis, read at (0, k, d), is the weight at (k, d): neither axis of the weight
    has extent one, so each of its coordinates is the result's coordinate on the axis it is sent to. -/
theorem lead_apply (w : S2048x2048.Idx → EReal) (k d : Fin 2048) :
    broadcastInDim S1x2048x2048 ![1, 2] bcast_S2048x2048_S1x2048x2048_1_2 w (ix3 (0 : Fin 1) k d) = w (ix2 k d) :=
  broadcastInDim_apply _ _ w (ix3 (0 : Fin 1) k d) (ix2 k d) (fun a => match a with | ⟨0, _⟩ => rfl | ⟨1, _⟩ => rfl)

/-- Slice 0 of the stack is the first weight: every piece has extent one along the leading axis, so piece 0 spans
    exactly the leading coordinate 0, where it is read at its own leading coordinate 0. -/
theorem stack_apply_0 (w1 w2 w3 : S2048x2048.Idx → EReal) (k d : Fin 2048) :
    stack w1 w2 w3 (ix3 (0 : Fin 3) k d) = w1 (ix2 k d) := by
  refine (concatenate_apply_piece (0 : Fin S3x2048x2048.rank) _ _ (ix3 (0 : Fin 3) k d) 0 (by show (0 : Nat) < 3; decide)
    S1x2048x2048 _ rfl rfl 0 rfl (ix3 (0 : Fin 1) k d)
    (fun b hb => match b, hb with | ⟨0, _⟩, hb => absurd rfl hb | ⟨1, _⟩, _ => rfl | ⟨2, _⟩, _ => rfl) rfl).trans ?_
  exact lead_apply w1 k d

/-- Slice 1 of the stack is the second weight: every piece has extent one along the leading axis, so piece 1 spans
    exactly the leading coordinate 1, where it is read at its own leading coordinate 0. -/
theorem stack_apply_1 (w1 w2 w3 : S2048x2048.Idx → EReal) (k d : Fin 2048) :
    stack w1 w2 w3 (ix3 (1 : Fin 3) k d) = w2 (ix2 k d) := by
  refine (concatenate_apply_piece (0 : Fin S3x2048x2048.rank) _ _ (ix3 (1 : Fin 3) k d) 1 (by show (1 : Nat) < 3; decide)
    S1x2048x2048 _ rfl rfl 1 rfl (ix3 (0 : Fin 1) k d)
    (fun b hb => match b, hb with | ⟨0, _⟩, hb => absurd rfl hb | ⟨1, _⟩, _ => rfl | ⟨2, _⟩, _ => rfl) rfl).trans ?_
  exact lead_apply w2 k d

/-- Slice 2 of the stack is the third weight: every piece has extent one along the leading axis, so piece 2 spans
    exactly the leading coordinate 2, where it is read at its own leading coordinate 0. -/
theorem stack_apply_2 (w1 w2 w3 : S2048x2048.Idx → EReal) (k d : Fin 2048) :
    stack w1 w2 w3 (ix3 (2 : Fin 3) k d) = w3 (ix2 k d) := by
  refine (concatenate_apply_piece (0 : Fin S3x2048x2048.rank) _ _ (ix3 (2 : Fin 3) k d) 2 (by show (2 : Nat) < 3; decide)
    S1x2048x2048 _ rfl rfl 2 rfl (ix3 (0 : Fin 1) k d)
    (fun b hb => match b, hb with | ⟨0, _⟩, hb => absurd rfl hb | ⟨1, _⟩, _ => rfl | ⟨2, _⟩, _ => rfl) rfl).trans ?_
  exact lead_apply w3 k d

/-! ## The two arrays as terms over the launch contents -/

/-- The converted activations: the conversion applied to the launch contents of the activations. -/
theorem v5_eq : (Gen.V1 m c main_v5 : S4096x2048.Idx → EReal)
    = (truncf (F := Ideal) .bf16 (m ((c.tc : Thread nD τ).loc main_arg0) : FVec Ideal S4096x2048 .f32) bitsLt_bf16_f32 : FVec Ideal S4096x2048 .bf16) := by
  dsimp only [Gen.V1, Gen.hostOps0]
  after_results

/-- The converted stack: the conversion applied to the stack of the launch contents of the three weights. -/
theorem v4_eq : (Gen.V1 m c main_v4 : S3x2048x2048.Idx → EReal)
    = (truncf (F := Ideal) .bf16
        (stack (m ((c.tc : Thread nD τ).loc main_arg1)) (m ((c.tc : Thread nD τ).loc main_arg2)) (m ((c.tc : Thread nD τ).loc main_arg3)) : FVec Ideal S3x2048x2048 .f32)
        bitsLt_bf16_f32 : FVec Ideal S3x2048x2048 .bf16) := by
  dsimp only [Gen.V1, Gen.hostOps0]
  after_results
  rfl

/-! ## The two arrays entry by entry -/

/-- The converted activations hold the activations entry for entry. -/
theorem v5_apply (n : Fin 4096) (k : Fin 2048) :
    Gen.V1 m c main_v5 (ix2 n k) = m ((c.tc : Thread nD τ).loc main_arg0) (ix2 n k) :=
  (congrFun (v5_eq m c) (ix2 n k)).trans (truncf_apply _ _ _)

/-- Slice 0 of the converted stack holds the first weight entry for entry. -/
theorem v4_apply_0 (k d : Fin 2048) :
    Gen.V1 m c main_v4 (ix3 0 k d) = m ((c.tc : Thread nD τ).loc main_arg1) (ix2 k d) :=
  ((congrFun (v4_eq m c) (ix3 0 k d)).trans (truncf_apply _ _ _)).trans (stack_apply_0 _ _ _ k d)

/-- Slice 1 of the converted stack holds the second weight entry for entry. -/
theorem v4_apply_1 (k d : Fin 2048) :
    Gen.V1 m c main_v4 (ix3 1 k d) = m ((c.tc : Thread nD τ).loc main_arg2) (ix2 k d) :=
  ((congrFun (v4_eq m c) (ix3 1 k d)).trans (truncf_apply _ _ _)).trans (stack_apply_1 _ _ _ k d)

/-- Slice 2 of the converted stack holds the third weight entry for entry. -/
theorem v4_apply_2 (k d : Fin 2048) :
    Gen.V1 m c main_v4 (ix3 2 k d) = m ((c.tc : Thread nD τ).loc main_arg3) (ix2 k d) :=
  ((congrFun (v4_eq m c) (ix3 2 k d)).trans (truncf_apply _ _ _)).trans (stack_apply_2 _ _ _ k d)

end Cert.KernelIdeal.Val

end
-- ==== Proof.Spec.lean ====
/-
  The mathematics of the certificate, over real matrices and free of any program.

  With x : 4096 × 2048 and three weights 2048 × 2048, both programs compute
      q = x·Wq,  k = x·Wk,  v = x·Wv,   s = q·kᵀ,   z = the logits,   out = softmax_rows(z) · v.
  The reference takes z = s ^ (1/2) by the real power function, which Mathlib defines on a negative base as
  exp(½ log|s|)·cos(π/2) = 0; the kernel takes z = √(max s 0). These are one function on ℝ (`rpow_half_eq_root`).
  The reference normalises each weight before the product with v (`outRef`); the kernel accumulates the unnormalised
  weighted sum and the normaliser tile by tile, rescaling both whenever the running maximum moves, and divides at the
  end. A softmax-weighted mean does not depend on the shift subtracted in the exponent (`outShift_eq_outRef`), and the
  rescaling is exp (m - m') · exp (z - m) = exp (z - m') (`online_step`): that is the whole bridge.
-/
import Idealize.ShloMosaic.PureOps.Ideal.Laws
import Idealize.ShloMosaic.Lib.ValueIdx

noncomputable section

namespace Cert.Spec

open scoped BigOperators

/-- A projection x·W, entry (n, d). -/
def proj (x : Fin 4096 → Fin 2048 → ℝ) (w : Fin 2048 → Fin 2048 → ℝ) (n : Fin 4096) (d : Fin 2048) : ℝ :=
  ∑ k : Fin 2048, x n k * w k d

/-- The score q·kᵀ, entry (i, j): both operands contracted over their feature axis. -/
def score (q k : Fin 4096 → Fin 2048 → ℝ) (i j : Fin 4096) : ℝ := ∑ d : Fin 2048, q i d * k j d

/-- The square root of the positive part. -/
def root (s : ℝ) : ℝ := Real.sqrt (max s 0)

/-- The logits: the root of the scores of the two projections. -/
def logit (x : Fin 4096 → Fin 2048 → ℝ) (wq wk : Fin 2048 → Fin 2048 → ℝ) (i j : Fin 4096) : ℝ :=
  root (score (proj x wq) (proj x wk) i j)

/-- The largest entry of a row. -/
def top (z : Fin 4096 → ℝ) : ℝ := Finset.univ.sup' Finset.univ_nonempty z

/-- The reference's arrangement: every weight normalised first, then the product with v. -/
def outRef (x : Fin 4096 → Fin 2048 → ℝ) (wq wk wv : Fin 2048 → Fin 2048 → ℝ) (i : Fin 4096) (d : Fin 2048) : ℝ :=
  ∑ j : Fin 4096, (Real.exp (logit x wq wk i j - top (logit x wq wk i))
      / ∑ j' : Fin 4096, Real.exp (logit x wq wk i j' - top (logit x wq wk i))) * proj x wv j d

/-- The kernel's arrangement at ANY shift `M` of the exponent: the weighted sum divided by the normaliser. -/
def outShift (x : Fin 4096 → Fin 2048 → ℝ) (wq wk wv : Fin 2048 → Fin 2048 → ℝ) (M : ℝ) (i : Fin 4096) (d : Fin 2048) : ℝ :=
  (∑ j : Fin 4096, Real.exp (logit x wq wk i j - M) * proj x wv j d) / ∑ j : Fin 4096, Real.exp (logit x wq wk i j - M)

/-- The real power ½, Mathlib's, is the root of the positive part on every real: √s for s ≥ 0, and 0 below
    (`Real.rpow_def_of_neg`: exp(½ log s)·cos(π/2)). -/
theorem rpow_half_eq_root (s : ℝ) : Real.rpow s (1 / 2) = root s := by
  show s ^ (1 / 2 : ℝ) = Real.sqrt (max s 0)
  rcases le_or_gt 0 s with h | h
  · rw [max_eq_left h, Real.sqrt_eq_rpow]
  · rw [max_eq_right h.le, Real.sqrt_zero, Real.rpow_def_of_neg h]
    have hpi : (1 / 2 : ℝ) * Real.pi = Real.pi / 2 := by ring
    rw [hpi, Real.cos_pi_div_two, mul_zero]

/-- A softmax-weighted mean does not depend on the shift: exp (z - M) = exp (z - M') · exp (M' - M), a positive
    common factor of numerator and denominator; at M' = the row's top, and with the division moved inside the sum, it
    is the reference's arrangement. -/
theorem outShift_eq_outRef (x : Fin 4096 → Fin 2048 → ℝ) (wq wk wv : Fin 2048 → Fin 2048 → ℝ) (M : ℝ) (i : Fin 4096) (d : Fin 2048) :
    outShift x wq wk wv M i d = outRef x wq wk wv i d := by
  unfold outShift outRef
  generalize logit x wq wk i = z
  generalize top z = T
  have hE : ∀ j, Real.exp (z j - M) = Real.exp (T - M) * Real.exp (z j - T) := by
    intro j
    rw [← Real.exp_add]
    congr 1
    ring
  simp only [hE, mul_assoc]
  rw [← Finset.mul_sum, ← Finset.mul_sum, mul_div_mul_left _ _ (Real.exp_pos _).ne', Finset.sum_div]
  refine Finset.sum_congr rfl (fun j _ => ?_)
  rw [div_mul_eq_mul_div]

/-- One step of the running rescale: a sum of exp (z j - m) · v j over the columns seen so far, multiplied by
    exp (m - m'), is the same sum at the new shift m'. -/
theorem rescale {J : Type} (S : Finset J) (z v : J → ℝ) (m m' : ℝ) :
    Real.exp (m - m') * ∑ j ∈ S, Real.exp (z j - m) * v j = ∑ j ∈ S, Real.exp (z j - m') * v j := by
  rw [Finset.mul_sum]
  refine Finset.sum_congr rfl (fun j _ => ?_)
  rw [← mul_assoc, ← Real.exp_add]
  congr 2
  ring

/-! ## The tilings of the index ranges -/

/-- Column 1024·a + b of 4096 (the four key/value tiles of 1024). -/
def col (a : Fin 4) (b : Fin 1024) : Fin 4096 := ⟨1024 * a.val + b.val, by omega⟩
theorem sum_col {M : Type} [AddCommMonoid M] (f : Fin 4096 → M) : ∑ j, f j = ∑ a : Fin 4, ∑ b : Fin 1024, f (col a b) := by
  -- the pair (a, b) ↦ 1024·a + b is a bijection onto the columns, with inverse j ↦ (j / 1024, j % 1024)
  let e : Fin 4 × Fin 1024 ≃ Fin 4096 :=
    { toFun := fun p => col p.1 p.2
      invFun := fun j => (⟨j.val / 1024, by omega⟩, ⟨j.val % 1024, Nat.mod_lt _ (by decide)⟩)
      left_inv := by
        rintro ⟨a, b⟩
        refine Prod.ext (Fin.ext ?_) (Fin.ext ?_)
        · show (1024 * a.val + b.val) / 1024 = a.val
          omega
        · show (1024 * a.val + b.val) % 1024 = b.val
          omega
      right_inv := by
        intro j
        refine Fin.ext ?_
        show 1024 * (j.val / 1024) + j.val % 1024 = j.val
        omega }
  rw [← Fintype.sum_prod_type']
  exact (Fintype.sum_equiv e _ _ (fun _ => rfl)).symm
/-- Row 512·a + r of 4096 (the eight query tiles of 512). -/
def qrow (a : Fin 8) (r : Fin 512) : Fin 4096 := ⟨512 * a.val + r.val, by omega⟩
/-- Row 1024·a + r of 4096 (the four row tiles of the projection). -/
def prow (a : Fin 4) (r : Fin 1024) : Fin 4096 := ⟨1024 * a.val + r.val, by omega⟩
/-- Contraction index 1024·a + b of 2048 (the two reduction steps of the projection). -/
def kidx (a : Fin 2) (b : Fin 1024) : Fin 2048 := ⟨1024 * a.val + b.val, by omega⟩
theorem sum_kidx {M : Type} [AddCommMonoid M] (f : Fin 2048 → M) : ∑ k, f k = ∑ b : Fin 1024, f (kidx 0 b) + ∑ b : Fin 1024, f (kidx 1 b) := by
  -- the pair (a, b) ↦ 1024·a + b is a bijection onto the contraction indices
  let e : Fin 2 × Fin 1024 ≃ Fin 2048 :=
    { toFun := fun p => kidx p.1 p.2
      invFun := fun j => (⟨j.val / 1024, by omega⟩, ⟨j.val % 1024, Nat.mod_lt _ (by decide)⟩)
      left_inv := by
        rintro ⟨a, b⟩
        refine Prod.ext (Fin.ext ?_) (Fin.ext ?_)
        · show (1024 * a.val + b.val) / 1024 = a.val
          omega
        · show (1024 * a.val + b.val) % 1024 = b.val
          omega
      right_inv := by
        intro j
        refine Fin.ext ?_
        show 1024 * (j.val / 1024) + j.val % 1024 = j.val
        omega }
  have h2 : ∑ k, f k = ∑ a : Fin 2, ∑ b : Fin 1024, f (kidx a b) := by
    rw [← Fintype.sum_prod_type']
    exact (Fintype.sum_equiv e _ _ (fun _ => rfl)).symm
  rw [h2, Fin.sum_univ_two]
theorem exists_qrow (i : Fin 4096) : ∃ a r, i = qrow a r := ⟨⟨i.val / 512, by omega⟩, ⟨i.val % 512, Nat.mod_lt _ (by decide)⟩, Fin.ext (by simp only [qrow]; omega)⟩
theorem exists_prow (i : Fin 4096) : ∃ a r, i = prow a r := ⟨⟨i.val / 1024, by omega⟩, ⟨i.val % 1024, Nat.mod_lt _ (by decide)⟩, Fin.ext (by simp only [prow]; omega)⟩

/-! ## Extended reals that are reals -/

/-- A finite sum of reals, read in the extended reals. -/
theorem coe_sum {J : Type} (S : Finset J) (f : J → ℝ) : ((∑ j ∈ S, f j : ℝ) : EReal) = ∑ j ∈ S, (f j : EReal) := by
  classical
  induction S using Finset.induction_on with
  | empty => simp
  | insert a s ha ih => rw [Finset.sum_insert ha, Finset.sum_insert ha, EReal.coe_add, ih]

end Cert.Spec

end
-- ==== Proof.K0Val.lean ====
/-
  The projection kernel's arithmetic at an entry, over the extended reals and then over real blocks.

  One grid step multiplies a 1024 × 1024 block of x by a 1024 × 2048 block of a weight and adds the product to the
  accumulator: entry (r, d) becomes  acc r d + ∑ b, x r b * w b d.  At the first of the two reduction steps the
  accumulator has just been reset to zero, so the entry is the partial product alone; at the last step the accumulator
  is stored with a change of format that is the identity on the ideal values.
-/
import proofs.«409648_j16458314678750_3_alg».proof.Proof.Gen.KernelIdeal.Skeleton
import proofs.«409648_j16458314678750_3_alg».proof.Proof.Spec
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.Val

open Cert.KernelIdeal Cert.KernelIdeal.Gen Idealize.ShloMosaic Idealize.ShloMosaic.ValueIdx
open scoped BigOperators

theorem lhs_k0_0 (i : S1024x2048.Idx) (q : dot_S1024x1024_S1024x2048_S1024x2048_1_0_0_1_n_n.contr.Idx) :
    (dot_S1024x1024_S1024x2048_S1024x2048_1_0_0_1_n_n.lhsIdx i q 0).val = (i 0).val := by
  unfold DotDims.lhsIdx
  rw [dif_neg (show ¬(0 : Fin S1024x1024.rank) ∈ dot_S1024x1024_S1024x2048_S1024x2048_1_0_0_1_n_n.lhsBatch by decide), dif_pos (show (0 : Fin S1024x1024.rank) ∈ dot_S1024x1024_S1024x2048_S1024x2048_1_0_0_1_n_n.lhsNonContracting by decide)]
  rfl
theorem lhs_k0_1 (i : S1024x2048.Idx) (q : dot_S1024x1024_S1024x2048_S1024x2048_1_0_0_1_n_n.contr.Idx) :
    (dot_S1024x1024_S1024x2048_S1024x2048_1_0_0_1_n_n.lhsIdx i q 1).val = (q ⟨0, by decide⟩).val :=
  dot_S1024x1024_S1024x2048_S1024x2048_1_0_0_1_n_n.lhsIdx_val_of_single rfl i q
theorem rhs_k0_0 (i : S1024x2048.Idx) (q : dot_S1024x1024_S1024x2048_S1024x2048_1_0_0_1_n_n.contr.Idx) :
    (dot_S1024x1024_S1024x2048_S1024x2048_1_0_0_1_n_n.rhsIdx i q 0).val = (q ⟨0, by decide⟩).val :=
  dot_S1024x1024_S1024x2048_S1024x2048_1_0_0_1_n_n.rhsIdx_val_of_single rfl i q
theorem rhs_k0_1 (i : S1024x2048.Idx) (q : dot_S1024x1024_S1024x2048_S1024x2048_1_0_0_1_n_n.contr.Idx) :
    (dot_S1024x1024_S1024x2048_S1024x2048_1_0_0_1_n_n.rhsIdx i q 1).val = (i 1).val := by
  unfold DotDims.rhsIdx
  rw [dif_neg (show ¬(1 : Fin S1024x2048.rank) ∈ dot_S1024x1024_S1024x2048_S1024x2048_1_0_0_1_n_n.rhsBatch by decide), dif_pos (show (1 : Fin S1024x2048.rank) ∈ dot_S1024x1024_S1024x2048_S1024x2048_1_0_0_1_n_n.rhsNonContracting by decide)]
  rfl

/-- The projection kernel's matrix product at an entry: the sum over the contracted axis. -/
theorem matmul_k0_apply (a : FVec Ideal S1024x1024 .bf16) (b : FVec Ideal S1024x2048 .bf16) (r : Fin 1024) (d : Fin 2048) :
    matmul dot_S1024x1024_S1024x2048_S1024x2048_1_0_0_1_n_n none a b (constant (F := Ideal) S1024x2048 .f32 0x00000000#32) (ix2 r d)
      = ∑ k : Fin 1024, a (ix2 r k) * b (ix2 k d) := by
  simp only [matmul]
  rw [Ideal.matmul_constant_zero_apply, ← Equiv.sum_comp (ValueIdx.contrEquiv1 dot_S1024x1024_S1024x2048_S1024x2048_1_0_0_1_n_n 1024 rfl rfl).symm]
  refine Finset.sum_congr rfl fun k _ => ?_
  have hk := ValueIdx.contrEquiv1_symm_val dot_S1024x1024_S1024x2048_S1024x2048_1_0_0_1_n_n 1024 rfl rfl k
  have el : dot_S1024x1024_S1024x2048_S1024x2048_1_0_0_1_n_n.lhsIdx (ix2 r d) ((ValueIdx.contrEquiv1 dot_S1024x1024_S1024x2048_S1024x2048_1_0_0_1_n_n 1024 rfl rfl).symm k) = ix2 r k := funext fun a => Fin.ext (by
    match a with
    | ⟨0, _⟩ => exact lhs_k0_0 _ _
    | ⟨1, _⟩ => exact (lhs_k0_1 _ _).trans hk)
  have er : dot_S1024x1024_S1024x2048_S1024x2048_1_0_0_1_n_n.rhsIdx (ix2 r d) ((ValueIdx.contrEquiv1 dot_S1024x1024_S1024x2048_S1024x2048_1_0_0_1_n_n 1024 rfl rfl).symm k) = ix2 k d := funext fun a => Fin.ext (by
    match a with
    | ⟨0, _⟩ => exact (rhs_k0_0 _ _).trans hk
    | ⟨1, _⟩ => exact rhs_k0_1 _ _)
  rw [el, er]

/-- The accumulating payload at an entry, over the extended reals. -/
theorem k0_pay2_apply (a0 : Vec Ideal S1024x2048 .f32) (x : Vec Ideal S1024x1024 .bf16) (w : Vec Ideal S1x1024x2048 .bf16)
    (r : Fin 1024) (d : Fin 2048) :
    k0_pay2 a0 x w (ix2 r d) = a0 (ix2 r d) + ∑ b : Fin 1024, x (ix2 r b) * w (ix3 0 b d) := by
  unfold k0_pay2
  rw [shapeCast_self, addf_apply, shapeCast_self, matmul_k0_apply]
  refine congrArg (a0 (ix2 r d) + ·) (Finset.sum_congr rfl fun b _ => ?_)
  rw [shapeCast_1ab_ab_apply]

/-- The reset payload is the zero matrix. -/
theorem k0_pay1_apply (r : Fin 1024) (d : Fin 2048) : k0_pay1 (F := Ideal) (ix2 r d) = 0 := by
  unfold k0_pay1
  rw [shapeCast_self, broadcast_apply]
  exact Ideal.ofBits_zero_f32

/-- A sum of products of reals, read in the extended reals. -/
theorem coe_sum_mul {J : Type} (S : Finset J) (f g : J → ℝ) :
    ∑ j ∈ S, ((f j : ℝ) : EReal) * ((g j : ℝ) : EReal) = ((∑ j ∈ S, f j * g j : ℝ) : EReal) := by
  rw [Cert.Spec.coe_sum]
  exact Finset.sum_congr rfl fun j _ => (EReal.coe_mul _ _).symm

/-- The first reduction step: the accumulator was just reset, so the entry is the partial product alone. -/
theorem proj_first (x : Vec Ideal S1024x1024 .bf16) (w : Vec Ideal S1x1024x2048 .bf16)
    (xb : Fin 1024 → Fin 1024 → ℝ) (wb : Fin 1024 → Fin 2048 → ℝ)
    (hx : ∀ r b, x (ix2 r b) = ((xb r b : ℝ) : EReal)) (hw : ∀ b d, w (ix3 0 b d) = ((wb b d : ℝ) : EReal))
    (r : Fin 1024) (d : Fin 2048) :
    k0_pay2 (k0_pay1 (F := Ideal)) x w (ix2 r d) = ((∑ b : Fin 1024, xb r b * wb b d : ℝ) : EReal) := by
  rw [k0_pay2_apply, k0_pay1_apply, zero_add, ← coe_sum_mul]
  exact Finset.sum_congr rfl fun b _ => by rw [hx, hw]

/-- A later reduction step: the real accumulator plus the partial product. -/
theorem proj_next (a0 : Vec Ideal S1024x2048 .f32) (ar : Fin 1024 → Fin 2048 → ℝ)
    (ha : ∀ r d, a0 (ix2 r d) = ((ar r d : ℝ) : EReal))
    (x : Vec Ideal S1024x1024 .bf16) (w : Vec Ideal S1x1024x2048 .bf16)
    (xb : Fin 1024 → Fin 1024 → ℝ) (wb : Fin 1024 → Fin 2048 → ℝ)
    (hx : ∀ r b, x (ix2 r b) = ((xb r b : ℝ) : EReal)) (hw : ∀ b d, w (ix3 0 b d) = ((wb b d : ℝ) : EReal))
    (r : Fin 1024) (d : Fin 2048) :
    k0_pay2 a0 x w (ix2 r d) = ((ar r d + ∑ b : Fin 1024, xb r b * wb b d : ℝ) : EReal) := by
  rw [k0_pay2_apply, ha, EReal.coe_add, ← coe_sum_mul]
  exact congrArg (((ar r d : ℝ) : EReal) + ·) (Finset.sum_congr rfl fun b _ => by rw [hx, hw])

/-- The stored block: the change of format is the identity on the ideal values, and the cast only adds the unit axis. -/
theorem proj_store (a : Vec Ideal S1024x2048 .f32) (r : Fin 1024) (d : Fin 2048) :
    k0_pay3 a (ix3 0 r d) = a (ix2 r d) := by
  unfold k0_pay3
  rw [shapeCast_ab_1ab_apply, truncf_apply]

end Cert.KernelIdeal.Val
end
-- ==== Proof.R0Value.lean ====
/-
  The array the projection kernel leaves, as a function of real inputs.

  The grid is (p, i, kk) = 3 × 4 × 2 with kk fastest: point number t has p = t / 8, i = t / 2 mod 4, kk = t mod 2.
  At point t the kernel reads rows 1024·i … and columns 1024·kk … of the activations x and rows 1024·kk … of weight p,
  and adds their product to the accumulator, which was reset at kk = 0. After kk = 1 the accumulator's entry (r, d) is
      ∑ b, x (1024·i + r) b · W p b d  +  ∑ b, x (1024·i + r) (1024 + b) · W p (1024 + b) d  =  (x·W p) (1024·i + r) d,
  and it is stored, unchanged at the ideal values, as block (p, i, 0) of the output. The twelve blocks written at the odd
  points tile the output 3 × 4096 × 2048, so its slice p ends holding x·W p.
-/
import proofs.«409648_j16458314678750_3_alg».proof.Proof.R0Dat
import proofs.«409648_j16458314678750_3_alg».proof.Proof.K0Val
import proofs.«409648_j16458314678750_3_alg».proof.Proof.Spec
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand Idealize.ShloMosaic Idealize.ShloMosaic.ValueIdx Idealize.ShloMosaic.TcCoe
open scoped BigOperators

variable (V : (c : Dev nD) → (b : Ref sig .tc) → Buf (Elt Ideal) ((c : Thread nD τ).loc b)) (c : Dev nD)
variable (xr : Fin 4096 → Fin 2048 → ℝ) (W : Fin 3 → Fin 2048 → Fin 2048 → ℝ)

/-! ## The printed index maps over the grid -/

/-- Each window's block index at point t, in closed form: decided over the 24 points. -/
theorem idx0 : ∀ t : Fin cfg0.N,
    win0_0.index t (0 : Fin 2) = t.val / 2 % 4 ∧ win0_0.index t (1 : Fin 2) = t.val % 2
    ∧ win0_1.index t (0 : Fin 3) = t.val / 8 ∧ win0_1.index t (1 : Fin 3) = t.val % 2 ∧ win0_1.index t (2 : Fin 3) = 0
    ∧ win0_2.index t (0 : Fin 3) = t.val / 8 ∧ win0_2.index t (1 : Fin 3) = t.val / 2 % 4 ∧ win0_2.index t (2 : Fin 3) = 0 :=
  (by decide +kernel : ∀ t : Fin grid0.N, _)

/-! ## The blocks the kernel reads -/

/-- The activations' block at point t is rows 1024·i … and columns 1024·kk … of the activations, i and kk the point's
    row-tile and reduction coordinates. -/
theorem xblk0_read (t : Fin cfg0.N) (r b : Fin 1024) (n : Fin 4096) (k : Fin 2048)
    (hn : n.val = 1024 * (t.val / 2 % 4) + r.val) (hk : k.val = 1024 * (t.val % 2) + b.val) :
    xblk0 V c t (ix2 r b) = V c main_v5 (ix2 n k) := by
  obtain ⟨e0, e1, -⟩ := idx0 t
  show ((cfg0.win 0).blk t).view.read (Elt Ideal) (V c (Pipeline.arrRef spec0 0)) (ix2 r b) = _
  rw [View.read_apply]
  show V c main_v5 (((cfg0.win 0).blk t).view.emb (ix2 r b)) = V c main_v5 (ix2 n k)
  refine congrArg (V c main_v5) (funext fun a => Fin.ext ?_)
  match a with
  | ⟨0, _⟩ => show win0_0.index t (0 : Fin 2) * 1024 + 1 * r.val = n.val; omega
  | ⟨1, _⟩ => show win0_0.index t (1 : Fin 2) * 1024 + 1 * b.val = k.val; omega

/-- The weights' block at point t is slice p, rows 1024·kk … of the stacked weights, p and kk the point's projection
    and reduction coordinates. -/
theorem wblk0_read (t : Fin cfg0.N) (b : Fin 1024) (d : Fin 2048) (p : Fin 3) (k : Fin 2048)
    (hp : p.val = t.val / 8) (hk : k.val = 1024 * (t.val % 2) + b.val) :
    wblk0 V c t (ix3 0 b d) = V c main_v4 (ix3 p k d) := by
  obtain ⟨-, -, e0, e1, e2, -⟩ := idx0 t
  show ((cfg0.win 1).blk t).view.read (Elt Ideal) (V c (Pipeline.arrRef spec0 1)) (ix3 0 b d) = _
  rw [View.read_apply]
  show V c main_v4 (((cfg0.win 1).blk t).view.emb (ix3 0 b d)) = V c main_v4 (ix3 p k d)
  refine congrArg (V c main_v4) (funext fun a => Fin.ext ?_)
  match a with
  | ⟨0, _⟩ => show win0_1.index t (0 : Fin 3) * 1 + 1 * 0 = p.val; omega
  | ⟨1, _⟩ => show win0_1.index t (1 : Fin 3) * 1024 + 1 * b.val = k.val; omega
  | ⟨2, _⟩ => show win0_1.index t (2 : Fin 3) * 2048 + 1 * d.val = d.val; omega

/-! ## The accumulator after the two reduction steps -/

/-- The accumulator after a last reduction step, at an entry: both partial products have been added to zero, and
    the two halves of the contraction range make the whole projection. -/
theorem acc0_odd (hx : ∀ n k, V c main_v5 (ix2 n k) = ((xr n k : ℝ) : EReal))
    (hw : ∀ p k d, V c main_v4 (ix3 p k d) = ((W p k d : ℝ) : EReal))
    (t : Fin cfg0.N) (ht : t.val % 2 = 1) (p : Fin 3) (i : Fin 4) (hp : p.val = t.val / 8) (hi : i.val = t.val / 2 % 4)
    (r : Fin 1024) (d : Fin 2048) :
    acc0 V c t.val t.isLt (ix2 r d) = ((Cert.Spec.proj xr (W p) (Cert.Spec.prow i r) d : ℝ) : EReal) := by
  have hN : cfg0.N = 24 := Gen.N_0
  have hlt : t.val - 1 < cfg0.N := by have := t.isLt; omega
  have h0 : acc0 V c (t.val - 1) (Nat.lt_of_le_of_lt (Nat.sub_le _ _) t.isLt)
      = k0_pay2 (k0_pay1 (F := Ideal)) (xblk0 V c ⟨t.val - 1, hlt⟩) (wblk0 V c ⟨t.val - 1, hlt⟩) :=
    acc0_first V c ⟨t.val - 1, hlt⟩ (by show (t.val - 1) % 2 = 0; omega)
  rw [acc0_last V c t ht, h0]
  refine (proj_next _ (fun r d => ∑ b : Fin 1024, xr (Cert.Spec.prow i r) (Cert.Spec.kidx 0 b) * W p (Cert.Spec.kidx 0 b) d)
    (fun r d => proj_first _ _ (fun r b => xr (Cert.Spec.prow i r) (Cert.Spec.kidx 0 b)) (fun b d => W p (Cert.Spec.kidx 0 b) d)
      (fun r b => ?_) (fun b d => ?_) r d)
    _ _ (fun r b => xr (Cert.Spec.prow i r) (Cert.Spec.kidx 1 b)) (fun b d => W p (Cert.Spec.kidx 1 b) d)
    (fun r b => ?_) (fun b d => ?_) r d).trans ?_
  · refine (xblk0_read V c ⟨t.val - 1, hlt⟩ r b (Cert.Spec.prow i r) (Cert.Spec.kidx 0 b) ?_ ?_).trans (hx _ _)
    · show 1024 * i.val + r.val = 1024 * ((t.val - 1) / 2 % 4) + r.val; omega
    · show 1024 * (0 : Fin 2).val + b.val = 1024 * ((t.val - 1) % 2) + b.val; simp only [Fin.val_zero]; omega
  · refine (wblk0_read V c ⟨t.val - 1, hlt⟩ b d p (Cert.Spec.kidx 0 b) ?_ ?_).trans (hw _ _ _)
    · show p.val = (t.val - 1) / 8; omega
    · show 1024 * (0 : Fin 2).val + b.val = 1024 * ((t.val - 1) % 2) + b.val; simp only [Fin.val_zero]; omega
  · refine (xblk0_read V c t r b (Cert.Spec.prow i r) (Cert.Spec.kidx 1 b) ?_ ?_).trans (hx _ _)
    · show 1024 * i.val + r.val = 1024 * (t.val / 2 % 4) + r.val; omega
    · show 1024 * (1 : Fin 2).val + b.val = 1024 * (t.val % 2) + b.val; simp only [Fin.val_one]; omega
  · refine (wblk0_read V c t b d p (Cert.Spec.kidx 1 b) hp ?_).trans (hw _ _ _)
    show 1024 * (1 : Fin 2).val + b.val = 1024 * (t.val % 2) + b.val; simp only [Fin.val_one]; omega
  · show ((_ : ℝ) : EReal) = ((∑ k : Fin 2048, xr (Cert.Spec.prow i r) k * W p k d : ℝ) : EReal)
    rw [Cert.Spec.sum_kidx]

/-! ## The block written back -/

/-- The stacked projections: slice p of the array is x·W p. -/
abbrev qkvG : S3x4096x2048.Idx → EReal := fun j => ((Cert.Spec.proj xr (W (j 0)) (j 1) (j 2) : ℝ) : EReal)

/-- What a last reduction step stores, at entry (0, r, d) of its block: row 1024·i + r, column d of x·W p. -/
theorem stored0_apply (hx : ∀ n k, V c main_v5 (ix2 n k) = ((xr n k : ℝ) : EReal))
    (hw : ∀ p k d, V c main_v4 (ix3 p k d) = ((W p k d : ℝ) : EReal))
    (t : Fin cfg0.N) (ht : t.val % 2 = 1) (r : Fin 1024) (d : Fin 2048) (p : Fin 3) (n : Fin 4096)
    (hp : p.val = t.val / 8) (hn : n.val = 1024 * (t.val / 2 % 4) + r.val) :
    k0_pay3 (acc0 V c t.val t.isLt) (ix3 0 r d) = ((Cert.Spec.proj xr (W p) n d : ℝ) : EReal) := by
  rw [proj_store, acc0_odd V c xr W hx hw t ht p ⟨t.val / 2 % 4, Nat.mod_lt _ (by decide)⟩ hp rfl r d]
  have e1 : Cert.Spec.prow ⟨t.val / 2 % 4, Nat.mod_lt _ (by decide)⟩ r = n :=
    Fin.ext (by show 1024 * (t.val / 2 % 4) + r.val = n.val; omega)
  rw [e1]

/-- The same over any index of the block and the index of the array under it. -/
theorem stored0_idx (hx : ∀ n k, V c main_v5 (ix2 n k) = ((xr n k : ℝ) : EReal))
    (hw : ∀ p k d, V c main_v4 (ix3 p k d) = ((W p k d : ℝ) : EReal))
    (t : Fin cfg0.N) (ht : t.val % 2 = 1) (y : S1x1024x2048.Idx) (j : S3x4096x2048.Idx)
    (h0 : (j 0).val = t.val / 8) (h1 : (j 1).val = 1024 * (t.val / 2 % 4) + (y 1).val) (h2 : (j 2).val = (y 2).val) :
    k0_pay3 (acc0 V c t.val t.isLt) y = qkvG xr W j := by
  have b0 : (y 0).val < 1 := (y 0).isLt
  have b1 : (y 1).val < 1024 := (y 1).isLt
  have b2 : (y 2).val < 2048 := (y 2).isLt
  have c0 : (j 0).val < 3 := (j 0).isLt
  have c1 : (j 1).val < 4096 := (j 1).isLt
  have c2 : (j 2).val < 2048 := (j 2).isLt
  have ey : y = ix3 (0 : Fin 1) (⟨(y 1).val, b1⟩ : Fin 1024) (⟨(y 2).val, b2⟩ : Fin 2048) :=
    funext fun a => match a with
      | ⟨0, _⟩ => Fin.ext (by show (y 0).val = 0; omega)
      | ⟨1, _⟩ => rfl
      | ⟨2, _⟩ => rfl
  have ej : j = ix3 (⟨(j 0).val, c0⟩ : Fin 3) (⟨(j 1).val, c1⟩ : Fin 4096) (⟨(j 2).val, c2⟩ : Fin 2048) :=
    funext fun a => match a with
      | ⟨0, _⟩ => rfl
      | ⟨1, _⟩ => rfl
      | ⟨2, _⟩ => rfl
  rw [ey, ej]
  show (_ : EReal) = ((Cert.Spec.proj xr (W ⟨(j 0).val, c0⟩) ⟨(j 1).val, c1⟩ ⟨(j 2).val, c2⟩ : ℝ) : EReal)
  rw [stored0_apply V c xr W hx hw t ht ⟨(y 1).val, b1⟩ ⟨(y 2).val, b2⟩ ⟨(j 0).val, c0⟩ ⟨(j 1).val, c1⟩ h0 h1]
  have e2 : (⟨(y 2).val, b2⟩ : Fin 2048) = ⟨(j 2).val, c2⟩ := Fin.ext h2.symm
  rw [e2]

/-! ## From the blocks to the array -/

/-- What a last reduction step writes back is its block of the stacked projections. -/
theorem flushed0_eq (hx : ∀ n k, V c main_v5 (ix2 n k) = ((xr n k : ℝ) : EReal))
    (hw : ∀ p k d, V c main_v4 (ix3 p k d) = ((W p k d : ℝ) : EReal))
    (t : Fin cfg0.N) (hf : (cfg0.win 2).flush t = true) :
    (dat0 V c).flushed 2 t = ((cfg0.win 2).blk t).view.read (Elt Ideal) (qkvG xr W) := by
  have ht : t.val % 2 = 1 := (flush0_2 t).mp hf
  obtain ⟨-, -, -, -, -, e0, e1, e2⟩ := idx0 t
  show (cfg0.win 2).cut (grid0.coords t) ((dat0 V c).after 2 t) = _
  rw [after0_2]
  funext y
  rw [View.read_apply]
  show k0_pay3 (acc0 V c t.val t.isLt) y = qkvG xr W (((cfg0.win 2).blk t).view.emb y)
  have b0 : (y 0).val < 1 := (y 0).isLt
  refine stored0_idx V c xr W hx hw t ht y _ ?_ ?_ ?_
  · show win0_2.index t (0 : Fin 3) * 1 + 1 * (y 0).val = t.val / 8; omega
  · show win0_2.index t (1 : Fin 3) * 1024 + 1 * (y 1).val = 1024 * (t.val / 2 % 4) + (y 1).val; omega
  · show win0_2.index t (2 : Fin 3) * 2048 + 1 * (y 2).val = (y 2).val; omega

/-- Every entry of the array lies in the block of a last reduction step: entry (p, n, d) in that of the point with
    projection coordinate p and row-tile coordinate n / 1024. -/
theorem cover0 (j : S3x4096x2048.Idx) :
    ∃ t : Fin cfg0.N, (cfg0.win 2).flush t = true ∧ j ∈ ((cfg0.win 2).blk t).view.set := by
  have hN : cfg0.N = 24 := Gen.N_0
  have c0 : (j 0).val < 3 := (j 0).isLt
  have c1 : (j 1).val < 4096 := (j 1).isLt
  have c2 : (j 2).val < 2048 := (j 2).isLt
  let t : Fin cfg0.N := ⟨8 * (j 0).val + 2 * ((j 1).val / 1024) + 1, by omega⟩
  have tv : t.val = 8 * (j 0).val + 2 * ((j 1).val / 1024) + 1 := rfl
  obtain ⟨-, -, -, -, -, e0, e1, e2⟩ := idx0 t
  refine ⟨t, (flush0_2 t).mpr (by omega), ?_⟩
  show j ∈ ((View.whole main_v6).slice (win0_2.rect t)).set
  rw [View.set_slice_whole, Rect.mem_set_unit]
  intro a
  match a with
  | ⟨0, _⟩ => show win0_2.index t (0 : Fin 3) * 1 ≤ (j 0).val ∧ (j 0).val < win0_2.index t (0 : Fin 3) * 1 + 1; omega
  | ⟨1, _⟩ => show win0_2.index t (1 : Fin 3) * 1024 ≤ (j 1).val ∧ (j 1).val < win0_2.index t (1 : Fin 3) * 1024 + 1024; omega
  | ⟨2, _⟩ => show win0_2.index t (2 : Fin 3) * 2048 ≤ (j 2).val ∧ (j 2).val < win0_2.index t (2 : Fin 3) * 2048 + 2048; omega

/-- The array the projection kernel leaves: slice p is x·W p, entry by entry. -/
theorem qkv_array (hx : ∀ n k, V c main_v5 (ix2 n k) = ((xr n k : ℝ) : EReal))
    (hw : ∀ p k d, V c main_v4 (ix3 p k d) = ((W p k d : ℝ) : EReal)) (p : Fin 3) (n : Fin 4096) (d : Fin 2048) :
    (dat0 V c).arrAt 2 cfg0.N (ix3 p n d) = ((Cert.Spec.proj xr (W p) n d : ℝ) : EReal) :=
  congrFun ((dat0 V c).arrAt_eq_of_cover 2 (qkvG xr W) (fun t hf => flushed0_eq V c xr W hx hw t hf) cover0) (ix3 p n d)

end Cert.KernelIdeal.Val

end
-- ==== Proof.K1Val.lean ====
/-
  The attention kernel's arithmetic at an entry, over the extended reals and then over real blocks.

  One grid step takes a 512-row query tile q and a 1024-row key/value tile k, v. With the logits
      z r j = √(max (∑ d, q r d * k j d) 0)
  and the old state (m, l, acc) it computes
      m' r   = max (m r) (max_j z r j),
      l' r   = exp (m r - m' r) * l r + ∑ j, exp (z r j - m' r),
      acc' r d = exp (m r - m' r) * acc r d + ∑ j, exp (z r j - m' r) * v j d,
  and after the last tile stores acc' r d / l' r. At the first tile the state was just reset to (⊥, 0, 0): the
  old terms vanish because anything times zero is zero in the extended reals, and max ⊥ x = x.
  First every payload is read at an entry with no realness assumed; then, for real blocks, every entry is a real.
-/
import proofs.«409648_j16458314678750_3_alg».proof.Proof.Gen.KernelIdeal.Skeleton
import proofs.«409648_j16458314678750_3_alg».proof.Proof.Spec
import Idealize.ShloMosaic.Lib.ValueLayout
import Idealize.ShloMosaic.Lib.ValueIdx
import Idealize.ShloMosaic.Lib.Pipeline.Value
import Idealize.ShloMosaic.PureOps.Ideal.Laws
import Mathlib.Data.Finset.Fold
import Mathlib.Data.EReal.Basic

noncomputable section

namespace Cert.KernelIdeal.Val

open Cert.KernelIdeal Cert.KernelIdeal.Gen Idealize.ShloMosaic Idealize.ShloMosaic.ValueIdx
open scoped BigOperators

/-! ## Two layout operations by coordinates: the column forms -/

/-- An `[a]` array cast to the column `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two matrix products of the attention kernel at an entry -/

theorem lhs_qk_0 (i : S512x1024.Idx) (q : dot_S512x2048_S1024x2048_S512x1024_1_1_0_0_n_n.contr.Idx) :
    (dot_S512x2048_S1024x2048_S512x1024_1_1_0_0_n_n.lhsIdx i q 0).val = (i 0).val := by
  unfold DotDims.lhsIdx
  rw [dif_neg (show ¬(0 : Fin S512x2048.rank) ∈ dot_S512x2048_S1024x2048_S512x1024_1_1_0_0_n_n.lhsBatch by decide), dif_pos (show (0 : Fin S512x2048.rank) ∈ dot_S512x2048_S1024x2048_S512x1024_1_1_0_0_n_n.lhsNonContracting by decide)]
  rfl
theorem lhs_qk_1 (i : S512x1024.Idx) (q : dot_S512x2048_S1024x2048_S512x1024_1_1_0_0_n_n.contr.Idx) :
    (dot_S512x2048_S1024x2048_S512x1024_1_1_0_0_n_n.lhsIdx i q 1).val = (q ⟨0, by decide⟩).val :=
  dot_S512x2048_S1024x2048_S512x1024_1_1_0_0_n_n.lhsIdx_val_of_single rfl i q
theorem rhs_qk_0 (i : S512x1024.Idx) (q : dot_S512x2048_S1024x2048_S512x1024_1_1_0_0_n_n.contr.Idx) :
    (dot_S512x2048_S1024x2048_S512x1024_1_1_0_0_n_n.rhsIdx i q 0).val = (i 1).val := by
  unfold DotDims.rhsIdx
  rw [dif_neg (show ¬(0 : Fin S1024x2048.rank) ∈ dot_S512x2048_S1024x2048_S512x1024_1_1_0_0_n_n.rhsBatch by decide), dif_pos (show (0 : Fin S1024x2048.rank) ∈ dot_S512x2048_S1024x2048_S512x1024_1_1_0_0_n_n.rhsNonContracting by decide)]
  rfl
theorem rhs_qk_1 (i : S512x1024.Idx) (q : dot_S512x2048_S1024x2048_S512x1024_1_1_0_0_n_n.contr.Idx) :
    (dot_S512x2048_S1024x2048_S512x1024_1_1_0_0_n_n.rhsIdx i q 1).val = (q ⟨0, by decide⟩).val :=
  dot_S512x2048_S1024x2048_S512x1024_1_1_0_0_n_n.rhsIdx_val_of_single rfl i q

/-- The score product contracts the feature axis of BOTH operands: entry (r, j) is the sum over d of a r d * b j d. -/
theorem matmul_qk_apply (a : FVec Ideal S512x2048 .bf16) (b : FVec Ideal S1024x2048 .bf16) (r : Fin 512) (j : Fin 1024) :
    matmul dot_S512x2048_S1024x2048_S512x1024_1_1_0_0_n_n none a b (constant (F := Ideal) S512x1024 .f32 0x00000000#32) (ix2 r j)
      = ∑ d : Fin 2048, a (ix2 r d) * b (ix2 j d) := by
  simp only [matmul]
  rw [Ideal.matmul_constant_zero_apply, ← Equiv.sum_comp (ValueIdx.contrEquiv1 dot_S512x2048_S1024x2048_S512x1024_1_1_0_0_n_n 2048 rfl rfl).symm]
  refine Finset.sum_congr rfl fun k _ => ?_
  have hk := ValueIdx.contrEquiv1_symm_val dot_S512x2048_S1024x2048_S512x1024_1_1_0_0_n_n 2048 rfl rfl k
  have el : dot_S512x2048_S1024x2048_S512x1024_1_1_0_0_n_n.lhsIdx (ix2 r j) ((ValueIdx.contrEquiv1 dot_S512x2048_S1024x2048_S512x1024_1_1_0_0_n_n 2048 rfl rfl).symm k) = ix2 r k := funext fun a => Fin.ext (by
    match a with
    | ⟨0, _⟩ => exact lhs_qk_0 _ _
    | ⟨1, _⟩ => exact (lhs_qk_1 _ _).trans hk)
  have er : dot_S512x2048_S1024x2048_S512x1024_1_1_0_0_n_n.rhsIdx (ix2 r j) ((ValueIdx.contrEquiv1 dot_S512x2048_S1024x2048_S512x1024_1_1_0_0_n_n 2048 rfl rfl).symm k) = ix2 j k := funext fun a => Fin.ext (by
    match a with
    | ⟨0, _⟩ => exact rhs_qk_0 _ _
    | ⟨1, _⟩ => exact (rhs_qk_1 _ _).trans hk)
  rw [el, er]

theorem lhs_pv_0 (i : S512x2048.Idx) (q : dot_S512x1024_S1024x2048_S512x2048_1_0_0_1_n_n.contr.Idx) :
    (dot_S512x1024_S1024x2048_S512x2048_1_0_0_1_n_n.lhsIdx i q 0).val = (i 0).val := by
  unfold DotDims.lhsIdx
  rw [dif_neg (show ¬(0 : Fin S512x1024.rank) ∈ dot_S512x1024_S1024x2048_S512x2048_1_0_0_1_n_n.lhsBatch by decide), dif_pos (show (0 : Fin S512x1024.rank) ∈ dot_S512x1024_S1024x2048_S512x2048_1_0_0_1_n_n.lhsNonContracting by decide)]
  rfl
theorem lhs_pv_1 (i : S512x2048.Idx) (q : dot_S512x1024_S1024x2048_S512x2048_1_0_0_1_n_n.contr.Idx) :
    (dot_S512x1024_S1024x2048_S512x2048_1_0_0_1_n_n.lhsIdx i q 1).val = (q ⟨0, by decide⟩).val :=
  dot_S512x1024_S1024x2048_S512x2048_1_0_0_1_n_n.lhsIdx_val_of_single rfl i q
theorem rhs_pv_0 (i : S512x2048.Idx) (q : dot_S512x1024_S1024x2048_S512x2048_1_0_0_1_n_n.contr.Idx) :
    (dot_S512x1024_S1024x2048_S512x2048_1_0_0_1_n_n.rhsIdx i q 0).val = (q ⟨0, by decide⟩).val :=
  dot_S512x1024_S1024x2048_S512x2048_1_0_0_1_n_n.rhsIdx_val_of_single rfl i q
theorem rhs_pv_1 (i : S512x2048.Idx) (q : dot_S512x1024_S1024x2048_S512x2048_1_0_0_1_n_n.contr.Idx) :
    (dot_S512x1024_S1024x2048_S512x2048_1_0_0_1_n_n.rhsIdx i q 1).val = (i 1).val := by
  unfold DotDims.rhsIdx
  rw [dif_neg (show ¬(1 : Fin S1024x2048.rank) ∈ dot_S512x1024_S1024x2048_S512x2048_1_0_0_1_n_n.rhsBatch by decide), dif_pos (show (1 : Fin S1024x2048.rank) ∈ dot_S512x1024_S1024x2048_S512x2048_1_0_0_1_n_n.rhsNonContracting by decide)]
  rfl

/-- The weights-times-values product: entry (r, d) is the sum over the tile's columns j of a r j * b j d. -/
theorem matmul_pv_apply (a : FVec Ideal S512x1024 .bf16) (b : FVec Ideal S1024x2048 .bf16) (r : Fin 512) (d : Fin 2048) :
    matmul dot_S512x1024_S1024x2048_S512x2048_1_0_0_1_n_n none a b (constant (F := Ideal) S512x2048 .f32 0x00000000#32) (ix2 r d)
      = ∑ j : Fin 1024, a (ix2 r j) * b (ix2 j d) := by
  simp only [matmul]
  rw [Ideal.matmul_constant_zero_apply, ← Equiv.sum_comp (ValueIdx.contrEquiv1 dot_S512x1024_S1024x2048_S512x2048_1_0_0_1_n_n 1024 rfl rfl).symm]
  refine Finset.sum_congr rfl fun k _ => ?_
  have hk := ValueIdx.contrEquiv1_symm_val dot_S512x1024_S1024x2048_S512x2048_1_0_0_1_n_n 1024 rfl rfl k
  have el : dot_S512x1024_S1024x2048_S512x2048_1_0_0_1_n_n.lhsIdx (ix2 r d) ((ValueIdx.contrEquiv1 dot_S512x1024_S1024x2048_S512x2048_1_0_0_1_n_n 1024 rfl rfl).symm k) = ix2 r k := funext fun a => Fin.ext (by
    match a with
    | ⟨0, _⟩ => exact lhs_pv_0 _ _
    | ⟨1, _⟩ => exact (lhs_pv_1 _ _).trans hk)
  have er : dot_S512x1024_S1024x2048_S512x2048_1_0_0_1_n_n.rhsIdx (ix2 r d) ((ValueIdx.contrEquiv1 dot_S512x1024_S1024x2048_S512x2048_1_0_0_1_n_n 1024 rfl rfl).symm k) = ix2 k d := funext fun a => Fin.ext (by
    match a with
    | ⟨0, _⟩ => exact (rhs_pv_0 _ _).trans hk
    | ⟨1, _⟩ => exact rhs_pv_1 _ _)
  rw [el, er]

/-! ## Each payload at an entry, over the extended reals -/

section Pointwise
variable {s : Shape} {φ : FTy}
/-- The vector root reads entrywise. -/
theorem sqrt_apply (a : FVec Ideal s φ) (i : s.Idx) : sqrt a i = Ideal.sqrt (a i) := rfl
/-- The vector exponential reads entrywise. -/
theorem exp_apply (a : FVec Ideal s φ) (i : s.Idx) : exp a i = Ideal.exp (a i) := rfl
end Pointwise

/-- The pattern of minus infinity is the bottom of the extended reals. -/
theorem ofBits_neg_inf_f32 : Ideal.ofBits .f32 0xFF800000#32 = (⊥ : EReal) := by
  simp [Ideal.ofBits, Ideal.ieee]

/-- The value block, with its unit axis dropped. -/
theorem k1_pay7_apply (v : Vec Ideal S1x1024x2048 .bf16) (j : Fin 1024) (d : Fin 2048) :
    k1_pay7 v (ix2 j d) = v (ix3 0 j d) := by
  unfold k1_pay7
  rw [shapeCast_1ab_ab_apply]

/-- The logits tile: the root of the positive part of the score. -/
theorem k1_pay8_apply (q : Vec Ideal S1x512x2048 .bf16) (k : Vec Ideal S1x1024x2048 .bf16) (r : Fin 512) (j : Fin 1024) :
    k1_pay8 q k (ix2 r j) = Ideal.sqrt (max (∑ d : Fin 2048, q (ix3 0 r d) * k (ix3 0 j d)) 0) := by
  unfold k1_pay8
  rw [sqrt_apply, maximumf_apply, broadcast_apply, matmul_qk_apply]
  show Ideal.sqrt (max _ (Ideal.ofBits .f32 0x00000000#32)) = _
  rw [Ideal.ofBits_zero_f32]
  refine congrArg (fun t => Ideal.sqrt (max t 0)) (Finset.sum_congr rfl fun d _ => ?_)
  rw [shapeCast_1ab_ab_apply, shapeCast_1ab_ab_apply]

/-- The lane maximum of a 512 × 1024 tile, kept as a column: the fold of max from the bottom over the row. -/
theorem rowmax_apply (src : FVec Ideal S512x1024 .f32) (r : Fin 512) :
    shapeCast S512x1 (multiReduction .maximumf [1] S512 src 0xFF800000#32 reduces_S512x1024_S512 (.inl rfl) rfl) shapeCasts_S512_S512x1 (ix2 r 0)
      = (Finset.univ : Finset (Fin 1024)).fold max (⊥ : EReal) (fun j => src (ix2 r j)) := by
  rw [shapeCast_a_a1_apply]
  refine (Ideal.multiReduction_maximumf_single src _ reduces_S512x1024_S512 (.inl rfl) rfl (ix1 r)).trans ?_
  show (Finset.univ : Finset (Fin 1024)).fold max (Ideal.ofBits .f32 0xFF800000#32) (src ∘ reduces_S512x1024_S512.lift (ix1 r)) = _
  rw [ofBits_neg_inf_f32]
  refine congrArg (fun f => (Finset.univ : Finset (Fin 1024)).fold max (⊥ : EReal) f) (funext fun j => congrArg src (funext fun a => Fin.ext ?_))
  match a with
  | ⟨0, _⟩ => rfl
  | ⟨1, _⟩ => rfl

/-- The lane sum of a 512 × 1024 tile, kept as a column. -/
theorem rowsum_apply (src : FVec Ideal S512x1024 .f32) (r : Fin 512) :
    shapeCast S512x1 (multiReduction .add [1] S512 src 0x00000000#32 reduces_S512x1024_S512 (.inl rfl) rfl) shapeCasts_S512_S512x1 (ix2 r 0)
      = ∑ j : Fin 1024, src (ix2 r j) := by
  rw [shapeCast_a_a1_apply]
  refine (Ideal.multiReduction_add_single src _ reduces_S512x1024_S512 (.inl rfl) rfl (ix1 r)).trans ?_
  show ∑ j : Fin 1024, src (reduces_S512x1024_S512.lift (ix1 r) j) = _
  refine Finset.sum_congr rfl fun j _ => congrArg src (funext fun a => Fin.ext ?_)
  match a with
  | ⟨0, _⟩ => rfl
  | ⟨1, _⟩ => rfl

/-- The new running maximum: the old one against the tile's row maximum. -/
theorem k1_pay9_apply (q : Vec Ideal S1x512x2048 .bf16) (k : Vec Ideal S1x1024x2048 .bf16) (m : Vec Ideal S512x1 .f32) (r : Fin 512) :
    k1_pay9 q k m (ix2 r 0) = max (m (ix2 r 0)) ((Finset.univ : Finset (Fin 1024)).fold max (⊥ : EReal) (fun j => k1_pay8 q k (ix2 r j))) := by
  unfold k1_pay9
  rw [maximumf_apply, rowmax_apply]

/-- The rescaling factor of the old state. -/
theorem k1_pay10_apply (q : Vec Ideal S1x512x2048 .bf16) (k : Vec Ideal S1x1024x2048 .bf16) (m m' : Vec Ideal S512x1 .f32) (r : Fin 512) :
    k1_pay10 q k m m' (ix2 r 0) = Ideal.exp (m' (ix2 r 0) - k1_pay9 q k m (ix2 r 0)) := by
  unfold k1_pay10
  rw [exp_apply, subf_apply]

/-- The unnormalised weights of the tile. -/
theorem k1_pay11_apply (q : Vec Ideal S1x512x2048 .bf16) (k : Vec Ideal S1x1024x2048 .bf16) (m : Vec Ideal S512x1 .f32) (r : Fin 512) (j : Fin 1024) :
    k1_pay11 q k m (ix2 r j) = Ideal.exp (k1_pay8 q k (ix2 r j) - k1_pay9 q k m (ix2 r 0)) := by
  unfold k1_pay11
  rw [exp_apply, subf_apply, broadcastTo_a1_ab_apply]

/-- The new normaliser: the old one rescaled plus the tile's weights summed. -/
theorem k1_pay12_apply (q : Vec Ideal S1x512x2048 .bf16) (k : Vec Ideal S1x1024x2048 .bf16) (m m' l : Vec Ideal S512x1 .f32) (r : Fin 512) :
    k1_pay12 q k m m' l (ix2 r 0) = k1_pay10 q k m m' (ix2 r 0) * l (ix2 r 0) + ∑ j : Fin 1024, k1_pay11 q k m (ix2 r j) := by
  unfold k1_pay12
  rw [shapeCast_self, addf_apply, mulf_apply, rowsum_apply]

/-- The new accumulator: the old one rescaled plus the tile's weights times the values. -/
theorem k1_pay1_apply (v8 : FVec Ideal S1024x2048 .bf16) (v19 : FVec Ideal S512x1 .f32) (v22 : FVec Ideal S512x1024 .f32)
    (a : Vec Ideal S512x2048 .f32) (r : Fin 512) (d : Fin 2048) :
    k1_pay1 v8 v19 v22 a (ix2 r d) = v19 (ix2 r 0) * a (ix2 r d) + ∑ j : Fin 1024, v22 (ix2 r j) * v8 (ix2 j d) := by
  unfold k1_pay1
  rw [shapeCast_self, addf_apply, mulf_apply, broadcastTo_a1_ab_apply, matmul_pv_apply]
  refine congrArg (v19 (ix2 r 0) * a (ix2 r d) + ·) (Finset.sum_congr rfl fun j _ => ?_)
  rw [truncf_apply]

/-- The stored running maximum is the payload itself. -/
theorem k1_pay2_apply (v : FVec Ideal S512x1 .f32) (i : S512x1.Idx) : k1_pay2 v i = v i := by
  unfold k1_pay2
  rw [shapeCast_self]

/-- The closing division of the accumulator by the normaliser's column. -/
theorem k1_pay3_apply (a : Vec Ideal S512x2048 .f32) (l : Vec Ideal S512x1 .f32) (r : Fin 512) (d : Fin 2048) :
    k1_pay3 a l (ix2 r d) = Ideal.div (a (ix2 r d)) (l (ix2 r 0)) := by
  unfold k1_pay3
  rw [divf_apply, broadcastTo_a1_ab_apply]

/-- The reset running maximum is the bottom. -/
theorem k1_pay4_apply (i : S512x1.Idx) : k1_pay4 (F := Ideal) i = (⊥ : EReal) := by
  unfold k1_pay4
  rw [shapeCast_self, broadcast_apply]
  exact ofBits_neg_inf_f32

/-- The reset normaliser is zero. -/
theorem k1_pay5_apply (i : S512x1.Idx) : k1_pay5 (F := Ideal) i = 0 := by
  unfold k1_pay5
  rw [shapeCast_self, broadcast_apply]
  exact Ideal.ofBits_zero_f32

/-- The reset accumulator is zero. -/
theorem k1_pay6_apply (i : S512x2048.Idx) : k1_pay6 (F := Ideal) i = 0 := by
  unfold k1_pay6
  rw [shapeCast_self, broadcast_apply]
  exact Ideal.ofBits_zero_f32

/-! ## Extended reals that are reals -/

/-- The larger of two reals, read in the extended reals. -/
theorem coe_max_coe (a b : ℝ) : ((max a b : ℝ) : EReal) = max (a : EReal) (b : EReal) :=
  EReal.coe_strictMono.monotone.map_max

/-- A sum of products of reals, read in the extended reals. -/
theorem sum_coe_mul_coe {J : Type} (S : Finset J) (f g : J → ℝ) :
    ∑ j ∈ S, ((f j : ℝ) : EReal) * ((g j : ℝ) : EReal) = ((∑ j ∈ S, f j * g j : ℝ) : EReal) := by
  rw [Cert.Spec.coe_sum]
  exact Finset.sum_congr rfl fun j _ => (EReal.coe_mul _ _).symm

/-- The fold of max from the bottom over a row of reals is the row's largest entry. -/
theorem fold_max_coe (z : Fin 1024 → ℝ) :
    (Finset.univ : Finset (Fin 1024)).fold max (⊥ : EReal) (fun j => ((z j : ℝ) : EReal))
      = ((Finset.univ.sup' Finset.univ_nonempty z : ℝ) : EReal) := by
  apply le_antisymm
  · exact (Finset.fold_max_le _).2 ⟨bot_le, fun j _ => EReal.coe_le_coe_iff.2 (Finset.le_sup' z (Finset.mem_univ j))⟩
  · obtain ⟨j, _, hj⟩ := Finset.exists_mem_eq_sup' Finset.univ_nonempty z
    exact (Finset.le_fold_max _).2 (Or.inr ⟨j, Finset.mem_univ j, by rw [hj]⟩)

/-! ## The payloads over real blocks -/

/-- The logits of one tile: the root of the positive part of the score of query row r against key row j. -/
def ztile (qb : Fin 512 → Fin 2048 → ℝ) (kb : Fin 1024 → Fin 2048 → ℝ) (r : Fin 512) (j : Fin 1024) : ℝ :=
  Cert.Spec.root (∑ d : Fin 2048, qb r d * kb j d)

/-- The largest logit of row r within the tile. -/
def tmax (qb : Fin 512 → Fin 2048 → ℝ) (kb : Fin 1024 → Fin 2048 → ℝ) (r : Fin 512) : ℝ :=
  Finset.univ.sup' Finset.univ_nonempty (ztile qb kb r)

/-- The logits tile of real blocks is real: the root of a real's positive part. -/
theorem k1_pay8_real (q : Vec Ideal S1x512x2048 .bf16) (k : Vec Ideal S1x1024x2048 .bf16)
    (qb : Fin 512 → Fin 2048 → ℝ) (kb : Fin 1024 → Fin 2048 → ℝ)
    (hq : ∀ r d, q (ix3 0 r d) = ((qb r d : ℝ) : EReal)) (hk : ∀ j d, k (ix3 0 j d) = ((kb j d : ℝ) : EReal))
    (r : Fin 512) (j : Fin 1024) : k1_pay8 q k (ix2 r j) = ((ztile qb kb r j : ℝ) : EReal) := by
  have hs : ∑ d : Fin 2048, q (ix3 0 r d) * k (ix3 0 j d) = ((∑ d : Fin 2048, qb r d * kb j d : ℝ) : EReal) := by
    rw [← sum_coe_mul_coe]
    exact Finset.sum_congr rfl fun d _ => by rw [hq, hk]
  rw [k1_pay8_apply, hs, ← EReal.coe_zero, ← coe_max_coe, Ideal.sqrt_coe, if_neg (not_lt.2 (le_max_right _ _))]
  rfl

/-- The tile's row maximum over real blocks. -/
theorem tile_max_real (q : Vec Ideal S1x512x2048 .bf16) (k : Vec Ideal S1x1024x2048 .bf16)
    (qb : Fin 512 → Fin 2048 → ℝ) (kb : Fin 1024 → Fin 2048 → ℝ)
    (hq : ∀ r d, q (ix3 0 r d) = ((qb r d : ℝ) : EReal)) (hk : ∀ j d, k (ix3 0 j d) = ((kb j d : ℝ) : EReal))
    (r : Fin 512) :
    (Finset.univ : Finset (Fin 1024)).fold max (⊥ : EReal) (fun j => k1_pay8 q k (ix2 r j)) = ((tmax qb kb r : ℝ) : EReal) := by
  have hf : (fun j : Fin 1024 => k1_pay8 q k (ix2 r j)) = fun j => ((ztile qb kb r j : ℝ) : EReal) :=
    funext fun j => k1_pay8_real q k qb kb hq hk r j
  unfold tmax
  rw [hf, fold_max_coe]

/-- The running maximum after the first tile: the reset value is the bottom, so it is the tile's. -/
theorem pay9_first (q : Vec Ideal S1x512x2048 .bf16) (k : Vec Ideal S1x1024x2048 .bf16)
    (qb : Fin 512 → Fin 2048 → ℝ) (kb : Fin 1024 → Fin 2048 → ℝ)
    (hq : ∀ r d, q (ix3 0 r d) = ((qb r d : ℝ) : EReal)) (hk : ∀ j d, k (ix3 0 j d) = ((kb j d : ℝ) : EReal))
    (r : Fin 512) : k1_pay9 q k (k1_pay4 (F := Ideal)) (ix2 r 0) = ((tmax qb kb r : ℝ) : EReal) := by
  rw [k1_pay9_apply, k1_pay4_apply, tile_max_real q k qb kb hq hk r]
  exact max_eq_right bot_le

/-- The running maximum after a later tile. -/
theorem pay9_next (q : Vec Ideal S1x512x2048 .bf16) (k : Vec Ideal S1x1024x2048 .bf16)
    (qb : Fin 512 → Fin 2048 → ℝ) (kb : Fin 1024 → Fin 2048 → ℝ)
    (hq : ∀ r d, q (ix3 0 r d) = ((qb r d : ℝ) : EReal)) (hk : ∀ j d, k (ix3 0 j d) = ((kb j d : ℝ) : EReal))
    (m0 : Vec Ideal S512x1 .f32) (mr : Fin 512 → ℝ) (hm : ∀ r, m0 (ix2 r 0) = ((mr r : ℝ) : EReal))
    (r : Fin 512) : k1_pay9 q k m0 (ix2 r 0) = ((max (mr r) (tmax qb kb r) : ℝ) : EReal) := by
  rw [k1_pay9_apply, tile_max_real q k qb kb hq hk r, hm, coe_max_coe]

/-- The tile's weights at a real new maximum M. -/
theorem pay11_real (q : Vec Ideal S1x512x2048 .bf16) (k : Vec Ideal S1x1024x2048 .bf16)
    (qb : Fin 512 → Fin 2048 → ℝ) (kb : Fin 1024 → Fin 2048 → ℝ)
    (hq : ∀ r d, q (ix3 0 r d) = ((qb r d : ℝ) : EReal)) (hk : ∀ j d, k (ix3 0 j d) = ((kb j d : ℝ) : EReal))
    (m : Vec Ideal S512x1 .f32) (r : Fin 512) (M : ℝ) (hM : k1_pay9 q k m (ix2 r 0) = ((M : ℝ) : EReal)) (j : Fin 1024) :
    k1_pay11 q k m (ix2 r j) = ((Real.exp (ztile qb kb r j - M) : ℝ) : EReal) := by
  rw [k1_pay11_apply, k1_pay8_real q k qb kb hq hk r j, hM, ← EReal.coe_sub, Ideal.exp_coe]

/-- The tile's weights summed along the row. -/
theorem sum_pay11_real (q : Vec Ideal S1x512x2048 .bf16) (k : Vec Ideal S1x1024x2048 .bf16)
    (qb : Fin 512 → Fin 2048 → ℝ) (kb : Fin 1024 → Fin 2048 → ℝ)
    (hq : ∀ r d, q (ix3 0 r d) = ((qb r d : ℝ) : EReal)) (hk : ∀ j d, k (ix3 0 j d) = ((kb j d : ℝ) : EReal))
    (m : Vec Ideal S512x1 .f32) (r : Fin 512) (M : ℝ) (hM : k1_pay9 q k m (ix2 r 0) = ((M : ℝ) : EReal)) :
    ∑ j : Fin 1024, k1_pay11 q k m (ix2 r j) = ((∑ j : Fin 1024, Real.exp (ztile qb kb r j - M) : ℝ) : EReal) := by
  rw [Cert.Spec.coe_sum]
  exact Finset.sum_congr rfl fun j _ => pay11_real q k qb kb hq hk m r M hM j

/-- The tile's weights times the values, summed along the row. -/
theorem sum_pay11_mul_real (q : Vec Ideal S1x512x2048 .bf16) (k v : Vec Ideal S1x1024x2048 .bf16)
    (qb : Fin 512 → Fin 2048 → ℝ) (kb vb : Fin 1024 → Fin 2048 → ℝ)
    (hq : ∀ r d, q (ix3 0 r d) = ((qb r d : ℝ) : EReal)) (hk : ∀ j d, k (ix3 0 j d) = ((kb j d : ℝ) : EReal))
    (hv : ∀ j d, v (ix3 0 j d) = ((vb j d : ℝ) : EReal))
    (m : Vec Ideal S512x1 .f32) (r : Fin 512) (M : ℝ) (hM : k1_pay9 q k m (ix2 r 0) = ((M : ℝ) : EReal)) (d : Fin 2048) :
    ∑ j : Fin 1024, k1_pay11 q k m (ix2 r j) * k1_pay7 v (ix2 j d)
      = ((∑ j : Fin 1024, Real.exp (ztile qb kb r j - M) * vb j d : ℝ) : EReal) := by
  rw [← sum_coe_mul_coe]
  exact Finset.sum_congr rfl fun j _ => by rw [pay11_real q k qb kb hq hk m r M hM j, k1_pay7_apply, hv]

/-! ### The first key/value step: the state was just reset -/

theorem first_m (q : Vec Ideal S1x512x2048 .bf16) (k : Vec Ideal S1x1024x2048 .bf16)
    (qb : Fin 512 → Fin 2048 → ℝ) (kb : Fin 1024 → Fin 2048 → ℝ)
    (hq : ∀ r d, q (ix3 0 r d) = ((qb r d : ℝ) : EReal)) (hk : ∀ j d, k (ix3 0 j d) = ((kb j d : ℝ) : EReal))
    (r : Fin 512) :
    k1_pay2 (k1_pay9 q k (k1_pay4 (F := Ideal))) (ix2 r 0) = ((tmax qb kb r : ℝ) : EReal) := by
  rw [k1_pay2_apply, pay9_first q k qb kb hq hk r]

theorem first_l (q : Vec Ideal S1x512x2048 .bf16) (k : Vec Ideal S1x1024x2048 .bf16)
    (qb : Fin 512 → Fin 2048 → ℝ) (kb : Fin 1024 → Fin 2048 → ℝ)
    (hq : ∀ r d, q (ix3 0 r d) = ((qb r d : ℝ) : EReal)) (hk : ∀ j d, k (ix3 0 j d) = ((kb j d : ℝ) : EReal))
    (r : Fin 512) :
    k1_pay12 q k (k1_pay4 (F := Ideal)) (k1_pay4 (F := Ideal)) (k1_pay5 (F := Ideal)) (ix2 r 0)
      = ((∑ j : Fin 1024, Real.exp (ztile qb kb r j - tmax qb kb r) : ℝ) : EReal) := by
  rw [k1_pay12_apply, k1_pay5_apply, mul_zero, zero_add,
    sum_pay11_real q k qb kb hq hk _ r (tmax qb kb r) (pay9_first q k qb kb hq hk r)]

theorem first_a (q : Vec Ideal S1x512x2048 .bf16) (k v : Vec Ideal S1x1024x2048 .bf16)
    (qb : Fin 512 → Fin 2048 → ℝ) (kb vb : Fin 1024 → Fin 2048 → ℝ)
    (hq : ∀ r d, q (ix3 0 r d) = ((qb r d : ℝ) : EReal)) (hk : ∀ j d, k (ix3 0 j d) = ((kb j d : ℝ) : EReal))
    (hv : ∀ j d, v (ix3 0 j d) = ((vb j d : ℝ) : EReal))
    (r : Fin 512) (d : Fin 2048) :
    k1_pay1 (k1_pay7 v) (k1_pay10 q k (k1_pay4 (F := Ideal)) (k1_pay4 (F := Ideal))) (k1_pay11 q k (k1_pay4 (F := Ideal))) (k1_pay6 (F := Ideal)) (ix2 r d)
      = ((∑ j : Fin 1024, Real.exp (ztile qb kb r j - tmax qb kb r) * vb j d : ℝ) : EReal) := by
  rw [k1_pay1_apply, k1_pay6_apply, mul_zero, zero_add,
    sum_pay11_mul_real q k v qb kb vb hq hk hv _ r (tmax qb kb r) (pay9_first q k qb kb hq hk r) d]

/-! ### A later key/value step: the previous state is real -/

theorem next_m (q : Vec Ideal S1x512x2048 .bf16) (k : Vec Ideal S1x1024x2048 .bf16)
    (qb : Fin 512 → Fin 2048 → ℝ) (kb : Fin 1024 → Fin 2048 → ℝ)
    (hq : ∀ r d, q (ix3 0 r d) = ((qb r d : ℝ) : EReal)) (hk : ∀ j d, k (ix3 0 j d) = ((kb j d : ℝ) : EReal))
    (m0 : Vec Ideal S512x1 .f32) (mr : Fin 512 → ℝ) (hm : ∀ r, m0 (ix2 r 0) = ((mr r : ℝ) : EReal))
    (r : Fin 512) :
    k1_pay2 (k1_pay9 q k m0) (ix2 r 0) = ((max (mr r) (tmax qb kb r) : ℝ) : EReal) := by
  rw [k1_pay2_apply, pay9_next q k qb kb hq hk m0 mr hm r]

theorem next_l (q : Vec Ideal S1x512x2048 .bf16) (k : Vec Ideal S1x1024x2048 .bf16)
    (qb : Fin 512 → Fin 2048 → ℝ) (kb : Fin 1024 → Fin 2048 → ℝ)
    (hq : ∀ r d, q (ix3 0 r d) = ((qb r d : ℝ) : EReal)) (hk : ∀ j d, k (ix3 0 j d) = ((kb j d : ℝ) : EReal))
    (m0 l0 : Vec Ideal S512x1 .f32) (mr lr : Fin 512 → ℝ)
    (hm : ∀ r, m0 (ix2 r 0) = ((mr r : ℝ) : EReal)) (hl : ∀ r, l0 (ix2 r 0) = ((lr r : ℝ) : EReal))
    (r : Fin 512) :
    k1_pay12 q k m0 m0 l0 (ix2 r 0)
      = ((Real.exp (mr r - max (mr r) (tmax qb kb r)) * lr r
          + ∑ j : Fin 1024, Real.exp (ztile qb kb r j - max (mr r) (tmax qb kb r)) : ℝ) : EReal) := by
  have hM := pay9_next q k qb kb hq hk m0 mr hm r
  rw [k1_pay12_apply, k1_pay10_apply, hM, hm, hl, ← EReal.coe_sub, Ideal.exp_coe, ← EReal.coe_mul,
    sum_pay11_real q k qb kb hq hk m0 r _ hM, ← EReal.coe_add]

theorem next_a (q : Vec Ideal S1x512x2048 .bf16) (k v : Vec Ideal S1x1024x2048 .bf16)
    (qb : Fin 512 → Fin 2048 → ℝ) (kb vb : Fin 1024 → Fin 2048 → ℝ)
    (hq : ∀ r d, q (ix3 0 r d) = ((qb r d : ℝ) : EReal)) (hk : ∀ j d, k (ix3 0 j d) = ((kb j d : ℝ) : EReal))
    (hv : ∀ j d, v (ix3 0 j d) = ((vb j d : ℝ) : EReal))
    (m0 : Vec Ideal S512x1 .f32) (a0 : Vec Ideal S512x2048 .f32) (mr : Fin 512 → ℝ) (ar : Fin 512 → Fin 2048 → ℝ)
    (hm : ∀ r, m0 (ix2 r 0) = ((mr r : ℝ) : EReal)) (ha : ∀ r d, a0 (ix2 r d) = ((ar r d : ℝ) : EReal))
    (r : Fin 512) (d : Fin 2048) :
    k1_pay1 (k1_pay7 v) (k1_pay10 q k m0 m0) (k1_pay11 q k m0) a0 (ix2 r d)
      = ((Real.exp (mr r - max (mr r) (tmax qb kb r)) * ar r d
          + ∑ j : Fin 1024, Real.exp (ztile qb kb r j - max (mr r) (tmax qb kb r)) * vb j d : ℝ) : EReal) := by
  have hM := pay9_next q k qb kb hq hk m0 mr hm r
  rw [k1_pay1_apply, k1_pay10_apply, hM, hm, ha, ← EReal.coe_sub, Ideal.exp_coe, ← EReal.coe_mul,
    sum_pay11_mul_real q k v qb kb vb hq hk hv m0 r _ hM d, ← EReal.coe_add]

/-! ### The closing division -/

theorem fin_div (a : Vec Ideal S512x2048 .f32) (l : Vec Ideal S512x1 .f32)
    (ar : Fin 512 → Fin 2048 → ℝ) (lr : Fin 512 → ℝ)
    (ha : ∀ r d, a (ix2 r d) = ((ar r d : ℝ) : EReal)) (hl : ∀ r, l (ix2 r 0) = ((lr r : ℝ) : EReal))
    (hpos : ∀ r, lr r ≠ 0) (r : Fin 512) (d : Fin 2048) :
    k1_pay3 a l (ix2 r d) = ((ar r d / lr r : ℝ) : EReal) := by
  rw [k1_pay3_apply, ha, hl, Ideal.div_coe (hpos r), ← EReal.coe_mul, mul_one_div]

end Cert.KernelIdeal.Val

end
-- ==== Proof.R1Reads.lean ====
/-
  The attention launch's blocks, by coordinates. The grid is (qi, kv) = 8 × 4 with kv fastest: point number
  4·qi + kv. The query window reads rows 512·qi … of plane 0 of the stacked projections, the key and value windows
  rows 1024·kv … of planes 1 and 2, and the output window writes rows 512·qi … of the result, at the last
  key/value tile of each query tile. A block's element sits in its array at block index × block size + its own
  coordinate, on every axis.
-/
import proofs.«409648_j16458314678750_3_alg».proof.Proof.R1Defs
import proofs.«409648_j16458314678750_3_alg».proof.Proof.Spec
import Idealize.ShloMosaic.Lib.ValueIdx
import Idealize.ShloMosaic.Lib.Pipeline.Value

set_option maxRecDepth 16384

noncomputable section

namespace Cert.KernelIdeal.Val

open Cert.KernelIdeal Cert.KernelIdeal.Gen Cert.KernelIdeal.Hand Idealize.ShloMosaic Idealize.ShloMosaic.ValueIdx Idealize.ShloMosaic.TcCoe

variable {F : FTy → Type} [FloatOps F]
variable (V : (c : Dev nD) → (b : Ref sig .tc) → Buf (Elt F) ((c : Thread nD τ).loc b))

/-- The point of query tile qi and key/value tile kv. -/
def pt1 (qi : Fin 8) (kv : Fin 4) : Fin cfg1.N :=
  ⟨4 * qi.val + kv.val, by rw [show cfg1.N = 32 from N_1]; omega⟩

theorem pt1_val (qi : Fin 8) (kv : Fin 4) : (pt1 qi kv).val = 4 * qi.val + kv.val := rfl

/-- Every point is the point of some pair of tiles. -/
theorem exists_pt1 (t : Fin cfg1.N) : ∃ qi kv, t = pt1 qi kv := by
  have hN : cfg1.N = 32 := N_1
  have ht : t.val < cfg1.N := t.isLt
  exact ⟨⟨t.val / 4, by omega⟩, ⟨t.val % 4, by omega⟩, Fin.ext (by show t.val = 4 * (t.val / 4) + t.val % 4; omega)⟩

/-- The printed index maps, decided once over the grid: the query and output windows move with the query tile, the
    key and value windows with the key/value tile, each in its own plane of the stacked projections. -/
theorem idx_facts1 : ∀ t : Fin cfg1.N,
    win1_0.index t (0 : Fin 3) = 0 ∧ win1_0.index t (1 : Fin 3) = t.val / 4 ∧ win1_0.index t (2 : Fin 3) = 0
    ∧ win1_1.index t (0 : Fin 3) = 1 ∧ win1_1.index t (1 : Fin 3) = t.val % 4 ∧ win1_1.index t (2 : Fin 3) = 0
    ∧ win1_2.index t (0 : Fin 3) = 2 ∧ win1_2.index t (1 : Fin 3) = t.val % 4 ∧ win1_2.index t (2 : Fin 3) = 0
    ∧ win1_3.index t (0 : Fin 2) = t.val / 4 ∧ win1_3.index t (1 : Fin 2) = 0 :=
  (by decide +kernel : ∀ t : Fin grid1.N, _)

/-- The query block at a point: rows 512·qi … of plane 0. -/
theorem qblk1_apply (c : Dev nD) (qi : Fin 8) (kv : Fin 4) (r : Fin 512) (d : Fin 2048) :
    qblk1 V c (pt1 qi kv) (ix3 0 r d) = (V c main_v6 : S3x4096x2048.Idx → Elt F .bf16) (ix3 0 (Cert.Spec.qrow qi r) d) := by
  obtain ⟨e0, e1, e2, -⟩ := idx_facts1 (pt1 qi kv)
  show ((cfg1.win 0).blk (pt1 qi kv)).view.read (Elt F) (V c (Pipeline.arrRef spec1 0)) (ix3 0 r d) = _
  rw [View.read_apply]
  show V c main_v6 (((cfg1.win 0).blk (pt1 qi kv)).view.emb (ix3 0 r d)) = V c main_v6 (ix3 0 (Cert.Spec.qrow qi r) d)
  refine congrArg (V c main_v6) (funext fun a => Fin.ext ?_)
  match a with
  | ⟨0, _⟩ => show win1_0.index (pt1 qi kv) (0 : Fin 3) * 1 + 1 * 0 = 0; rw [e0]
  | ⟨1, _⟩ => show win1_0.index (pt1 qi kv) (1 : Fin 3) * 512 + 1 * r.val = 512 * qi.val + r.val; rw [e1, pt1_val]; omega
  | ⟨2, _⟩ => show win1_0.index (pt1 qi kv) (2 : Fin 3) * 2048 + 1 * d.val = d.val; rw [e2]; omega

/-- The key block at a point: rows 1024·kv … of plane 1. -/
theorem kblk1_apply (c : Dev nD) (qi : Fin 8) (kv : Fin 4) (j : Fin 1024) (d : Fin 2048) :
    kblk1 V c (pt1 qi kv) (ix3 0 j d) = (V c main_v6 : S3x4096x2048.Idx → Elt F .bf16) (ix3 1 (Cert.Spec.col kv j) d) := by
  obtain ⟨-, -, -, e0, e1, e2, -⟩ := idx_facts1 (pt1 qi kv)
  show ((cfg1.win 1).blk (pt1 qi kv)).view.read (Elt F) (V c (Pipeline.arrRef spec1 1)) (ix3 0 j d) = _
  rw [View.read_apply]
  show V c main_v6 (((cfg1.win 1).blk (pt1 qi kv)).view.emb (ix3 0 j d)) = V c main_v6 (ix3 1 (Cert.Spec.col kv j) d)
  refine congrArg (V c main_v6) (funext fun a => Fin.ext ?_)
  match a with
  | ⟨0, _⟩ => show win1_1.index (pt1 qi kv) (0 : Fin 3) * 1 + 1 * 0 = 1; rw [e0]
  | ⟨1, _⟩ => show win1_1.index (pt1 qi kv) (1 : Fin 3) * 1024 + 1 * j.val = 1024 * kv.val + j.val; rw [e1, pt1_val]; omega
  | ⟨2, _⟩ => show win1_1.index (pt1 qi kv) (2 : Fin 3) * 2048 + 1 * d.val = d.val; rw [e2]; omega

/-- The value block at a point: rows 1024·kv … of plane 2. -/
theorem vblk1_apply (c : Dev nD) (qi : Fin 8) (kv : Fin 4) (j : Fin 1024) (d : Fin 2048) :
    vblk1 V c (pt1 qi kv) (ix3 0 j d) = (V c main_v6 : S3x4096x2048.Idx → Elt F .bf16) (ix3 2 (Cert.Spec.col kv j) d) := by
  obtain ⟨-, -, -, -, -, -, e0, e1, e2, -⟩ := idx_facts1 (pt1 qi kv)
  show ((cfg1.win 2).blk (pt1 qi kv)).view.read (Elt F) (V c (Pipeline.arrRef spec1 2)) (ix3 0 j d) = _
  rw [View.read_apply]
  show V c main_v6 (((cfg1.win 2).blk (pt1 qi kv)).view.emb (ix3 0 j d)) = V c main_v6 (ix3 2 (Cert.Spec.col kv j) d)
  refine congrArg (V c main_v6) (funext fun a => Fin.ext ?_)
  match a with
  | ⟨0, _⟩ => show win1_2.index (pt1 qi kv) (0 : Fin 3) * 1 + 1 * 0 = 2; rw [e0]
  | ⟨1, _⟩ => show win1_2.index (pt1 qi kv) (1 : Fin 3) * 1024 + 1 * j.val = 1024 * kv.val + j.val; rw [e1, pt1_val]; omega
  | ⟨2, _⟩ => show win1_2.index (pt1 qi kv) (2 : Fin 3) * 2048 + 1 * d.val = d.val; rw [e2]; omega

/-- The output block of a query tile, read off any contents of the result array: rows 512·qi …. -/
theorem out_read (c : Dev nD) (G : Buf (Elt F) ((cfg1.win 3).arr.view.loc (c.tc : Thread nD τ))) (qi : Fin 8) (r : Fin 512) (d : Fin 2048) :
    ((cfg1.win 3).blk (pt1 qi 3)).view.read (Elt F) G (ix2 r d) = (G : S4096x2048.Idx → Elt F .f32) (ix2 (Cert.Spec.qrow qi r) d) := by
  obtain ⟨-, -, -, -, -, -, -, -, -, e0, e1⟩ := idx_facts1 (pt1 qi 3)
  rw [View.read_apply]
  show (G : S4096x2048.Idx → Elt F .f32) (((cfg1.win 3).blk (pt1 qi 3)).view.emb (ix2 r d)) = (G : S4096x2048.Idx → Elt F .f32) (ix2 (Cert.Spec.qrow qi r) d)
  refine congrArg (G : S4096x2048.Idx → Elt F .f32) (funext fun a => Fin.ext ?_)
  match a with
  | ⟨0, _⟩ => show win1_3.index (pt1 qi 3) (0 : Fin 2) * 512 + 1 * r.val = 512 * qi.val + r.val; rw [e0]; show (4 * qi.val + 3) / 4 * 512 + 1 * r.val = 512 * qi.val + r.val; omega
  | ⟨1, _⟩ => show win1_3.index (pt1 qi 3) (1 : Fin 2) * 2048 + 1 * d.val = d.val; rw [e1]; omega

/-- The output is written back at the last key/value tile of every query tile … -/
theorem flush_pt1_last (qi : Fin 8) : (cfg1.win 3).flush (pt1 qi 3) = true :=
  (flush1_3 (pt1 qi 3)).2 (by show (4 * qi.val + 3) % 4 = 3; omega)

/-- … and only there. -/
theorem exists_pt1_of_flush (t : Fin cfg1.N) (h : (cfg1.win 3).flush t = true) : ∃ qi : Fin 8, t = pt1 qi 3 := by
  have hN : cfg1.N = 32 := N_1
  have ht : t.val < cfg1.N := t.isLt
  have h3 : t.val % 4 = 3 := (flush1_3 t).1 h
  exact ⟨⟨t.val / 4, by omega⟩, Fin.ext (by show t.val = 4 * (t.val / 4) + 3; omega)⟩

/-- An index of the result array is in a point's output block iff each coordinate is in the block's range. -/
theorem mem_blk1_3 (t : Fin cfg1.N) (i : S4096x2048.Idx) :
    i ∈ ((cfg1.win 3).blk t).view.set ↔ ∀ a : Fin 2, win1_3.index t a * S512x2048.size a ≤ (i a).val ∧ (i a).val < win1_3.index t a * S512x2048.size a + S512x2048.size a := by
  show i ∈ ((View.whole main_v7).slice (win1_3.rect t)).set ↔ _
  rw [View.set_slice_whole, Rect.mem_set_unit]
  exact Iff.rfl

/-- The written-back blocks cover the result array: row i lies in the block of query tile i / 512. -/
theorem out_cover (c : Dev nD) (i : ((cfg1.win 3).arr.view.loc (c.tc : Thread nD τ)).2.ty.Idx) :
    ∃ t : Fin cfg1.N, (cfg1.win 3).flush t = true ∧ i ∈ ((cfg1.win 3).blk t).view.set := by
  have hi0 : ((i : S4096x2048.Idx) 0).val < 4096 := ((i : S4096x2048.Idx) 0).isLt
  have hi1 : ((i : S4096x2048.Idx) 1).val < 2048 := ((i : S4096x2048.Idx) 1).isLt
  refine ⟨pt1 ⟨((i : S4096x2048.Idx) 0).val / 512, by omega⟩ 3, flush_pt1_last _, ?_⟩
  obtain ⟨-, -, -, -, -, -, -, -, -, e0, e1⟩ := idx_facts1 (pt1 ⟨((i : S4096x2048.Idx) 0).val / 512, by omega⟩ 3)
  rw [mem_blk1_3]
  intro a
  match a with
  | ⟨0, _⟩ =>
    show win1_3.index (pt1 ⟨((i : S4096x2048.Idx) 0).val / 512, by omega⟩ 3) (0 : Fin 2) * 512 ≤ ((i : S4096x2048.Idx) 0).val ∧ ((i : S4096x2048.Idx) 0).val < win1_3.index (pt1 ⟨((i : S4096x2048.Idx) 0).val / 512, by omega⟩ 3) (0 : Fin 2) * 512 + 512
    rw [e0]
    show (4 * (((i : S4096x2048.Idx) 0).val / 512) + 3) / 4 * 512 ≤ ((i : S4096x2048.Idx) 0).val ∧ ((i : S4096x2048.Idx) 0).val < (4 * (((i : S4096x2048.Idx) 0).val / 512) + 3) / 4 * 512 + 512
    omega
  | ⟨1, _⟩ =>
    show win1_3.index (pt1 ⟨((i : S4096x2048.Idx) 0).val / 512, by omega⟩ 3) (1 : Fin 2) * 2048 ≤ ((i : S4096x2048.Idx) 1).val ∧ ((i : S4096x2048.Idx) 1).val < win1_3.index (pt1 ⟨((i : S4096x2048.Idx) 0).val / 512, by omega⟩ 3) (1 : Fin 2) * 2048 + 2048
    rw [e1]
    omega

end Cert.KernelIdeal.Val

end
-- ==== Proof.R1Value.lean ====
/-
  The array the attention kernel leaves. Inside one query tile the three scratch buffers carry, after the key/value
  tile kv, a real running maximum m, the normaliser ∑ exp (z - m) over the columns of the tiles seen so far, and the
  weighted sum ∑ exp (z - m) · v over the same columns: the first tile starts them, each later tile rescales them by
  exp (m - m') and adds its own columns. After the fourth tile the columns are all 4096, and the stored quotient is
  the softmax-weighted mean at the shift m. The eight output blocks tile the result.
-/
import proofs.«409648_j16458314678750_3_alg».proof.Proof.R1Defs
import proofs.«409648_j16458314678750_3_alg».proof.Proof.K1Val
import proofs.«409648_j16458314678750_3_alg».proof.Proof.Spec
import proofs.«409648_j16458314678750_3_alg».proof.Proof.R1Reads
import Idealize.ShloMosaic.Lib.ValueIdx
import Idealize.ShloMosaic.Lib.Pipeline.Value

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand
open scoped BigOperators

/-! ## The real side: blocks, logits, and the rescaling of a partial sum over tiles -/

section Real
variable (Q : Fin 3 → Fin 4096 → Fin 2048 → ℝ)

/-- The logits over the whole arrays: the root of the score of query row i against key row j. -/
def zq (i j : Fin 4096) : ℝ := Cert.Spec.root (Cert.Spec.score (Q 0) (Q 1) i j)

/-- The real query block of query tile qi. -/
def qbk (qi : Fin 8) : Fin 512 → Fin 2048 → ℝ := fun r d => Q 0 (Cert.Spec.qrow qi r) d
/-- The real key block of key/value tile kv. -/
def kbk (kv : Fin 4) : Fin 1024 → Fin 2048 → ℝ := fun j d => Q 1 (Cert.Spec.col kv j) d
/-- The real value block of key/value tile kv. -/
def vbk (kv : Fin 4) : Fin 1024 → Fin 2048 → ℝ := fun j d => Q 2 (Cert.Spec.col kv j) d

/-- A tile's logits are the whole arrays' logits at the tile's rows and columns. -/
theorem ztile_eq (qi : Fin 8) (kv : Fin 4) (r : Fin 512) (j : Fin 1024) :
    ztile (qbk Q qi) (kbk Q kv) r j = zq Q (Cert.Spec.qrow qi r) (Cert.Spec.col kv j) := rfl

end Real

/-- Rescaling a sum of exponentials over some tiles from shift m to shift m'. -/
theorem rescale_sum {A B : Type} [Fintype B] (S : Finset A) (z : A → B → ℝ) (m m' : ℝ) :
    Real.exp (m - m') * ∑ a ∈ S, ∑ b : B, Real.exp (z a b - m) = ∑ a ∈ S, ∑ b : B, Real.exp (z a b - m') := by
  rw [Finset.mul_sum]
  refine Finset.sum_congr rfl fun a _ => ?_
  have h := Cert.Spec.rescale (Finset.univ : Finset B) (z a) (fun _ => (1 : ℝ)) m m'
  simpa only [mul_one] using h

/-- Rescaling a weighted sum of exponentials over some tiles from shift m to shift m'. -/
theorem rescale_sum_mul {A B : Type} [Fintype B] (S : Finset A) (z v : A → B → ℝ) (m m' : ℝ) :
    Real.exp (m - m') * ∑ a ∈ S, ∑ b : B, Real.exp (z a b - m) * v a b = ∑ a ∈ S, ∑ b : B, Real.exp (z a b - m') * v a b := by
  rw [Finset.mul_sum]
  exact Finset.sum_congr rfl fun a _ => Cert.Spec.rescale (Finset.univ : Finset B) (z a) (v a) m m'

/-- The tiles up to the first are the first. -/
theorem tiles_zero : (Finset.univ.filter (· ≤ (0 : Fin 4)) : Finset (Fin 4)) = {0} := by decide
/-- The tiles up to the next are the next and the tiles so far. -/
theorem tiles_succ : ∀ kv kv' : Fin 4, kv'.val = kv.val + 1 →
    (Finset.univ.filter (· ≤ kv') : Finset (Fin 4)) = insert kv' (Finset.univ.filter (· ≤ kv)) ∧ kv' ∉ (Finset.univ.filter (· ≤ kv) : Finset (Fin 4)) := by decide
/-- The tiles up to the last are all. -/
theorem tiles_last : (Finset.univ.filter (· ≤ (3 : Fin 4)) : Finset (Fin 4)) = Finset.univ := by decide

/-! ## The invariant of the running state inside a query tile -/

/-- After key/value tile kv of query tile qi the state holds a real maximum mr, the normaliser and the weighted sum
    over the columns of the tiles up to kv at the shift mr. -/
def Inv (Q : Fin 3 → Fin 4096 → Fin 2048 → ℝ) (qi : Fin 8) (kv : Fin 4)
    (s : Vec Ideal S512x1 .f32 × Vec Ideal S512x1 .f32 × Vec Ideal S512x2048 .f32) (mr : Fin 512 → ℝ) : Prop :=
  (∀ r : Fin 512, s.1 (ix2 r 0) = ((mr r : ℝ) : EReal))
  ∧ (∀ r : Fin 512, s.2.1 (ix2 r 0)
      = ((∑ a ∈ Finset.univ.filter (· ≤ kv), ∑ b : Fin 1024, Real.exp (zq Q (Cert.Spec.qrow qi r) (Cert.Spec.col a b) - mr r) : ℝ) : EReal))
  ∧ (∀ (r : Fin 512) (d : Fin 2048), s.2.2 (ix2 r d)
      = ((∑ a ∈ Finset.univ.filter (· ≤ kv), ∑ b : Fin 1024,
            Real.exp (zq Q (Cert.Spec.qrow qi r) (Cert.Spec.col a b) - mr r) * Q 2 (Cert.Spec.col a b) d : ℝ) : EReal))

/-- The first tile starts the state from the reset one. -/
theorem inv_step_first (Q : Fin 3 → Fin 4096 → Fin 2048 → ℝ) (qi : Fin 8)
    (q : Vec Ideal S1x512x2048 .bf16) (k v : Vec Ideal S1x1024x2048 .bf16)
    (hq : ∀ r d, q (ix3 0 r d) = ((qbk Q qi r d : ℝ) : EReal)) (hk : ∀ j d, k (ix3 0 j d) = ((kbk Q 0 j d : ℝ) : EReal))
    (hv : ∀ j d, v (ix3 0 j d) = ((vbk Q 0 j d : ℝ) : EReal)) :
    Inv Q qi 0 (step1 q k v (reset1 (F := Ideal))) (tmax (qbk Q qi) (kbk Q 0)) := by
  refine ⟨fun r => ?_, fun r => ?_, fun r d => ?_⟩
  · exact first_m q k _ _ hq hk r
  · rw [tiles_zero, Finset.sum_singleton]
    exact first_l q k _ _ hq hk r
  · rw [tiles_zero, Finset.sum_singleton]
    exact first_a q k v _ _ _ hq hk hv r d

/-- A later tile rescales the state to the new maximum and adds its own columns. -/
theorem inv_step_next (Q : Fin 3 → Fin 4096 → Fin 2048 → ℝ) (qi : Fin 8) (kv kv' : Fin 4) (hkv : kv'.val = kv.val + 1)
    (q : Vec Ideal S1x512x2048 .bf16) (k v : Vec Ideal S1x1024x2048 .bf16)
    (hq : ∀ r d, q (ix3 0 r d) = ((qbk Q qi r d : ℝ) : EReal)) (hk : ∀ j d, k (ix3 0 j d) = ((kbk Q kv' j d : ℝ) : EReal))
    (hv : ∀ j d, v (ix3 0 j d) = ((vbk Q kv' j d : ℝ) : EReal))
    (s : Vec Ideal S512x1 .f32 × Vec Ideal S512x1 .f32 × Vec Ideal S512x2048 .f32) (mr : Fin 512 → ℝ) (hs : Inv Q qi kv s mr) :
    Inv Q qi kv' (step1 q k v s) (fun r => max (mr r) (tmax (qbk Q qi) (kbk Q kv') r)) := by
  obtain ⟨hm, hl, ha⟩ := hs
  obtain ⟨hins, hnot⟩ := tiles_succ kv kv' hkv
  refine ⟨fun r => ?_, fun r => ?_, fun r d => ?_⟩
  · exact next_m q k _ _ hq hk s.1 mr hm r
  · refine (next_l q k _ _ hq hk s.1 s.2.1 mr _ hm hl r).trans (congrArg _ ?_)
    rw [hins, Finset.sum_insert hnot, rescale_sum, add_comm]
    rfl
  · refine (next_a q k v _ _ _ hq hk hv s.1 s.2.2 mr _ hm ha r d).trans (congrArg _ ?_)
    rw [hins, Finset.sum_insert hnot,
      rescale_sum_mul _ (fun a b => zq Q (Cert.Spec.qrow qi r) (Cert.Spec.col a b)) (fun a b => Q 2 (Cert.Spec.col a b) d), add_comm]
    rfl

/-! ## The state at the points of a query tile -/

section Array
variable (V : (c : Dev nD) → (b : Ref sig .tc) → Buf (Elt Ideal) ((c : Thread nD τ).loc b)) (c : Dev nD)
  (Q : Fin 3 → Fin 4096 → Fin 2048 → ℝ)
  (hQ : ∀ p n d, (V c main_v6 : S3x4096x2048.Idx → Elt Ideal .bf16) (ix3 p n d) = ((Q p n d : ℝ) : EReal))

include hQ in
/-- The query block at a point is real. -/
theorem hq_pt (qi : Fin 8) (kv : Fin 4) (r : Fin 512) (d : Fin 2048) :
    qblk1 V c (pt1 qi kv) (ix3 0 r d) = ((qbk Q qi r d : ℝ) : EReal) :=
  (qblk1_apply V c qi kv r d).trans (hQ 0 _ d)

include hQ in
/-- The key block at a point is real. -/
theorem hk_pt (qi : Fin 8) (kv : Fin 4) (j : Fin 1024) (d : Fin 2048) :
    kblk1 V c (pt1 qi kv) (ix3 0 j d) = ((kbk Q kv j d : ℝ) : EReal) :=
  (kblk1_apply V c qi kv j d).trans (hQ 1 _ d)

include hQ in
/-- The value block at a point is real. -/
theorem hv_pt (qi : Fin 8) (kv : Fin 4) (j : Fin 1024) (d : Fin 2048) :
    vblk1 V c (pt1 qi kv) (ix3 0 j d) = ((vbk Q kv j d : ℝ) : EReal) :=
  (vblk1_apply V c qi kv j d).trans (hQ 2 _ d)

/-- The state after a point depends on the point's number only. -/
theorem st1_congr (n n' : ℕ) (h : n < cfg1.N) (h' : n' < cfg1.N) (e : n = n') : st1 V c n h = st1 V c n' h' := by
  subst e; rfl

include hQ in
/-- After the first key/value tile of a query tile. -/
theorem inv_first (qi : Fin 8) :
    Inv Q qi 0 (st1 V c (pt1 qi 0).val (pt1 qi 0).isLt) (tmax (qbk Q qi) (kbk Q 0)) := by
  rw [st1_first V c (pt1 qi 0) (by show (4 * qi.val + 0) % 4 = 0; omega)]
  exact inv_step_first Q qi _ _ _ (hq_pt V c Q hQ qi 0) (hk_pt V c Q hQ qi 0) (hv_pt V c Q hQ qi 0)

include hQ in
/-- After a later key/value tile, from the tile before it. -/
theorem inv_next (qi : Fin 8) (kv kv' : Fin 4) (hkv : kv'.val = kv.val + 1) (mr : Fin 512 → ℝ)
    (h : Inv Q qi kv (st1 V c (pt1 qi kv).val (pt1 qi kv).isLt) mr) :
    Inv Q qi kv' (st1 V c (pt1 qi kv').val (pt1 qi kv').isLt) (fun r => max (mr r) (tmax (qbk Q qi) (kbk Q kv') r)) := by
  rw [st1_next V c (pt1 qi kv') (by rw [pt1_val]; omega),
    st1_congr V c ((pt1 qi kv').val - 1) (pt1 qi kv).val _ (pt1 qi kv).isLt (by rw [pt1_val, pt1_val]; omega)]
  exact inv_step_next Q qi kv kv' hkv _ _ _ (hq_pt V c Q hQ qi kv') (hk_pt V c Q hQ qi kv') (hv_pt V c Q hQ qi kv') _ mr h

/-- The running maximum after the four tiles of a query tile. -/
def mfin (qi : Fin 8) (r : Fin 512) : ℝ :=
  max (max (max (tmax (qbk Q qi) (kbk Q 0) r) (tmax (qbk Q qi) (kbk Q 1) r)) (tmax (qbk Q qi) (kbk Q 2) r)) (tmax (qbk Q qi) (kbk Q 3) r)

include hQ in
/-- After the last key/value tile: the sums run over all four tiles. -/
theorem inv_last (qi : Fin 8) : Inv Q qi 3 (st1 V c (pt1 qi 3).val (pt1 qi 3).isLt) (mfin Q qi) :=
  inv_next V c Q hQ qi 2 3 rfl _ (inv_next V c Q hQ qi 1 2 rfl _ (inv_next V c Q hQ qi 0 1 rfl _ (inv_first V c Q hQ qi)))

/-! ## The block stored at the last tile -/

/-- A sum of exponentials over a row is positive, so it is not zero. -/
theorem norm_ne_zero (z : Fin 4096 → ℝ) (m : ℝ) : (∑ j : Fin 4096, Real.exp (z j - m)) ≠ 0 :=
  (Finset.sum_pos (fun j _ => Real.exp_pos _) Finset.univ_nonempty).ne'

include hQ in
/-- The stored block: the weighted sum over all 4096 columns divided by the normaliser, at the shift the running
    maximum ended at. -/
theorem outBlk1_apply (qi : Fin 8) (r : Fin 512) (d : Fin 2048) :
    outBlk1 V c (pt1 qi 3) (ix2 r d)
      = (((∑ j : Fin 4096, Real.exp (zq Q (Cert.Spec.qrow qi r) j - mfin Q qi r) * Q 2 j d)
          / ∑ j : Fin 4096, Real.exp (zq Q (Cert.Spec.qrow qi r) j - mfin Q qi r) : ℝ) : EReal) := by
  obtain ⟨hm, hl, ha⟩ := inv_last V c Q hQ qi
  rw [tiles_last] at hl ha
  have hl' : ∀ r : Fin 512, (st1 V c (pt1 qi 3).val (pt1 qi 3).isLt).2.1 (ix2 r 0)
      = ((∑ j : Fin 4096, Real.exp (zq Q (Cert.Spec.qrow qi r) j - mfin Q qi r) : ℝ) : EReal) := fun r => by
    rw [hl r, Cert.Spec.sum_col (fun j => Real.exp (zq Q (Cert.Spec.qrow qi r) j - mfin Q qi r))]
  have ha' : ∀ (r : Fin 512) (d : Fin 2048), (st1 V c (pt1 qi 3).val (pt1 qi 3).isLt).2.2 (ix2 r d)
      = ((∑ j : Fin 4096, Real.exp (zq Q (Cert.Spec.qrow qi r) j - mfin Q qi r) * Q 2 j d : ℝ) : EReal) := fun r d => by
    rw [ha r d, Cert.Spec.sum_col (fun j => Real.exp (zq Q (Cert.Spec.qrow qi r) j - mfin Q qi r) * Q 2 j d)]
  unfold outBlk1
  exact fin_div _ _ _ _ ha' hl' (fun r => norm_ne_zero _ _) r d

/-! ## The whole array -/

/-- The shift of row i: the running maximum its query tile ended at. -/
def Mfin (i : Fin 4096) : ℝ := mfin Q ⟨i.val / 512, by omega⟩ ⟨i.val % 512, Nat.mod_lt _ (by decide)⟩

theorem Mfin_qrow (qi : Fin 8) (r : Fin 512) : Mfin Q (Cert.Spec.qrow qi r) = mfin Q qi r := by
  unfold Mfin
  congr 1
  · exact Fin.ext (by show (512 * qi.val + r.val) / 512 = qi.val; omega)
  · exact Fin.ext (by show (512 * qi.val + r.val) % 512 = r.val; omega)

/-- The softmax-weighted mean of row i at its shift. -/
def outK (i : Fin 4096) (d : Fin 2048) : ℝ :=
  (∑ j : Fin 4096, Real.exp (zq Q i j - Mfin Q i) * Q 2 j d) / ∑ j : Fin 4096, Real.exp (zq Q i j - Mfin Q i)

/-- The array the launch leaves, as one function of the index. -/
def outG : S4096x2048.Idx → Elt Ideal .f32 := fun idx => ((outK Q ⟨(idx 0).val, idx2_lt0 idx⟩ ⟨(idx 1).val, idx2_lt1 idx⟩ : ℝ) : EReal)

theorem outG_ix2 (i : Fin 4096) (d : Fin 2048) : outG Q (ix2 i d) = ((outK Q i d : ℝ) : EReal) := rfl

include hQ in
/-- What a last tile's point writes back is its block of that function. -/
theorem flushed1_3 (t : Fin cfg1.N) (hf : (cfg1.win 3).flush t = true) :
    (dat1 V c).flushed 3 t = ((cfg1.win 3).blk t).view.read (Elt Ideal) (outG Q) := by
  obtain ⟨qi, rfl⟩ := exists_pt1_of_flush t hf
  refine funext fun (j : S512x2048.Idx) => ?_
  obtain ⟨r, d, rfl⟩ : ∃ (r : Fin 512) (d : Fin 2048), j = ix2 r d := ⟨j 0, j 1, eq_ix2 j⟩
  have hx : (cfg1.win 3).xinj (cfg1.grid.coords (pt1 qi 3)) (ix2 r d) = (ix2 r d : S512x2048.Idx) :=
    funext fun a => Fin.ext (by match a with | ⟨0, _⟩ => rfl | ⟨1, _⟩ => rfl)
  refine Eq.trans (?_ : _ = outBlk1 V c (pt1 qi 3) (ix2 r d)) ?_
  · show (dat1 V c).after 3 (pt1 qi 3) ((cfg1.win 3).xinj (cfg1.grid.coords (pt1 qi 3)) (ix2 r d)) = _
    rw [after1_3, hx]
  · rw [out_read c, outBlk1_apply V c Q hQ, outG_ix2, outK, Mfin_qrow]

include hQ in
/-- THE ARRAY the attention launch leaves: at every row the softmax-weighted mean of the value rows, at some shift. -/
theorem out_array : ∃ M : Fin 4096 → ℝ, ∀ (i : Fin 4096) (d : Fin 2048),
    (dat1 V c).arrAt 3 cfg1.N (ix2 i d)
      = (((∑ j : Fin 4096, Real.exp (Cert.Spec.root (Cert.Spec.score (Q 0) (Q 1) i j) - M i) * Q 2 j d)
          / ∑ j : Fin 4096, Real.exp (Cert.Spec.root (Cert.Spec.score (Q 0) (Q 1) i j) - M i) : ℝ) : EReal) := by
  refine ⟨Mfin Q, fun i d => ?_⟩
  rw [(dat1 V c).arrAt_eq_of_cover 3 (outG Q) (flushed1_3 V c Q hQ) (out_cover c)]
  rfl

end Array

end Cert.KernelIdeal.Val

end
-- ==== Proof.Bridge.lean ====
/-
  The kernel program's result as a function of real inputs. Through the host stretch the first region finds the
  activations and the three stacked weights; its write-backs leave the three projections; the second region reads them
  and leaves, row by row, the softmax-weighted mean of the value rows at SOME shift of the exponent (the running
  maximum it ended with). That mean does not depend on the shift, so it is the reference's arrangement.
-/
import proofs.«409648_j16458314678750_3_alg».proof.Proof.FrameMain
import proofs.«409648_j16458314678750_3_alg».proof.Proof.HostPrefix
import proofs.«409648_j16458314678750_3_alg».proof.Proof.R0Value
import proofs.«409648_j16458314678750_3_alg».proof.Proof.R1Value
import proofs.«409648_j16458314678750_3_alg».proof.Proof.Spec
import Idealize.ShloMosaic.Lib.ValueIdx

noncomputable section

namespace Cert.KernelIdeal.Val

open Cert.KernelIdeal Cert.KernelIdeal.Gen Cert.KernelIdeal.Hand Idealize.ShloMosaic Idealize.ShloMosaic.ValueIdx Idealize.ShloMosaic.TcCoe
open Idealize.SL Idealize.SL.Sem

variable (m : (ℓ : Loc nD τ sig) → Buf (Elt Ideal) ℓ) (c : Dev nD)
  (xr : Fin 4096 → Fin 2048 → ℝ) (wq wk wv : Fin 2048 → Fin 2048 → ℝ)
  (h0 : ∀ n k, m ((c.tc : Thread nD τ).loc main_arg0) (ix2 n k) = ((xr n k : ℝ) : EReal))
  (h1 : ∀ k d, m ((c.tc : Thread nD τ).loc main_arg1) (ix2 k d) = ((wq k d : ℝ) : EReal))
  (h2 : ∀ k d, m ((c.tc : Thread nD τ).loc main_arg2) (ix2 k d) = ((wk k d : ℝ) : EReal))
  (h3 : ∀ k d, m ((c.tc : Thread nD τ).loc main_arg3) (ix2 k d) = ((wv k d : ℝ) : EReal))

/-- The three weights stacked. -/
def stackW (wq wk wv : Fin 2048 → Fin 2048 → ℝ) : Fin 3 → Fin 2048 → Fin 2048 → ℝ
  | ⟨0, _⟩ => wq
  | ⟨1, _⟩ => wk
  | ⟨2, _⟩ => wv

include h0 h1 h2 h3 in
/-- The stacked projections the first region leaves are the three real projections. -/
theorem qkv_real (p : Fin 3) (n : Fin 4096) (d : Fin 2048) :
    (VR1 m c main_v6 : S3x4096x2048.Idx → Elt Ideal .bf16) (ix3 p n d) = ((Cert.Spec.proj xr (stackW wq wk wv p) n d : ℝ) : EReal) := by
  have e : VR1 m c main_v6 = qkvArr m c := by
    show Function.update (Gen.V1 m c) (Proc.devRef .tc main_v6) (qkvArr m c) (Proc.devRef .tc main_v6) = _
    rw [Function.update_self]
  rw [e]
  refine qkv_array (VR0 m) c xr (stackW wq wk wv) (fun n k => (v5_apply m c n k).trans (h0 n k)) (fun p k d => ?_) p n d
  match p with
  | ⟨0, _⟩ => exact (v4_apply_0 m c k d).trans (h1 k d)
  | ⟨1, _⟩ => exact (v4_apply_1 m c k d).trans (h2 k d)
  | ⟨2, _⟩ => exact (v4_apply_2 m c k d).trans (h3 k d)

include h0 h1 h2 h3 in
/-- The kernel program's output, entry (i, d), is the reference's arrangement of the real inputs. -/
theorem kernel_apply (i : Fin 4096) (d : Fin 2048) :
    (outArr m c : S4096x2048.Idx → Elt Ideal .f32) (ix2 i d) = ((Cert.Spec.outRef xr wq wk wv i d : ℝ) : EReal) := by
  obtain ⟨M, hM⟩ := out_array (VR1 m) c (fun p => Cert.Spec.proj xr (stackW wq wk wv p)) (qkv_real m c xr wq wk wv h0 h1 h2 h3)
  rw [show outArr m c = (dat1 (VR1 m) c).arrAt 3 cfg1.N from rfl, hM i d, ← Cert.Spec.outShift_eq_outRef xr wq wk wv (M i) i d]
  rfl

end Cert.KernelIdeal.Val

end
-- ==== Proof.RefValue.lean ====
/-
  The reference's value at an index, over real inputs: stage by stage, each host operation's element
  is the coercion of a real, and the last stage is the specification's `outRef`.
-/
import proofs.«409648_j16458314678750_3_alg».proof.Proof.Gen.ReferenceIdeal.Read
import proofs.«409648_j16458314678750_3_alg».proof.Proof.Spec
import Idealize.ShloMosaic.PureOps.Reduce
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx
open scoped BigOperators

/-! ## Index equations: the composed index functions at an index built from coordinates -/

theorem lidx_v0 (n : Fin 4096) (d : Fin 2048) (k : Fin 2048) : lidx_main_v0 (ix2 n d) k = ix2 n k :=
  funext fun a => Fin.ext (by match a with | ⟨0, _⟩ => rfl | ⟨1, _⟩ => rfl)
theorem ridx_v0 (n : Fin 4096) (d : Fin 2048) (k : Fin 2048) : ridx_main_v0 (ix2 n d) k = ix2 k d :=
  funext fun a => Fin.ext (by match a with | ⟨0, _⟩ => rfl | ⟨1, _⟩ => rfl)
theorem lidx_v1 (n : Fin 4096) (d : Fin 2048) (k : Fin 2048) : lidx_main_v1 (ix2 n d) k = ix2 n k :=
  funext fun a => Fin.ext (by match a with | ⟨0, _⟩ => rfl | ⟨1, _⟩ => rfl)
theorem ridx_v1 (n : Fin 4096) (d : Fin 2048) (k : Fin 2048) : ridx_main_v1 (ix2 n d) k = ix2 k d :=
  funext fun a => Fin.ext (by match a with | ⟨0, _⟩ => rfl | ⟨1, _⟩ => rfl)
theorem lidx_v2 (n : Fin 4096) (d : Fin 2048) (k : Fin 2048) : lidx_main_v2 (ix2 n d) k = ix2 n k :=
  funext fun a => Fin.ext (by match a with | ⟨0, _⟩ => rfl | ⟨1, _⟩ => rfl)
theorem ridx_v2 (n : Fin 4096) (d : Fin 2048) (k : Fin 2048) : ridx_main_v2 (ix2 n d) k = ix2 k d :=
  funext fun a => Fin.ext (by match a with | ⟨0, _⟩ => rfl | ⟨1, _⟩ => rfl)
theorem idx_v3 (d : Fin 2048) (j : Fin 4096) : idx_main_v3 (ix2 d j) = ix2 j d :=
  funext fun a => Fin.ext (by match a with | ⟨0, _⟩ => rfl | ⟨1, _⟩ => rfl)
theorem lidx_v4 (i j : Fin 4096) (k : Fin 2048) : lidx_main_v4 (ix2 i j) k = ix2 i k :=
  funext fun a => Fin.ext (by match a with | ⟨0, _⟩ => rfl | ⟨1, _⟩ => rfl)
theorem ridx_v4 (i j : Fin 4096) (k : Fin 2048) : ridx_main_v4 (ix2 i j) k = ix2 k j :=
  funext fun a => Fin.ext (by match a with | ⟨0, _⟩ => rfl | ⟨1, _⟩ => rfl)
theorem idx_v10 (i : Fin 4096) (z : Fin 1) : idx_main_v10 (ix2 i z) = ix1 i :=
  funext fun a => Fin.ext (by match a with | ⟨0, _⟩ => rfl)
theorem idx_v11 (i j : Fin 4096) : idx_main_v11 (ix2 i j) = ix2 i (0 : Fin 1) :=
  funext fun a => Fin.ext (by match a with | ⟨0, _⟩ => rfl | ⟨1, _⟩ => rfl)
theorem idx_v14 (i k : Fin 4096) : idx_main_v14 (ix1 i) k = ix2 i k :=
  funext fun a => Fin.ext (by match a with | ⟨0, _⟩ => rfl | ⟨1, _⟩ => rfl)
theorem idx_v15 (i : Fin 4096) (z : Fin 1) : idx_main_v15 (ix2 i z) = ix1 i :=
  funext fun a => Fin.ext (by match a with | ⟨0, _⟩ => rfl)
theorem idx_v16 (i j : Fin 4096) : idx_main_v16 (ix2 i j) = ix2 i (0 : Fin 1) :=
  funext fun a => Fin.ext (by match a with | ⟨0, _⟩ => rfl | ⟨1, _⟩ => rfl)
theorem lidx_v18 (i : Fin 4096) (d : Fin 2048) (k : Fin 4096) : lidx_main_v18 (ix2 i d) k = ix2 i k :=
  funext fun a => Fin.ext (by match a with | ⟨0, _⟩ => rfl | ⟨1, _⟩ => rfl)
theorem ridx_v18 (i : Fin 4096) (d : Fin 2048) (k : Fin 4096) : ridx_main_v18 (ix2 i d) k = ix2 k d :=
  funext fun a => Fin.ext (by match a with | ⟨0, _⟩ => rfl | ⟨1, _⟩ => rfl)

/-! ## Sums of products of reals, read in the extended reals -/

/-- A product x·W of real matrices read in the extended reals. -/
theorem proj_coe (xr : Fin 4096 → Fin 2048 → ℝ) (w : Fin 2048 → Fin 2048 → ℝ) (n : Fin 4096) (d : Fin 2048) :
    (∑ k : Fin 2048, ((xr n k : ℝ) : EReal) * ((w k d : ℝ) : EReal)) = ((Cert.Spec.proj xr w n d : ℝ) : EReal) := by
  unfold Cert.Spec.proj
  rw [Cert.Spec.coe_sum]
  exact Finset.sum_congr rfl fun k _ => (EReal.coe_mul _ _).symm

/-- The score q·kᵀ read in the extended reals. -/
theorem score_coe (q k : Fin 4096 → Fin 2048 → ℝ) (i j : Fin 4096) :
    (∑ d : Fin 2048, ((q i d : ℝ) : EReal) * ((k j d : ℝ) : EReal)) = ((Cert.Spec.score q k i j : ℝ) : EReal) := by
  unfold Cert.Spec.score
  rw [Cert.Spec.coe_sum]
  exact Finset.sum_congr rfl fun d _ => (EReal.coe_mul _ _).symm

/-! ## The constants -/

/-- The word 0x3F000000 is one half. -/
theorem ofBits_half : Ideal.ofBits .f32 0x3F000000#32 = ((1 / 2 : ℝ) : EReal) := by
  simp [Ideal.ofBits, Ideal.ieee, -EReal.coe_mul]
  norm_num

/-- The word 0xFF800000 is the bottom. -/
theorem ofBits_bot : Ideal.ofBits .f32 0xFF800000#32 = (⊥ : EReal) := by
  simp [Ideal.ofBits, Ideal.ieee]

/-! ## The fold of max from the bottom over real entries -/

/-- The fold of max from ⊥ over the coercions of real entries is the coercion of their largest. -/
theorem fold_max_coe (f : Fin 4096 → ℝ) :
    (Finset.univ : Finset (Fin 4096)).fold max (⊥ : EReal) (fun k => ((f k : ℝ) : EReal))
      = ((Finset.univ.sup' Finset.univ_nonempty f : ℝ) : EReal) := by
  have h1 : ((Finset.univ.sup' Finset.univ_nonempty f : ℝ) : EReal)
      = Finset.univ.sup' Finset.univ_nonempty (fun k => ((f k : ℝ) : EReal)) :=
    Finset.comp_sup'_eq_sup'_comp Finset.univ_nonempty (fun r : ℝ => (r : EReal)) (fun x y => EReal.coe_strictMono.monotone.map_max)
  rw [h1, Finset.sup'_eq_sup]
  rfl

/-! ## The stages at an index -/

section
variable (xr : Fin 4096 → Fin 2048 → ℝ) (wq wk wv : Fin 2048 → Fin 2048 → ℝ)
  (x0 : (⟨S4096x2048, .f32⟩ : BufTy).Contents (Elt Ideal)) (x1 x2 x3 : (⟨S2048x2048, .f32⟩ : BufTy).Contents (Elt Ideal))
  (h0 : ∀ n k, x0 (ix2 n k) = ((xr n k : ℝ) : EReal)) (h1 : ∀ k d, x1 (ix2 k d) = ((wq k d : ℝ) : EReal))
  (h2 : ∀ k d, x2 (ix2 k d) = ((wk k d : ℝ) : EReal)) (h3 : ∀ k d, x3 (ix2 k d) = ((wv k d : ℝ) : EReal))

include h0 h1 in
/-- The first projection, q = x·Wq. -/
theorem v0_apply (n : Fin 4096) (d : Fin 2048) :
    val_main_v0 (F := Ideal) x0 x1 (ix2 n d) = ((Cert.Spec.proj xr wq n d : ℝ) : EReal) := by
  rw [val_main_v0_apply, ← proj_coe]
  refine Finset.sum_congr rfl fun k _ => ?_
  rw [lidx_v0, ridx_v0, h0, h1]

include h0 h2 in
/-- The second projection, k = x·Wk. -/
theorem v1_apply (n : Fin 4096) (d : Fin 2048) :
    val_main_v1 (F := Ideal) x0 x2 (ix2 n d) = ((Cert.Spec.proj xr wk n d : ℝ) : EReal) := by
  rw [val_main_v1_apply, ← proj_coe]
  refine Finset.sum_congr rfl fun k _ => ?_
  rw [lidx_v1, ridx_v1, h0, h2]

include h0 h3 in
/-- The third projection, v = x·Wv. -/
theorem v2_apply (n : Fin 4096) (d : Fin 2048) :
    val_main_v2 (F := Ideal) x0 x3 (ix2 n d) = ((Cert.Spec.proj xr wv n d : ℝ) : EReal) := by
  rw [val_main_v2_apply, ← proj_coe]
  refine Finset.sum_congr rfl fun k _ => ?_
  rw [lidx_v2, ridx_v2, h0, h3]

include h0 h2 in
/-- The transpose of k. -/
theorem v3_apply (d : Fin 2048) (j : Fin 4096) :
    val_main_v3 (F := Ideal) x0 x2 (ix2 d j) = ((Cert.Spec.proj xr wk j d : ℝ) : EReal) := by
  rw [val_main_v3_apply, idx_v3, v1_apply xr wk x0 x2 h0 h2]

include h0 h1 h2 in
/-- The score q·kᵀ. -/
theorem v4_apply (i j : Fin 4096) :
    val_main_v4 (F := Ideal) x0 x1 x2 (ix2 i j)
      = ((Cert.Spec.score (Cert.Spec.proj xr wq) (Cert.Spec.proj xr wk) i j : ℝ) : EReal) := by
  rw [val_main_v4_apply, ← score_coe]
  refine Finset.sum_congr rfl fun k _ => ?_
  rw [lidx_v4, ridx_v4, v0_apply xr wq x0 x1 h0 h1, v3_apply xr wk x0 x2 h0 h2]

/-- The exponent: one half everywhere. -/
theorem v5_apply (i j : Fin 4096) : val_main_v5 (F := Ideal) (ix2 i j) = ((1 / 2 : ℝ) : EReal) := by
  rw [val_main_v5_apply, val_main_cst_apply, Ideal.ofBits_def, ofBits_half]

include h0 h1 h2 in
/-- The logits: the power one half of the score is the root of its positive part. -/
theorem v6_apply (i j : Fin 4096) :
    val_main_v6 (F := Ideal) x0 x1 x2 (ix2 i j) = ((Cert.Spec.logit xr wq wk i j : ℝ) : EReal) := by
  rw [val_main_v6_apply, v4_apply xr wq wk x0 x1 x2 h0 h1 h2, v5_apply, Ideal.hostPowf_def, Ideal.pow_coe_coe,
    Cert.Spec.rpow_half_eq_root]
  rfl
end

section
variable (xr : Fin 4096 → Fin 2048 → ℝ) (wq wk wv : Fin 2048 → Fin 2048 → ℝ)
  (x0 : (⟨S4096x2048, .f32⟩ : BufTy).Contents (Elt Ideal)) (x1 x2 x3 : (⟨S2048x2048, .f32⟩ : BufTy).Contents (Elt Ideal))
  (h0 : ∀ n k, x0 (ix2 n k) = ((xr n k : ℝ) : EReal)) (h1 : ∀ k d, x1 (ix2 k d) = ((wq k d : ℝ) : EReal))
  (h2 : ∀ k d, x2 (ix2 k d) = ((wk k d : ℝ) : EReal)) (h3 : ∀ k d, x3 (ix2 k d) = ((wv k d : ℝ) : EReal))

/-- The reduced row's index with the column inserted. -/
theorem lift_d1 (h : S4096x4096.Reduces [1] S4096) (i k : Fin 4096) : h.lift (ix1 i) k = ix2 i k :=
  funext fun a => Fin.ext (by match a with | ⟨0, _⟩ => rfl | ⟨1, _⟩ => rfl)

include h0 h1 h2 in
/-- The row maximum: the fold of max from the bottom over the row's logits is their largest. -/
theorem v7_apply (i : Fin 4096) :
    val_main_v7 (F := Ideal) x0 x1 x2 (ix1 i) = ((Cert.Spec.top (Cert.Spec.logit xr wq wk i) : ℝ) : EReal) := by
  have hR : S4096x4096.Reduces [1] S4096 := by decide
  unfold val_main_v7
  rw [Host.reduce_eq_fold_single FloatOps.maximumf _ _ reducesTo_S4096x4096_S4096_d1 hR h_S_ (ix1 i)]
  have hf : (val_main_v6 (F := Ideal) x0 x1 x2 ∘ hR.lift (ix1 i))
      = fun k : Fin 4096 => ((Cert.Spec.logit xr wq wk i k : ℝ) : EReal) := funext fun (k : Fin 4096) =>
    (congrArg (val_main_v6 (F := Ideal) x0 x1 x2) (lift_d1 hR i k)).trans (v6_apply xr wq wk x0 x1 x2 h0 h1 h2 i k)
  rw [hf, val_main_cst_0_apply, Ideal.ofBits_def, ofBits_bot]
  exact fold_max_coe _

/-- The bottom, broadcast. -/
theorem v8_apply (i : Fin 4096) : val_main_v8 (F := Ideal) (ix1 i) = (⊥ : EReal) := by
  rw [val_main_v8_apply, val_main_cst_1_apply, Ideal.ofBits_def, ofBits_bot]

include h0 h1 h2 in
/-- The maximum with the bottom drops. -/
theorem v9_apply (i : Fin 4096) :
    val_main_v9 (F := Ideal) x0 x1 x2 (ix1 i) = ((Cert.Spec.top (Cert.Spec.logit xr wq wk i) : ℝ) : EReal) := by
  rw [val_main_v9_apply, v8_apply, v7_apply xr wq wk x0 x1 x2 h0 h1 h2, Ideal.maximumf_def]
  exact max_eq_right bot_le

include h0 h1 h2 in
/-- The row maximum as a column. -/
theorem v10_apply (i : Fin 4096) (z : Fin 1) :
    val_main_v10 (F := Ideal) x0 x1 x2 (ix2 i z) = ((Cert.Spec.top (Cert.Spec.logit xr wq wk i) : ℝ) : EReal) := by
  rw [val_main_v10_apply, idx_v10, v9_apply xr wq wk x0 x1 x2 h0 h1 h2]

include h0 h1 h2 in
/-- The row maximum along the row. -/
theorem v11_apply (i j : Fin 4096) :
    val_main_v11 (F := Ideal) x0 x1 x2 (ix2 i j) = ((Cert.Spec.top (Cert.Spec.logit xr wq wk i) : ℝ) : EReal) := by
  rw [val_main_v11_apply, idx_v11, v10_apply xr wq wk x0 x1 x2 h0 h1 h2]

include h0 h1 h2 in
/-- The shifted logits. -/
theorem v12_apply (i j : Fin 4096) :
    val_main_v12 (F := Ideal) x0 x1 x2 (ix2 i j)
      = ((Cert.Spec.logit xr wq wk i j - Cert.Spec.top (Cert.Spec.logit xr wq wk i) : ℝ) : EReal) := by
  rw [val_main_v12_apply, v6_apply xr wq wk x0 x1 x2 h0 h1 h2, v11_apply xr wq wk x0 x1 x2 h0 h1 h2, Ideal.subf_def,
    EReal.coe_sub]

include h0 h1 h2 in
/-- The exponentials. -/
theorem v13_apply (i j : Fin 4096) :
    val_main_v13 (F := Ideal) x0 x1 x2 (ix2 i j)
      = ((Real.exp (Cert.Spec.logit xr wq wk i j - Cert.Spec.top (Cert.Spec.logit xr wq wk i)) : ℝ) : EReal) := by
  rw [val_main_v13_apply, v12_apply xr wq wk x0 x1 x2 h0 h1 h2, Ideal.hostUnary_exp_def, Ideal.exp_coe]

include h0 h1 h2 in
/-- The normaliser: the sum of the row's exponentials from zero. -/
theorem v14_apply (i : Fin 4096) :
    val_main_v14 (F := Ideal) x0 x1 x2 (ix1 i)
      = ((∑ j : Fin 4096, Real.exp (Cert.Spec.logit xr wq wk i j - Cert.Spec.top (Cert.Spec.logit xr wq wk i)) : ℝ) : EReal) := by
  rw [val_main_v14_apply, val_main_cst_2_apply, Ideal.ofBits_def, Ideal.ofBits_zero_f32, zero_add, Cert.Spec.coe_sum]
  refine Finset.sum_congr rfl fun k _ => ?_
  rw [idx_v14, v13_apply xr wq wk x0 x1 x2 h0 h1 h2]

include h0 h1 h2 in
/-- The normaliser as a column. -/
theorem v15_apply (i : Fin 4096) (z : Fin 1) :
    val_main_v15 (F := Ideal) x0 x1 x2 (ix2 i z)
      = ((∑ j : Fin 4096, Real.exp (Cert.Spec.logit xr wq wk i j - Cert.Spec.top (Cert.Spec.logit xr wq wk i)) : ℝ) : EReal) := by
  rw [val_main_v15_apply, idx_v15, v14_apply xr wq wk x0 x1 x2 h0 h1 h2]

include h0 h1 h2 in
/-- The normaliser along the row. -/
theorem v16_apply (i j : Fin 4096) :
    val_main_v16 (F := Ideal) x0 x1 x2 (ix2 i j)
      = ((∑ j : Fin 4096, Real.exp (Cert.Spec.logit xr wq wk i j - Cert.Spec.top (Cert.Spec.logit xr wq wk i)) : ℝ) : EReal) := by
  rw [val_main_v16_apply, idx_v16, v15_apply xr wq wk x0 x1 x2 h0 h1 h2]

/-- A sum of exponentials over a row is positive, so it is not zero. -/
theorem sum_exp_ne_zero (z : Fin 4096 → ℝ) (m : ℝ) : (∑ j : Fin 4096, Real.exp (z j - m)) ≠ 0 :=
  (Finset.sum_pos (fun j _ => Real.exp_pos _) Finset.univ_nonempty).ne'

include h0 h1 h2 in
/-- The normalised weights: a quotient of reals with a positive denominator. -/
theorem v17_apply (i j : Fin 4096) :
    val_main_v17 (F := Ideal) x0 x1 x2 (ix2 i j)
      = ((Real.exp (Cert.Spec.logit xr wq wk i j - Cert.Spec.top (Cert.Spec.logit xr wq wk i))
          / ∑ j' : Fin 4096, Real.exp (Cert.Spec.logit xr wq wk i j' - Cert.Spec.top (Cert.Spec.logit xr wq wk i)) : ℝ) : EReal) := by
  rw [val_main_v17_apply, v13_apply xr wq wk x0 x1 x2 h0 h1 h2, v16_apply xr wq wk x0 x1 x2 h0 h1 h2, Ideal.hostDivf_def,
    Ideal.div_coe (sum_exp_ne_zero _ _), ← EReal.coe_mul, mul_one_div]

end

/-- The reference's value at an index: the normalised weights times v, the specification's `outRef`. -/
theorem ref_apply (xr : Fin 4096 → Fin 2048 → ℝ) (wq wk wv : Fin 2048 → Fin 2048 → ℝ)
    (x0 : (⟨Cert.ReferenceIdeal.S4096x2048, .f32⟩ : BufTy).Contents (Elt Ideal)) (x1 x2 x3 : (⟨Cert.ReferenceIdeal.S2048x2048, .f32⟩ : BufTy).Contents (Elt Ideal))
    (h0 : ∀ n k, x0 (ValueIdx.ix2 n k) = ((xr n k : ℝ) : EReal)) (h1 : ∀ k d, x1 (ValueIdx.ix2 k d) = ((wq k d : ℝ) : EReal))
    (h2 : ∀ k d, x2 (ValueIdx.ix2 k d) = ((wk k d : ℝ) : EReal)) (h3 : ∀ k d, x3 (ValueIdx.ix2 k d) = ((wv k d : ℝ) : EReal))
    (i : Fin 4096) (d : Fin 2048) :
    Cert.ReferenceIdeal.Read.val_main_v18 (F := Ideal) x0 x1 x2 x3 (ValueIdx.ix2 i d) = ((Cert.Spec.outRef xr wq wk wv i d : ℝ) : EReal) := by
  unfold Cert.Spec.outRef
  rw [val_main_v18_apply, Cert.Spec.coe_sum]
  refine Finset.sum_congr rfl fun k _ => ?_
  rw [lidx_v18, ridx_v18, v17_apply xr wq wk x0 x1 x2 h0 h1 h2, v2_apply xr wv x0 x3 h0 h3, EReal.coe_mul]

end Cert.ReferenceIdeal.RefValue

end
-- ==== Proof.Finite.lean ====
/-
  From the precondition to real matrices. The precondition is the conjunction, over the four argument arrays, of
  "every entry x has |x| < +∞", each an all-reduction by `and` of the entrywise comparison. An extended real whose
  absolute value max x (-x) is below +∞ is neither +∞ nor -∞, hence a real; choosing these reals entry by entry gives
  the four real matrices the mathematics of the certificate is stated over.
-/
import proofs.«409648_j16458314678750_3_alg».proof.Defs
import proofs.«409648_j16458314678750_3_alg».proof.Proof.Gen.Pre_finite_inputs
import Idealize.ShloMosaic.Lib.ReduceAll
import Idealize.ShloMosaic.Lib.ValueIdx
import Idealize.ShloMosaic.Lib.IdealHost

namespace Cert.Finite

open Idealize.ShloMosaic Idealize.ShloMosaic.ValueIdx Cert.Pre_finite_inputs

/-- The scalar shape has one index. -/
instance : Subsingleton S_.Idx := ⟨fun a b => funext fun d => d.elim0⟩

/-- The f32 word 0x7F800000 denotes +∞. -/
theorem ofBits_inf : Ideal.ofBits .f32 0x7F800000#32 = (⊤ : EReal) := by
  simp [Ideal.ofBits, Ideal.ieee]

/-- An extended real whose absolute value max x (-x) is strictly below +∞ is a real. -/
theorem real_of_abs_lt_top (x : EReal) (h : Ideal.cmp .olt (max x (-x)) (⊤ : EReal) = 1#1) : ∃ r : ℝ, x = (r : EReal) := by
  induction x using EReal.rec with
  | bot => simp [Ideal.cmp] at h
  | coe r => exact ⟨r, rfl⟩
  | top => simp [Ideal.cmp] at h

/-- One conjunct of the precondition: an array whose all-reduction of "|x| < +∞" is 1 has only real entries. -/
theorem entry_real {s : Shape} {axes : List (Fin s.rank)} (x : FVec Ideal s .f32) (hb : S_.BroadcastsInDim s (![] : Fin 0 → Fin s.rank))
    (hr : s.ReducesTo axes S_) (hu : 0 < S_.numel)
    (e : Host.reduce IntOp.andi (cmpf .olt (Host.absf (F := Ideal) x) (broadcastInDim s ![] hb (constant (F := Ideal) S_ .f32 0x7F800000#32)))
          (constantI S_ 1 1#1) hr hu ix0 = 1#1) (i : s.Idx) : ∃ r : ℝ, x i = (r : EReal) := by
  have hi := Host.reduce_andi_all _ _ hr hu ix0 e i
  rw [cmpf_apply, broadcastInDim_scalar_apply, constant_apply, ofBits_inf] at hi
  exact real_of_abs_lt_top (x i) hi

/-- The precondition gives four real matrices of which the argument arrays are the coercions. -/
theorem reals_of_pre [hP : Cert.Pre_finite_inputs.Facts] (m : (ℓ : Loc Cert.KernelIdeal.nD Cert.KernelIdeal.τ Cert.KernelIdeal.sig) → Buf (Elt Ideal) ℓ) (h : Cert.Pre_KernelIdeal m) (c : Dev Cert.KernelIdeal.nD) :
    ∃ (xr : Fin 4096 → Fin 2048 → ℝ) (wq wk wv : Fin 2048 → Fin 2048 → ℝ),
      (∀ n k, m ((c.tc : Thread Cert.KernelIdeal.nD Cert.KernelIdeal.τ).loc Cert.KernelIdeal.main_arg0) (ValueIdx.ix2 n k) = ((xr n k : ℝ) : EReal))
      ∧ (∀ k d, m ((c.tc : Thread Cert.KernelIdeal.nD Cert.KernelIdeal.τ).loc Cert.KernelIdeal.main_arg1) (ValueIdx.ix2 k d) = ((wq k d : ℝ) : EReal))
      ∧ (∀ k d, m ((c.tc : Thread Cert.KernelIdeal.nD Cert.KernelIdeal.τ).loc Cert.KernelIdeal.main_arg2) (ValueIdx.ix2 k d) = ((wk k d : ℝ) : EReal))
      ∧ (∀ k d, m ((c.tc : Thread Cert.KernelIdeal.nD Cert.KernelIdeal.τ).loc Cert.KernelIdeal.main_arg3) (ValueIdx.ix2 k d) = ((wv k d : ℝ) : EReal)) := by
  have h0 := congrFun (h c) ValueIdx.ix0
  dsimp only [Cert.Pre_finite_inputs.fn, Cert.Pre_finite_inputs.fn_part1] at h0
  obtain ⟨h012, h3⟩ := IntOp.andi_eq_one.1 h0
  obtain ⟨h01, h2⟩ := IntOp.andi_eq_one.1 h012
  obtain ⟨h0', h1⟩ := IntOp.andi_eq_one.1 h01
  choose xr hxr using fun (n : Fin 4096) (k : Fin 2048) => entry_real _ _ _ _ h0' (ix2 n k)
  choose wq hwq using fun (k : Fin 2048) (d : Fin 2048) => entry_real _ _ _ _ h1 (ix2 k d)
  choose wk hwk using fun (k : Fin 2048) (d : Fin 2048) => entry_real _ _ _ _ h2 (ix2 k d)
  choose wv hwv using fun (k : Fin 2048) (d : Fin 2048) => entry_real _ _ _ _ h3 (ix2 k d)
  exact ⟨xr, wq, wk, wv, hxr, hwq, hwk, hwv⟩

end Cert.Finite
-- ==== Proof.Claims.lean ====
/-
  The two claims that are not kernel frames. The reference's frame is its run with the result dropped. For the
  algebraic claim the witness is the output array the kernel's run leaves; the reference's run leaves its own composed
  term of the same arguments, and the two arrays are equal entry by entry: the precondition makes every argument entry a
  real, over real matrices the reference's term at (i, d) is the specification's normalised-weights arrangement, and
  the kernel's output at (i, d) is the same real.
-/
import proofs.«409648_j16458314678750_3_alg».proof.Defs
import proofs.«409648_j16458314678750_3_alg».proof.Proof.Gen.KernelIdeal
import proofs.«409648_j16458314678750_3_alg».proof.Proof.Gen.ReferenceIdeal
import proofs.«409648_j16458314678750_3_alg».proof.Proof.Gen.Pre_finite_inputs
import proofs.«409648_j16458314678750_3_alg».proof.Proof.Gen.ReferenceIdeal.Run
import proofs.«409648_j16458314678750_3_alg».proof.Proof.Gen.ReferenceIdeal.Read
import proofs.«409648_j16458314678750_3_alg».proof.Proof.FrameMain
import proofs.«409648_j16458314678750_3_alg».proof.Proof.Bridge
import proofs.«409648_j16458314678750_3_alg».proof.Proof.RefValue
import proofs.«409648_j16458314678750_3_alg».proof.Proof.Finite
import Idealize.ShloMosaic.Lib.ValueIdx

noncomputable section

open Idealize.ShloMosaic Idealize.ShloMosaic.TcCoe Idealize.SL.Sem

namespace Cert.Proof.Claims

open Idealize.ShloMosaic.ValueIdx

/-- The reference runs and its argument arrays end unchanged: its run, the result's equation dropped. -/
theorem frame_ri : Cert.frame_ReferenceIdeal (hReferenceIdeal := Cert.ReferenceIdeal.Gen.facts) (hPre_finite_inputs := Cert.Pre_finite_inputs.Gen.facts) :=
  fun m ρ _ =>
    (θ_run Cert.ReferenceIdeal.defs _ _).mono (fun _ h c => (h c).2) (Cert.ReferenceIdeal.Value.run (F := Ideal) m ρ)

/-- From memories that agree on the arguments both programs run, leave the arguments unchanged, and leave equal
    results: entry (i, d) of either is the softmax-weighted mean of the value rows over the real inputs. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m g m' g' hpre hagree
  refine ⟨fun c => Cert.KernelIdeal.Hand.outArr (F := Ideal) m c, Cert.KernelIdeal.Hand.run_value m g, ?_⟩
  refine (θ_run Cert.ReferenceIdeal.defs _ _).mono (fun _ h c => ⟨(h c).1.trans ?_, (h c).2⟩)
    (Cert.ReferenceIdeal.Value.run (F := Ideal) m' g')
  rw [Cert.ReferenceIdeal.Read.val_main_v18_eq, (hagree c).1, (hagree c).2.1, (hagree c).2.2.1, (hagree c).2.2.2]
  obtain ⟨xr, wq, wk, wv, h0, h1, h2, h3⟩ := Cert.Finite.reals_of_pre m hpre c
  funext j
  obtain ⟨i, d, rfl⟩ : ∃ (i : Fin 4096) (d : Fin 2048), j = ix2 i d := ⟨j 0, j 1, eq_ix2 j⟩
  exact (Cert.ReferenceIdeal.RefValue.ref_apply xr wq wk wv _ _ _ _ h0 h1 h2 h3 i d).trans
    (Cert.KernelIdeal.Val.kernel_apply m c xr wq wk wv h0 h1 h2 h3 i d).symm

end Cert.Proof.Claims

end
-- ==== Proof.lean ====
/-
  The certificate: a fused projection kernel followed by a flash-style attention kernel with square-root score
  scaling, against x·Wq, x·Wk, x·Wv, softmax_rows((q·kᵀ) ^ ½)·v computed by host operations, over the extended reals.

  Frames. Both kernels carry scratch state between grid points (a matmul accumulator over the two reduction steps;
  a running row maximum, normaliser and weighted sum over the four key/value tiles), so each region's proof data
  names that state point by point, and @main is run as three segments — the host stretch and the two regions —, the
  second region reading through three windows the one array the first region wrote. The same text serves the
  word-level program and its idealization: nothing in it depends on the float instance.

  Values, at the ideal instance, under the precondition that every input is finite (so every intermediate is a
  real): the first region's array is the three projections; the reference's power ½ is Mathlib's real power, which
  on a negative base is exp(½ log|s|)·cos(π/2) = 0 = √(max s 0), the kernel's scaling; the kernel's tile-by-tile
  rescaling is exp (m - m')·exp (z - m) = exp (z - m'), so its last state is the weighted sum and the normaliser at
  the shift it ended with, and a softmax-weighted mean does not depend on the shift; the reference's weights
  normalised before the product with v give the same mean.

  The ideal pass rewrote nothing, so the idealization is the kernel's own text and `preserves` asks nothing.
-/
import proofs.«409648_j16458314678750_3_alg».proof.Defs
import proofs.«409648_j16458314678750_3_alg».proof.Proof.Gen.Kernel
import proofs.«409648_j16458314678750_3_alg».proof.Proof.Gen.KernelIdeal
import proofs.«409648_j16458314678750_3_alg».proof.Proof.Gen.ReferenceIdeal
import proofs.«409648_j16458314678750_3_alg».proof.Proof.Gen.Pre_finite_inputs
import proofs.«409648_j16458314678750_3_alg».proof.Proof.Bits.FrameMain
import proofs.«409648_j16458314678750_3_alg».proof.Proof.FrameMain
import proofs.«409648_j16458314678750_3_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame (F := Bits) m ρ,
    fun m ρ _ => Cert.KernelIdeal.Hand.frame (F := Ideal) m ρ,
    Cert.Proof.Claims.frame_ri,
    trivial,
    Cert.Proof.Claims.algebraic⟩

end Cert.Proof

end
